-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v0)) (v3 : (c : Dev Cert.KernelIdeal.nD) → Buf (Elt Ideal) ((c.tc : Thread Cert.KernelIdeal.nD Cert.KernelIdeal.τ).loc Cert.KernelIdeal.main_v30_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_v30_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S8192x63 : Shape := ⟨2, ![8192, 63]⟩
abbrev S64 : Shape := ⟨1, ![64]⟩
abbrev S16x64 : Shape := ⟨2, ![16, 64]⟩
abbrev S16 : Shape := ⟨1, ![16]⟩
abbrev S64x16 : Shape := ⟨2, ![64, 16]⟩
abbrev S16x64x7 : Shape := ⟨3, ![16, 64, 7]⟩
abbrev S64x16x7 : Shape := ⟨3, ![64, 16, 7]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S8192x63 : S_.BroadcastsInDim S8192x63 (![] : Fin 0 → Fin S8192x63.rank)
  reducesTo_S8192x63_S_d0_1 : S8192x63.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_
  bcast_S_S16x64x7 : S_.BroadcastsInDim S16x64x7 (![] : Fin 0 → Fin S16x64x7.rank)
  reducesTo_S16x64x7_S_d0_1_2 : S16x64x7.ReducesTo [0, 1, 2] S_
  bcast_S_S64x16x7 : S_.BroadcastsInDim S64x16x7 (![] : Fin 0 → Fin S64x16x7.rank)
  reducesTo_S64x16x7_S_d0_1_2 : S64x16x7.ReducesTo [0, 1, 2] S_

variable [Facts]

def fn_part5 {F : FTy → Type} [FloatOps F] (main_arg18 : FVec F S64 .f32) (main_arg19 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  main_v98

def fn_part4 {F : FTy → Type} [FloatOps F] (main_arg14 : FVec F S64x16x7 .f32) (main_arg15 : FVec F S64 .f32) (main_arg16 : FVec F S64 .f32) (main_arg17 : FVec F S64 .f32) (main_arg18 : FVec F S64 .f32) (main_arg19 : FVec F S64 .f32) (main_v63 : IVec S_ 1) (main_v67 : IVec S_ 1) : IVec S_ 1 :=
  let main_v68 : IVec S_ 1 := andi main_v63 main_v67
  let main_v69 : FVec F S64x16x7 .f32 := Host.absf main_arg14
  let main_cst_26 : FVec F S_ .f32 := constant S_ .f32 0x7F800000#32
  let main_v70 : FVec F S64x16x7 .f32 := broadcastInDim S64x16x7 ![] bcast_S_S64x16x7 main_cst_26
  let main_v71 : IVec S64x16x7 1 := cmpf .olt main_v69 main_v70
  let main_c_27 : IVec S_ 1 := constantI S_ 1 1#1
  let main_v72 : IVec S_ 1 := (fun x v => Host.reduce IntOp.andi x v reducesTo_S64x16x7_S_d0_1_2 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S16 .f32) (main_arg12 : FVec F S16 .f32) (main_arg13 : FVec F S16 .f32) (main_arg14 : FVec F S64x16x7 .f32) (main_arg15 : FVec F S64 .f32) (main_arg16 : FVec F S64 .f32) (main_arg17 : FVec F S64 .f32) (main_arg18 : FVec F S64 .f32) (main_arg19 : FVec F S64 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg14 main_arg15 main_arg16 main_arg17 main_arg18 main_arg19 main_v63 main_v67

def fn_part2 {F : FTy → Type} [FloatOps F] (main_arg7 : FVec F S64 .f32) (main_arg8 : FVec F S16x64x7 .f32) (main_arg9 : FVec F S16 .f32) (main_arg10 : FVec F S16 .f32) (main_arg11 : FVec F S16 .f32) (main_arg12 : FVec F S16 .f32) (main_arg13 : FVec F S16 .f32) (main_arg14 : FVec F S64x16x7 .f32) (main_arg15 : FVec F S64 .f32) (main_arg16 : FVec F S64 .f32) (main_arg17 : FVec F S64 .f32) (main_arg18 : FVec F S64 .f32) (main_arg19 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S16x64x7 .f32 := Host.absf main_arg8
  let main_cst_14 : FVec F S_ .f32 := constant S_ .f32 0x7F800000#32
  let main_v40 : FVec F S16x64x7 .f32 := broadcastInDim S16x64x7 ![] bcast_S_S16x64x7 main_cst_14
  let main_v41 : IVec S16x64x7 1 := cmpf .olt main_v39 main_v40
  let main_c_15 : IVec S_ 1 := constantI S_ 1 1#1
  let main_v42 : IVec S_ 1 := (fun x v => Host.reduce IntOp.andi x v reducesTo_S16x64x7_S_d0_1_2 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S16x64 .f32) (main_arg5 : FVec F S16 .f32) (main_arg6 : FVec F S64x16 .f32) (main_arg7 : FVec F S64 .f32) (main_arg8 : FVec F S16x64x7 .f32) (main_arg9 : FVec F S16 .f32) (main_arg10 : FVec F S16 .f32) (main_arg11 : FVec F S16 .f32) (main_arg12 : FVec F S16 .f32) (main_arg13 : FVec F S16 .f32) (main_arg14 : FVec F S64x16x7 .f32) (main_arg15 : FVec F S64 .f32) (main_arg16 : FVec F S64 .f32) (main_arg17 : FVec F S64 .f32) (main_arg18 : FVec F S64 .f32) (main_arg19 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S8192x1 .f32) (main_arg1 : FVec F S8192x63 .f32) (main_arg2 : FVec F S64 .f32) (main_arg3 : FVec F S64 .f32) (main_arg4 : FVec F S16x64 .f32) (main_arg5 : FVec F S16 .f32) (main_arg6 : FVec F S64x16 .f32) (main_arg7 : FVec F S64 .f32) (main_arg8 : FVec F S16x64x7 .f32) (main_arg9 : FVec F S16 .f32) (main_arg10 : FVec F S16 .f32) (main_arg11 : FVec F S16 .f32) (main_arg12 : FVec F S16 .f32) (main_arg13 : FVec F S16 .f32) (main_arg14 : FVec F S64x16x7 .f32) (main_arg15 : FVec F S64 .f32) (main_arg16 : FVec F S64 .f32) (main_arg17 : FVec F S64 .f32) (main_arg18 : FVec F S64 .f32) (main_arg19 : FVec F S64 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x63 .f32 := Host.absf main_arg1
  let main_cst_0 : FVec F S_ .f32 := constant S_ .f32 0x7F800000#32
  let main_v5 : FVec F S8192x63 .f32 := broadcastInDim S8192x63 ![] bcast_S_S8192x63 main_cst_0
  let main_v6 : IVec S8192x63 1 := cmpf .olt main_v4 main_v5
  let main_c_1 : IVec S_ 1 := constantI S_ 1 1#1
  let main_v7 : IVec S_ 1 := (fun x v => Host.reduce IntOp.andi x v reducesTo_S8192x63_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S8192x1 : Shape := ⟨2, ![8192, 1]⟩
abbrev S8192x63 : Shape := ⟨2, ![8192, 63]⟩
abbrev S64 : Shape := ⟨1, ![64]⟩
abbrev S16x64 : Shape := ⟨2, ![16, 64]⟩
abbrev S16 : Shape := ⟨1, ![16]⟩
abbrev S64x16 : Shape := ⟨2, ![64, 16]⟩
abbrev S16x64x7 : Shape := ⟨3, ![16, 64, 7]⟩
abbrev S64x16x7 : Shape := ⟨3, ![64, 16, 7]⟩
abbrev S8192x64 : Shape := ⟨2, ![8192, 64]⟩
abbrev S_ : Shape := ⟨0, ![]⟩
abbrev S1x1 : Shape := ⟨2, ![1, 1]⟩
abbrev S1x64 : Shape := ⟨2, ![1, 64]⟩
abbrev S1x16 : Shape := ⟨2, ![1, 16]⟩
abbrev S16x64x1 : Shape := ⟨3, ![16, 64, 1]⟩
abbrev S64x16x1 : Shape := ⟨3, ![64, 16, 1]⟩
abbrev S2048x64 : Shape := ⟨2, ![2048, 64]⟩
abbrev S2048x16 : Shape := ⟨2, ![2048, 16]⟩
abbrev S8192x8192 : Shape := ⟨2, ![8192, 8192]⟩
abbrev S1024x64 : Shape := ⟨2, ![1024, 64]⟩
abbrev S1024x1024 : Shape := ⟨2, ![1024, 1024]⟩

abbrev nBuf : Space → Nat
  | .hbm => 76
  | .vmem => 32
  | .smem => 0
  | _ => 0

abbrev bufTy : (tb : Table) → Fin (tcTables nBuf tb) → BufTy
  | .hbm, ⟨0, _⟩ => ⟨S8192x1, .f32⟩
  | .hbm, ⟨1, _⟩ => ⟨S8192x63, .f32⟩
  | .hbm, ⟨2, _⟩ => ⟨S64, .f32⟩
  | .hbm, ⟨3, _⟩ => ⟨S64, .f32⟩
  | .hbm, ⟨4, _⟩ => ⟨S16x64, .f32⟩
  | .hbm, ⟨5, _⟩ => ⟨S16, .f32⟩
  | .hbm, ⟨6, _⟩ => ⟨S64x16, .f32⟩
  | .hbm, ⟨7, _⟩ => ⟨S64, .f32⟩
  | .hbm, ⟨8, _⟩ => ⟨S16x64x7, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S64x16x7, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S8192x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i32⟩
  | .hbm, ⟨26, _⟩ => ⟨S_, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S1x1, .f32⟩
  | .hbm, ⟨31, _⟩ => ⟨S1x1, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1x1, .f32⟩
  | .hbm, ⟨50, _⟩ => ⟨S1x1, .f32⟩
  | .hbm, ⟨51, _⟩ => ⟨S1x64, .f32⟩
  | .hbm, ⟨52, _⟩ => ⟨S1x64, .f32⟩
  | .hbm, ⟨53, _⟩ => ⟨S64x16, .f32⟩
  | .hbm, ⟨54, _⟩ => ⟨S1x16, .f32⟩
  | .hbm, ⟨55, _⟩ => ⟨S16x64, .f32⟩
  | .hbm, ⟨56, _⟩ => ⟨S1x64, .f32⟩
  | .hbm, ⟨57, _⟩ => ⟨S16x64x1, .f32⟩
  | .hbm, ⟨58, _⟩ => ⟨S16x64, .f32⟩
  | .hbm, ⟨59, _⟩ => ⟨S64x16, .f32⟩
  | .hbm, ⟨60, _⟩ => ⟨S1x16, .f32⟩
  | .hbm, ⟨61, _⟩ => ⟨S1x16, .f32⟩
  | .hbm, ⟨62, _⟩ => ⟨S1x16, .f32⟩
  | .hbm, ⟨63, _⟩ => ⟨S1x16, .f32⟩
  | .hbm, ⟨64, _⟩ => ⟨S1x16, .f32⟩
  | .hbm, ⟨65, _⟩ => ⟨S64x16x1, .f32⟩
  | .hbm, ⟨66, _⟩ => ⟨S64x16, .f32⟩
  | .hbm, ⟨67, _⟩ => ⟨S16x64, .f32⟩
  | .hbm, ⟨68, _⟩ => ⟨S1x64, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S1x64, .f32⟩
  | .hbm, ⟨73, _⟩ => ⟨S8192x64, .f32⟩
  | .hbm, ⟨74, _⟩ => ⟨S8192x64, .f32⟩
  | .hbm, ⟨75, _⟩ => ⟨S8192x8192, .f32⟩
  | .local _ .vmem, ⟨0, _⟩ => ⟨S2048x64, .f32⟩
  | .local _ .vmem, ⟨1, _⟩ => ⟨S2048x64, .f32⟩
  | .local _ .vmem, ⟨2, _⟩ => ⟨S1x1, .f32⟩
  | .local _ .vmem, ⟨3, _⟩ => ⟨S1x1, .f32⟩
  | .local _ .vmem, ⟨4, _⟩ => ⟨S1x64, .f32⟩
  | .local _ .vmem, ⟨5, _⟩ => ⟨S1x64, .f32⟩
  | .local _ .vmem, ⟨6, _⟩ => ⟨S64x16, .f32⟩
  | .local _ .vmem, ⟨7, _⟩ => ⟨S1x16, .f32⟩
  | .local _ .vmem, ⟨8, _⟩ => ⟨S16x64, .f32⟩
  | .local _ .vmem, ⟨9, _⟩ => ⟨S1x64, .f32⟩
  | .local _ .vmem, ⟨10, _⟩ => ⟨S64x16, .f32⟩
  | .local _ .vmem, ⟨11, _⟩ => ⟨S1x16, .f32⟩
  | .local _ .vmem, ⟨12, _⟩ => ⟨S1x16, .f32⟩
  | .local _ .vmem, ⟨13, _⟩ => ⟨S1x16, .f32⟩
  | .local _ .vmem, ⟨14, _⟩ => ⟨S1x16, .f32⟩
  | .local _ .vmem, ⟨15, _⟩ => ⟨S1x16, .f32⟩
  | .local _ .vmem, ⟨16, _⟩ => ⟨S16x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S1024x64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x1024, .f32⟩
  | .local _ .vmem, ⟨31, _⟩ => ⟨S1024x1024, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_cst_3 : Ref sig .tc := ⟨.hbm, 41, rfl⟩
abbrev main_call0_v11 : Ref sig .tc := ⟨.hbm, 42, rfl⟩
abbrev main_call0_cst_4 : Ref sig .tc := ⟨.hbm, 43, rfl⟩
abbrev main_call0_call0_v0 : Ref sig .tc := ⟨.hbm, 44, rfl⟩
abbrev main_v3 : Ref sig .tc := ⟨.hbm, 45, rfl⟩
abbrev main_cst_1 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30_0 : Ref sig .tc := ⟨.hbm, 73, rfl⟩
abbrev main_v30_1 : Ref sig .tc := ⟨.hbm, 74, rfl⟩
abbrev main_v31 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_stg22_0 : Ref sig .tc := ⟨.vmem, 24, rfl⟩
abbrev cc0_stg22_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23
abbrev cc0_sem22_0 : DmaSem sig := 24
abbrev cc0_sem22_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S2048x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2048x64 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  concatenates_S8192x1_S8192x63_S8192x64_d1 : Shape.Concatenates [S8192x1, S8192x63] S8192x64 1
  reducesTo_S8192x64_S_d0_1 : S8192x64.ReducesTo [0, 1] S_
  h_S_ : 0 < S_.numel
  bcast_S_S1x1 : S_.BroadcastsInDim S1x1 (![] : Fin 0 → Fin S1x1.rank)
  bcast_S1x1_S8192x64_0_1 : S1x1.BroadcastsInDim S8192x64 (![0, 1] : Fin 2 → Fin S8192x64.rank)
  shapeCasts_S_S1x1 : S_.ShapeCasts S1x1
  shapeCasts_S64_S1x64 : S64.ShapeCasts S1x64
  transposes_S16x64_S64x16_1_0 : S16x64.Transposes [1, 0] S64x16
  shapeCasts_S16_S1x16 : S16.ShapeCasts S1x16
  transposes_S64x16_S16x64_1_0 : S64x16.Transposes [1, 0] S16x64
  slices_S16x64x7_S16x64x1_0_0_3 : S16x64x7.Slices ![0, 0, 3] S16x64x1
  shapeCasts_S16x64x1_S16x64 : S16x64x1.ShapeCasts S16x64
  slices_S64x16x7_S64x16x1_0_0_3 : S64x16x7.Slices ![0, 0, 3] S64x16x1
  shapeCasts_S64x16x1_S64x16 : S64x16x1.ShapeCasts S64x16
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  bitsLt_bf16_f32 : FTy.bits .bf16 < FTy.bits .f32
  broadcasts_S1x16_S2048x16 : S1x16.Broadcasts S2048x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  dot_S2048x64_S64x16_S2048x16_1_0_0_1_n_n_wf : DotDims.WF S2048x64 S64x16 S2048x16 [1] [0] [0] [1] [] []
  dot_S2048x16_S16x64_S2048x64_1_0_0_1_n_n_wf : DotDims.WF S2048x16 S16x64 S2048x64 [1] [0] [0] [1] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S64x16.size a
  hwx0_5 : ∀ i : grid0.Coords, EltTy.bits .f32 = 32 ∨ (Rect.block (s := S64x16) S64x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x64.size a ≤ S16x64.size a
  hwx0_7 : ∀ i : grid0.Coords, EltTy.bits .f32 = 32 ∨ (Rect.block (s := S16x64) S16x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x16.size a ≤ S64x16.size a
  hwx0_9 : ∀ i : grid0.Coords, EltTy.bits .f32 = 32 ∨ (Rect.block (s := S64x16) S64x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x16.size a ≤ S1x16.size a
  hwx0_11 : ∀ i : grid0.Coords, EltTy.bits .f32 = 32 ∨ (Rect.block (s := S1x16) S1x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x16.size a ≤ S1x16.size a
  hwx0_12 : ∀ i : grid0.Coords, EltTy.bits .f32 = 32 ∨ (Rect.block (s := S1x16) S1x16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x16.size a ≤ S1x16.size a
  hwx0_13 : ∀ i : grid0.Coords, EltTy.bits .f32 = 32 ∨ (Rect.block (s := S1x16) S1x16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x16.size a ≤ S1x16.size a
  hwx0_14 : ∀ i : grid0.Coords, EltTy.bits .f32 = 32 ∨ (Rect.block (s := S1x16) S1x16.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S16x64.size a ≤ S16x64.size a
  hwx0_15 : ∀ i : grid0.Coords, EltTy.bits .f32 = 32 ∨ (Rect.block (s := S16x64) S16x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x64.size a ≤ S1x64.size a
  hwx0_17 : ∀ i : grid0.Coords, EltTy.bits .f32 = 32 ∨ (Rect.block (s := S1x64) S1x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x64.size a ≤ S1x64.size a
  hwx0_19 : ∀ i : grid0.Coords, EltTy.bits .f32 = 32 ∨ (Rect.block (s := S1x64) S1x64.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x64.size a ≤ S1x64.size a
  hwx0_20 : ∀ i : grid0.Coords, EltTy.bits .f32 = 32 ∨ (Rect.block (s := S1x64) S1x64.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2048x64.size a ≤ S8192x64.size a
  hwx0_21 : ∀ i : grid0.Coords, EltTy.bits .f32 = 32 ∨ (Rect.block (s := S8192x64) S2048x64.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S2048x64.size a ≤ S8192x64.size a
  hwx0_22 : ∀ i : grid0.Coords, EltTy.bits .f32 = 32 ∨ (Rect.block (s := S8192x64) S2048x64.size (cc0_transform_22 i) (hinb0_22 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf
def dot_S2048x16_S16x64_S2048x64_1_0_0_1_n_n : DotDims S2048x16 S16x64 S2048x64 where
  lhsContracting := [1]
  rhsContracting := [0]
  lhsNonContracting := [0]
  rhsNonContracting := [1]
  lhsBatch := []
  rhsBatch := []
  wf := dot_S2048x16_S16x64_S2048x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S16x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S64x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S1x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v21) S1x16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v24) S16x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v25) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v26) S1x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v27) S1x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v28) S1x64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v29) S1x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v30_0) S2048x64.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v30_1) S2048x64.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

abbrev win1_0 : Pipeline.Window sig grid1 :=
  Pipeline.Window.ofSpec (Memref.whole main_v0) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_1) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x1 : Shape := ⟨2, ![8192, 1]⟩
abbrev S8192x63 : Shape := ⟨2, ![8192, 63]⟩
abbrev S64 : Shape := ⟨1, ![64]⟩
abbrev S16x64 : Shape := ⟨2, ![16, 64]⟩
abbrev S16 : Shape := ⟨1, ![16]⟩
abbrev S64x16 : Shape := ⟨2, ![64, 16]⟩
abbrev S16x64x7 : Shape := ⟨3, ![16, 64, 7]⟩
abbrev S64x16x7 : Shape := ⟨3, ![64, 16, 7]⟩
abbrev S8192x64 : Shape := ⟨2, ![8192, 64]⟩
abbrev S_ : Shape := ⟨0, ![]⟩
abbrev S1x1 : Shape := ⟨2, ![1, 1]⟩
abbrev S1x64 : Shape := ⟨2, ![1, 64]⟩
abbrev S8192x16 : Shape := ⟨2, ![8192, 16]⟩
abbrev S1x16 : Shape := ⟨2, ![1, 16]⟩
abbrev S16x64x1 : Shape := ⟨3, ![16, 64, 1]⟩
abbrev S64x16x1 : Shape := ⟨3, ![64, 16, 1]⟩
abbrev S8192x8192 : Shape := ⟨2, ![8192, 8192]⟩

abbrev nBuf : Space → Nat
  | .hbm => 145
  | .vmem => 0
  | .smem => 0
  | _ => 0

abbrev hbmTy0_0 (i : Nat) : BufTy := match i % 128 with
  | 0 => ⟨S8192x1, .f32⟩
  | 1 => ⟨S8192x63, .f32⟩
  | 2 => ⟨S64, .f32⟩
  | 3 => ⟨S64, .f32⟩
  | 4 => ⟨S16x64, .f32⟩
  | 5 => ⟨S16, .f32⟩
  | 6 => ⟨S64x16, .f32⟩
  | 7 => ⟨S64, .f32⟩
  | 8 => ⟨S16x64x7, .f32⟩
  | 9 => ⟨S16, .f32⟩
  | 10 => ⟨S16, .f32⟩
  | 11 => ⟨S16, .f32⟩
  | 12 => ⟨S16, .f32⟩
  | 13 => ⟨S16, .f32⟩
  | 14 => ⟨S64x16x7, .f32⟩
  | 15 => ⟨S64, .f32⟩
  | 16 => ⟨S64, .f32⟩
  | 17 => ⟨S64, .f32⟩
  | 18 => ⟨S64, .f32⟩
  | 19 => ⟨S64, .f32⟩
  | 20 => ⟨S8192x64, .f32⟩
  | 21 => ⟨S_, .f32⟩
  | 22 => ⟨S_, .f32⟩
  | 23 => ⟨S_, .f32⟩
  | 24 => ⟨S_, .f32⟩
  | 25 => ⟨S_, .i32⟩
  | 26 => ⟨S_, .f32⟩
  | 27 => ⟨S_, .f32⟩
  | 28 => ⟨S1x1, .f32⟩
  | 29 => ⟨S_, .f32⟩
  | 30 => ⟨S1x1, .f32⟩
  | 31 => ⟨S1x1, .f32⟩
  | 32 => ⟨S8192x64, .f32⟩
  | 33 => ⟨S8192x64, .f32⟩
  | 34 => ⟨S8192x64, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .i1⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S8192x64, .f32⟩
  | 50 => ⟨S8192x64, .f32⟩
  | 51 => ⟨S8192x64, .f32⟩
  | 52 => ⟨S8192x64, .f32⟩
  | 53 => ⟨S1x64, .f32⟩
  | 54 => ⟨S8192x64, .f32⟩
  | 55 => ⟨S8192x64, .f32⟩
  | 56 => ⟨S1x64, .f32⟩
  | 57 => ⟨S8192x64, .f32⟩
  | 58 => ⟨S8192x64, .f32⟩
  | 59 => ⟨S64x16, .f32⟩
  | 60 => ⟨S8192x16, .f32⟩
  | 61 => ⟨S1x16, .f32⟩
  | 62 => ⟨S8192x16, .f32⟩
  | 63 => ⟨S8192x16, .f32⟩
  | 64 => ⟨S_, .f32⟩
  | 65 => ⟨S8192x16, .f32⟩
  | 66 => ⟨S8192x16, .f32⟩
  | 67 => ⟨S16x64, .f32⟩
  | 68 => ⟨S8192x64, .f32⟩
  | 69 => ⟨S1x64, .f32⟩
  | 70 => ⟨S8192x64, .f32⟩
  | 71 => ⟨S8192x64, .f32⟩
  | 72 => ⟨S8192x64, .f32⟩
  | 73 => ⟨S16x64x1, .f32⟩
  | 74 => ⟨S16x64, .f32⟩
  | 75 => ⟨S64x16, .f32⟩
  | 76 => ⟨S8192x16, .f32⟩
  | 77 => ⟨S1x16, .f32⟩
  | 78 => ⟨S8192x16, .f32⟩
  | 79 => ⟨S8192x16, .f32⟩
  | 80 => ⟨S1x16, .f32⟩
  | 81 => ⟨S8192x16, .f32⟩
  | 82 => ⟨S8192x16, .f32⟩
  | 83 => ⟨S_, .f32⟩
  | 84 => ⟨S16, .f32⟩
  | 85 => ⟨S16, .f32⟩
  | 86 => ⟨S16, .f32⟩
  | 87 => ⟨S1x16, .f32⟩
  | 88 => ⟨S8192x16, .f32⟩
  | 89 => ⟨S8192x16, .f32⟩
  | 90 => ⟨S1x16, .f32⟩
  | 91 => ⟨S8192x16, .f32⟩
  | 92 => ⟨S8192x16, .f32⟩
  | 93 => ⟨S1x16, .f32⟩
  | 94 => ⟨S8192x16, .f32⟩
  | 95 => ⟨S8192x16, .f32⟩
  | 96 => ⟨S_, .f32⟩
  | 97 => ⟨S8192x16, .f32⟩
  | 98 => ⟨S8192x16, .f32⟩
  | 99 => ⟨S64x16x1, .f32⟩
  | 100 => ⟨S64x16, .f32⟩
  | 101 => ⟨S16x64, .f32⟩
  | 102 => ⟨S8192x64, .f32⟩
  | 103 => ⟨S1x64, .f32⟩
  | 104 => ⟨S8192x64, .f32⟩
  | 105 => ⟨S8192x64, .f32⟩
  | 106 => ⟨S1x64, .f32⟩
  | 107 => ⟨S8192x64, .f32⟩
  | 108 => ⟨S8192x64, .f32⟩
  | 109 => ⟨S_, .f32⟩
  | 110 => ⟨S64, .f32⟩
  | 111 => ⟨S64, .f32⟩
  | 112 => ⟨S64, .f32⟩
  | 113 => ⟨S1x64, .f32⟩
  | 114 => ⟨S8192x64, .f32⟩
  | 115 => ⟨S8192x64, .f32⟩
  | 116 => ⟨S1x64, .f32⟩
  | 117 => ⟨S8192x64, .f32⟩
  | 118 => ⟨S8192x64, .f32⟩
  | 119 => ⟨S1x64, .f32⟩
  | 120 => ⟨S8192x64, .f32⟩
  | 121 => ⟨S8192x64, .f32⟩
  | 122 => ⟨S8192x64, .f32⟩
  | 123 => ⟨S8192x64, .f32⟩
  | 124 => ⟨S_, .f32⟩
  | 125 => ⟨S8192x64, .f32⟩
  | 126 => ⟨S8192x64, .f32⟩
  | 127 => ⟨S_, .f32⟩
  | _ => ⟨S8192x1, .f32⟩

abbrev hbmTy0_1 (i : Nat) : BufTy := match i % 128 with
  | 0 => ⟨S8192x64, .f32⟩
  | 1 => ⟨S8192x64, .f32⟩
  | 2 => ⟨S8192x64, .f32⟩
  | 3 => ⟨S1x64, .f32⟩
  | 4 => ⟨S8192x64, .f32⟩
  | 5 => ⟨S8192x64, .f32⟩
  | 6 => ⟨S_, .f32⟩
  | 7 => ⟨S64, .f32⟩
  | 8 => ⟨S64, .f32⟩
  | 9 => ⟨S1x64, .f32⟩
  | 10 => ⟨S8192x64, .f32⟩
  | 11 => ⟨S8192x64, .f32⟩
  | 12 => ⟨S8192x64, .f32⟩
  | 13 => ⟨S8192x64, .f32⟩
  | 14 => ⟨S8192x64, .f32⟩
  | 15 => ⟨S8192x64, .f32⟩
  | 16 => ⟨S8192x8192, .f32⟩
  | _ => ⟨S8192x1, .f32⟩

abbrev hbmTy (i : Nat) : BufTy := match i / 128 with
  | 0 => hbmTy0_0 i
  | 1 => hbmTy0_1 i
  | _ => ⟨S8192x1, .f32⟩

abbrev bufTy : (tb : Table) → Fin (tcTables nBuf tb) → BufTy
  | .hbm, ⟨i, _⟩ => hbmTy i
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_cst_3 : Ref sig .tc := ⟨.hbm, 41, rfl⟩
abbrev main_call0_v11 : Ref sig .tc := ⟨.hbm, 42, rfl⟩
abbrev main_call0_cst_4 : Ref sig .tc := ⟨.hbm, 43, rfl⟩
abbrev main_call0_call0_v0 : Ref sig .tc := ⟨.hbm, 44, rfl⟩
abbrev main_v3 : Ref sig .tc := ⟨.hbm, 45, rfl⟩
abbrev main_cst_1 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_call1_cst : Ref sig .tc := ⟨.hbm, 64, rfl⟩
abbrev main_call1_v0 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_2 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_call2_cst : Ref sig .tc := ⟨.hbm, 96, rfl⟩
abbrev main_call2_v0 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_3 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_4 : Ref sig .tc := ⟨.hbm, 124, rfl⟩
abbrev main_v75 : Ref sig .tc := ⟨.hbm, 125, rfl⟩
abbrev main_v76 : Ref sig .tc := ⟨.hbm, 126, rfl⟩
abbrev main_cst_5 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_6 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩

abbrev nD : Nat := 1
abbrev τ : Topo := Topo.v7x

variable {F : FTy → Type} [FloatOps F]

class Facts₀ : Prop where
  concatenates_S8192x1_S8192x63_S8192x64_d1 : Shape.Concatenates [S8192x1, S8192x63] S8192x64 1
  reducesTo_S8192x64_S_d0_1 : S8192x64.ReducesTo [0, 1] S_
  h_S_ : 0 < S_.numel
  bcast_S_S1x1 : S_.BroadcastsInDim S1x1 (![] : Fin 0 → Fin S1x1.rank)
  bcast_S1x1_S8192x64_0_1 : S1x1.BroadcastsInDim S8192x64 (![0, 1] : Fin 2 → Fin S8192x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S16x64_S64x16_1_0 : S16x64.Transposes [1, 0] S64x16
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  transposes_S64x16_S16x64_1_0 : S64x16.Transposes [1, 0] S16x64
  slices_S16x64x7_S16x64x1_0_0_3 : S16x64x7.Slices ![0, 0, 3] S16x64x1
  shapeCasts_S16x64x1_S16x64 : S16x64x1.ShapeCasts S16x64
  bcast_S_S16 : S_.BroadcastsInDim S16 (![] : Fin 0 → Fin S16.rank)
  slices_S64x16x7_S64x16x1_0_0_3 : S64x16x7.Slices ![0, 0, 3] S64x16x1
  shapeCasts_S64x16x1_S64x16 : S64x16x1.ShapeCasts S64x16
  bcast_S_S64 : S_.BroadcastsInDim S64 (![] : Fin 0 → Fin S64.rank)
  dot_S8192x64_S64x16_S8192x16_1_0_0_1_n_n_wf : DotDims.WF S8192x64 S64x16 S8192x16 [1] [0] [0] [1] [] []
  dot_S8192x16_S16x64_S8192x64_1_0_0_1_n_n_wf : DotDims.WF S8192x16 S16x64 S8192x64 [1] [0] [0] [1] [] []
  dot_S8192x64_S8192x64_S8192x8192_1_1_0_0_n_n_wf : DotDims.WF S8192x64 S8192x64 S8192x8192 [1] [1] [0] [0] [] []

variable [Facts₀]

def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x16_S16x64_S8192x64_1_0_0_1_n_n : DotDims S8192x16 S16x64 S8192x64 where
  lhsContracting := [1]
  rhsContracting := [0]
  lhsNonContracting := [0]
  rhsNonContracting := [1]
  lhsBatch := []
  rhsBatch := []
  wf := dot_S8192x16_S16x64_S8192x64_1_0_0_1_n_n_wf
def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Spec.lean ====
/-
  The common value both programs compute, written once over the extended reals, row by row.

  A row `x` of the data matrix (64 channels), the two global statistics `mu` (the mean of all entries) and `sd`
  (the square root of their variance plus a small constant), and the layer's parameters give, in order:
  the normalised row `xn` (an affine map of `(x - mu) / sd`); a hidden row `hid` of 16 entries (a 64-term
  contraction with the first attention matrix, a bias, a clamp at zero); the attention row `att` (a 16-term
  contraction with the second attention matrix, a bias); the gated row `gated = xn · att`; the two spatial
  layers of a gated row `sp1` (contraction with the centre tap of the first convolution, bias, a normalisation by running
  statistics, clamp at zero) and `sp2` (the same with the second convolution, no clamp); and the de-normalised
  row `wrow = (gated · logistic sp2 - rb) / (rw + eps²) · sd + mu`.  The reconstruction is the matrix of inner
  products of data rows with these rows.  Every contraction is a finite sum over `Fin 64` or `Fin 16`; no
  algebraic law is used anywhere: both programs evaluate these very expressions.
-/
import Idealize.ShloMosaic.PureOps.Ideal
import Idealize.ShloMosaic.Lib.ValueIdx

noncomputable section

namespace Cert.Spec

open Idealize.ShloMosaic Idealize.ShloMosaic.ValueIdx

/-- The small constant added to a variance before the inverse square root (the float nearest 1e-5). -/
abbrev eps : EReal := Ideal.ofBits .f32 0x3727C5AC#32
/-- The small constant added to the affine weight before the division (the float nearest 1e-10). -/
abbrev eps2 : EReal := Ideal.ofBits .f32 0x2EDBE6FF#32
/-- The clamp's floor, as the programs spell it. -/
abbrev zero : EReal := Ideal.ofBits .f32 0x00000000#32

/-- The layer's parameters as functions of their coordinates: the affine pair `rw`, `rb`; the attention matrices
    `w1` (16 × 64), `w2` (64 × 16) with biases; the convolutions' centre taps `c1` (16 × 64), `c2` (64 × 16) with
    biases; and for each of the two normalisations its scale, shift, running mean and running variance. -/
structure Params where
  rw : Fin 64 → EReal
  rb : Fin 64 → EReal
  w1 : Fin 16 → Fin 64 → EReal
  b1 : Fin 16 → EReal
  w2 : Fin 64 → Fin 16 → EReal
  b2 : Fin 64 → EReal
  c1 : Fin 16 → Fin 64 → EReal
  cb1 : Fin 16 → EReal
  g1 : Fin 16 → EReal
  be1 : Fin 16 → EReal
  m1 : Fin 16 → EReal
  v1 : Fin 16 → EReal
  c2 : Fin 64 → Fin 16 → EReal
  cb2 : Fin 64 → EReal
  g2 : Fin 64 → EReal
  be2 : Fin 64 → EReal
  m2 : Fin 64 → EReal
  v2 : Fin 64 → EReal

variable (P : Params) (mu sd : EReal) (x : Fin 64 → EReal)

/-- The normalised row: `(x - mu) / sd · rw + rb`. -/
def xn (j : Fin 64) : EReal := Ideal.div (x j - mu) sd * P.rw j + P.rb j

/-- The hidden row of the channel attention: `max (xn · w1ᵀ + b1) 0`. -/
def hid (k : Fin 16) : EReal := max ((∑ j : Fin 64, xn P mu sd x j * P.w1 k j) + P.b1 k) zero

/-- The attention row: `hid · w2ᵀ + b2`. -/
def att (j : Fin 64) : EReal := (∑ k : Fin 16, hid P mu sd x k * P.w2 j k) + P.b2 j

/-- The gated row: `xn · att`, entry by entry. -/
def gated (j : Fin 64) : EReal := xn P mu sd x j * att P mu sd x j

/-- The first spatial layer over a gated row `g`: the centre tap's contraction, bias, normalisation, clamp at zero. -/
def sp1 (g : Fin 64 → EReal) (k : Fin 16) : EReal :=
  max ((((∑ j : Fin 64, g j * P.c1 k j) + P.cb1 k) - P.m1 k) * Ideal.rsqrt (P.v1 k + eps) * P.g1 k + P.be1 k) zero

/-- The second spatial layer over a gated row `g`: the centre tap's contraction, bias, normalisation. -/
def sp2 (g : Fin 64 → EReal) (j : Fin 64) : EReal :=
  (((∑ k : Fin 16, sp1 P g k * P.c2 j k) + P.cb2 j) - P.m2 j) * Ideal.rsqrt (P.v2 j + eps) * P.g2 j + P.be2 j

/-- The de-normalisation of a gated row `g`: `(g · logistic (sp2 g) - rb) / (rw + eps²) · sd + mu`. -/
def dn (g : Fin 64 → EReal) (j : Fin 64) : EReal :=
  Ideal.div (g j * Ideal.logistic (sp2 P g j) - P.rb j) (P.rw j + eps2) * sd + mu

/-- The de-normalised output row of a data row: `dn` of its gated row. -/
def wrow (j : Fin 64) : EReal := dn P mu sd (gated P mu sd x) j

/-! ## The three computed results as arrays over the data matrix -/

/-- Row `i` of a 8192 × 64 array. -/
abbrev rowOf (D : FVec Ideal ⟨2, ![8192, 64]⟩ .f32) (i : Fin 8192) : Fin 64 → EReal := fun j => D (ix2 i j)

/-- The normalised data: row `i` is `xn` of the data's row `i`. -/
def xnVec (D : FVec Ideal ⟨2, ![8192, 64]⟩ .f32) : FVec Ideal ⟨2, ![8192, 64]⟩ .f32 :=
  fun idx => xn P mu sd (rowOf D (idx 0)) (idx 1)

/-- The gated data: row `i` is `gated` of the data's row `i`. -/
def gatedVec (D : FVec Ideal ⟨2, ![8192, 64]⟩ .f32) : FVec Ideal ⟨2, ![8192, 64]⟩ .f32 :=
  fun idx => gated P mu sd (rowOf D (idx 0)) (idx 1)

theorem gatedVec_apply (D : FVec Ideal ⟨2, ![8192, 64]⟩ .f32) (i : Fin 8192) (j : Fin 64) :
    gatedVec P mu sd D (ix2 i j) = gated P mu sd (rowOf D i) j := rfl

/-- The de-normalised gated data: row `i` is `wrow` of the data's row `i`. -/
def wVec (D : FVec Ideal ⟨2, ![8192, 64]⟩ .f32) : FVec Ideal ⟨2, ![8192, 64]⟩ .f32 :=
  fun idx => wrow P mu sd (rowOf D (idx 0)) (idx 1)

/-- The reconstruction: entry `(b, h)` is the inner product of data row `b` with output row `h`. -/
def reconVec (D : FVec Ideal ⟨2, ![8192, 64]⟩ .f32) : FVec Ideal ⟨2, ![8192, 8192]⟩ .f32 :=
  fun idx => ∑ c : Fin 64, D (ix2 (idx 0) c) * wrow P mu sd (rowOf D (idx 1)) c

theorem xnVec_apply (D : FVec Ideal ⟨2, ![8192, 64]⟩ .f32) (i : Fin 8192) (j : Fin 64) :
    xnVec P mu sd D (ix2 i j) = xn P mu sd (rowOf D i) j := rfl

theorem wVec_apply (D : FVec Ideal ⟨2, ![8192, 64]⟩ .f32) (i : Fin 8192) (j : Fin 64) :
    wVec P mu sd D (ix2 i j) = wrow P mu sd (rowOf D i) j := rfl

theorem reconVec_apply (D : FVec Ideal ⟨2, ![8192, 64]⟩ .f32) (b h : Fin 8192) :
    reconVec P mu sd D (ix2 b h) = ∑ c : Fin 64, D (ix2 b c) * wrow P mu sd (rowOf D h) c := rfl

/-! ## The parameters read off the argument arrays -/

/-- The parameters as the two programs receive them: vectors read at their one coordinate, matrices at their two,
    and each convolution kernel at its centre tap (index 3 of 7). -/
def paramsOf (a2 a3 : FVec Ideal ⟨1, ![64]⟩ .f32) (a4 : FVec Ideal ⟨2, ![16, 64]⟩ .f32) (a5 : FVec Ideal ⟨1, ![16]⟩ .f32)
    (a6 : FVec Ideal ⟨2, ![64, 16]⟩ .f32) (a7 : FVec Ideal ⟨1, ![64]⟩ .f32) (a8 : FVec Ideal ⟨3, ![16, 64, 7]⟩ .f32)
    (a9 a10 a11 a12 a13 : FVec Ideal ⟨1, ![16]⟩ .f32) (a14 : FVec Ideal ⟨3, ![64, 16, 7]⟩ .f32)
    (a15 a16 a17 a18 a19 : FVec Ideal ⟨1, ![64]⟩ .f32) : Params where
  rw j := a2 (ix1 j)
  rb j := a3 (ix1 j)
  w1 k j := a4 (ix2 k j)
  b1 k := a5 (ix1 k)
  w2 j k := a6 (ix2 j k)
  b2 j := a7 (ix1 j)
  c1 k j := a8 (ix3 k j (3 : Fin 7))
  cb1 k := a9 (ix1 k)
  g1 k := a10 (ix1 k)
  be1 k := a11 (ix1 k)
  m1 k := a12 (ix1 k)
  v1 k := a13 (ix1 k)
  c2 j k := a14 (ix3 j k (3 : Fin 7))
  cb2 j := a15 (ix1 j)
  g2 j := a16 (ix1 j)
  be2 j := a17 (ix1 j)
  m2 j := a18 (ix1 j)
  v2 j := a19 (ix1 j)

/-! ## The two global statistics, as both programs compute them on the host -/

section Statistics

variable (hr : (⟨2, ![8192, 64]⟩ : Shape).ReducesTo [0, 1] ⟨0, ![]⟩) (hS : 0 < (⟨0, ![]⟩ : Shape).numel)
  (hb0 : (⟨0, ![]⟩ : Shape).BroadcastsInDim ⟨2, ![1, 1]⟩ (![] : Fin 0 → Fin 2))
  (hb1 : (⟨2, ![1, 1]⟩ : Shape).BroadcastsInDim ⟨2, ![8192, 64]⟩ (![0, 1] : Fin 2 → Fin 2))
  (d : FVec Ideal ⟨2, ![8192, 64]⟩ .f32)

/-- The mean of all 524288 entries of the data matrix: their sum over their number. -/
def hostMu : FVec Ideal ⟨0, ![]⟩ .f32 :=
  Host.divf (Host.reduceAdd d (constant ⟨0, ![]⟩ .f32 0x00000000#32) hr hS) (constant ⟨0, ![]⟩ .f32 0x49000000#32)

/-- The deviations from the mean, the mean recomputed as a 1 × 1 array and spread over the matrix. -/
def hostDev : FVec Ideal ⟨2, ![8192, 64]⟩ .f32 :=
  subf d (broadcastInDim ⟨2, ![8192, 64]⟩ ![0, 1] hb1
    (Host.divf (broadcastInDim ⟨2, ![1, 1]⟩ ![] hb0 (Host.reduceAdd d (constant ⟨0, ![]⟩ .f32 0x00000000#32) hr hS))
      (broadcastInDim ⟨2, ![1, 1]⟩ ![] hb0 (constant ⟨0, ![]⟩ .f32 0x49000000#32))))

/-- The variance's divisor: the number of entries less the (zero) correction. -/
def hostCount : FVec Ideal ⟨0, ![]⟩ .f32 :=
  subf (constant ⟨0, ![]⟩ .f32 0x49000000#32) (sitofp .f32 (constantI ⟨0, ![]⟩ 32 0#32))

/-- The variance: the sum of squared deviations over the divisor where that is positive, the literal the program
    keeps for the other case elsewhere. -/
def hostVar : FVec Ideal ⟨0, ![]⟩ .f32 :=
  select (cmpf .ogt (hostCount) (constant ⟨0, ![]⟩ .f32 0x00000000#32))
    (Host.divf (Host.reduceAdd (mulf (hostDev hr hS hb0 hb1 d) (hostDev hr hS hb0 hb1 d)) (constant ⟨0, ![]⟩ .f32 0x00000000#32) hr hS)
      (hostCount))
    (id (constant ⟨0, ![]⟩ .f32 0x7FC00000#32))

/-- The standard deviation: the square root of the variance plus the small constant. -/
def hostSd : FVec Ideal ⟨0, ![]⟩ .f32 :=
  Host.sqrt (addf (hostVar hr hS hb0 hb1 d) (constant ⟨0, ![]⟩ .f32 0x3727C5AC#32))

end Statistics

end Cert.Spec

end
-- ==== Proof.KHost.lean ====
/-
  The contents of the kernel program's buffers when its first kernel is entered.

  Before the first kernel the program runs host operations only: it lays the two first arguments side by side into the
  data matrix, computes the mean and the standard deviation of all its entries (the same operations as the
  reference's, so the same terms `Spec.hostMu`, `Spec.hostSd`), reshapes the two statistics to 1 × 1 arrays and every
  parameter vector to a one-row matrix, transposes the two attention matrices, and takes the centre tap of each
  convolution kernel as a transposed matrix.  Each lemma below reads one of those buffers at a coordinate.
-/
import proofs.«111743_j36447092474548_1_alg».proof.Proof.Gen.KernelIdeal.Frame
import proofs.«111743_j36447092474548_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 8192

noncomputable section

namespace Cert.KernelIdeal.KHost

open Cert.KernelIdeal Cert.KernelIdeal.Gen Idealize.ShloMosaic Idealize.ShloMosaic.TcCoe Idealize.SL.Sem Idealize.ShloMosaic.StableHlo
open Idealize.ShloMosaic.ValueIdx

variable (V : Valuation τ sig (Elt Ideal))

/-- The contents after the first stretch of host operations (the data matrix and its mean). -/
abbrev H1 : Valuation τ sig (Elt Ideal) := after hostOps0 V
/-- The contents after the variance. -/
abbrev H2 : Valuation τ sig (Elt Ideal) := after hostOps0_1 (H1 V)
/-- The contents when the first kernel is entered. -/
abbrev H3 : Valuation τ sig (Elt Ideal) := after hostOps0_2 (H2 V)

/-- The data matrix: the two first arguments side by side along the channel axis. -/
def dataOf (a0 : FVec Ideal S8192x1 .f32) (a1 : FVec Ideal S8192x63 .f32) : FVec Ideal S8192x64 .f32 :=
  concatenate S8192x64 1 [⟨S8192x1, a0⟩, ⟨S8192x63, a1⟩] concatenates_S8192x1_S8192x63_S8192x64_d1

/-- The mean of all entries. -/
def muV (d : FVec Ideal S8192x64 .f32) : FVec Ideal S_ .f32 := Cert.Spec.hostMu reducesTo_S8192x64_S_d0_1 h_S_ d
/-- The standard deviation of all entries. -/
def sdV (d : FVec Ideal S8192x64 .f32) : FVec Ideal S_ .f32 :=
  Cert.Spec.hostSd reducesTo_S8192x64_S_d0_1 h_S_ bcast_S_S1x1 bcast_S1x1_S8192x64_0_1 d

/-- The data matrix of launch contents `V`. -/
abbrev dK : FVec Ideal S8192x64 .f32 := dataOf (V (main_arg0 : DevRef τ sig)) (V (main_arg1 : DevRef τ sig))

theorem H1_v0 : H1 V (main_v0 : DevRef τ sig) = dK V := by
  after_results
  all_goals rfl

theorem H1_v2 : H1 V (main_v2 : DevRef τ sig) = muV (dK V) := by
  after_results
  all_goals rfl

theorem H1_c : H1 V (main_c : DevRef τ sig) = constantI S_ 32 0#32 := by
  after_results
  all_goals rfl

set_option maxHeartbeats 2000000 in
/-- The variance read over whatever the first stretch leaves. -/
theorem H2_v3 (U : Valuation τ sig (Elt Ideal)) (d : FVec Ideal S8192x64 .f32) (hd : U (main_v0 : DevRef τ sig) = d)
    (hc : U (main_c : DevRef τ sig) = constantI S_ 32 0#32) :
    after hostOps0_1 U (main_v3 : DevRef τ sig)
      = Cert.Spec.hostVar reducesTo_S8192x64_S_d0_1 h_S_ bcast_S_S1x1 bcast_S1x1_S8192x64_0_1 d := by
  after_results_simp
  rw [hd, hc]
  rfl

/-! ## The buffers the first kernel's windows stage, read at a coordinate -/

theorem H3_v0 : H3 V (main_v0 : DevRef τ sig) = dK V := by
  after_results
  all_goals rfl

/-- The position of the one element of a scalar and of a 1 × 1 array is the same. -/
theorem pos_scalar (i j : Fin 1) : ((⟨0, ![]⟩ : Shape).rowMajor ix0).val = ((⟨2, ![1, 1]⟩ : Shape).rowMajor (ix2 i j)).val := by
  rw [Shape.rowMajor_val_two]
  have hi : i.val = 0 := by omega
  have hj : j.val = 0 := by omega
  rw [hi, hj]
  rfl

/-- A scalar reshaped to a 1 × 1 array reads, at its one index, the scalar. -/
theorem one_of_scalar (x : FVec Ideal S_ .f32) (A : FVec Ideal S1x1 .f32) (hA : A = shapeCast S1x1 x shapeCasts_S_S1x1) :
    A (ix2 (0 : Fin 1) (0 : Fin 1)) = x ix0 := by
  subst hA
  exact shapeCast_apply _ _ _ _ (pos_scalar 0 0)

/-- A vector reshaped to a one-row matrix reads, at `(0, j)`, the vector at `j`. -/
theorem row_of_vec {n : Nat} (x : FVec Ideal ⟨1, ![n]⟩ .f32) (h : (⟨1, ![n]⟩ : Shape).ShapeCasts ⟨2, ![1, n]⟩)
    (A : FVec Ideal ⟨2, ![1, n]⟩ .f32) (hA : A = shapeCast ⟨2, ![1, n]⟩ x h) (j : Fin n) : A (ix2 (0 : Fin 1) j) = x (ix1 j) := by
  subst hA
  exact shapeCast_a_1a_apply _ _ _ _

/-- A matrix transposed reads, at `(j, i)`, the matrix at `(i, j)`. -/
theorem of_transpose {a b : Nat} (x : FVec Ideal ⟨2, ![a, b]⟩ .f32) (h : (⟨2, ![a, b]⟩ : Shape).Transposes [1, 0] ⟨2, ![b, a]⟩)
    (A : FVec Ideal ⟨2, ![b, a]⟩ .f32) (hA : A = transpose ⟨2, ![b, a]⟩ [1, 0] x h) (j : Fin b) (i : Fin a) :
    A (ix2 j i) = x (ix2 i j) := by
  subst hA
  exact transpose_ix2_apply _ _ _ _

/-- The mean, as the 1 × 1 array the kernel reads. -/
theorem H3_v6 : (H3 V (main_v6 : DevRef τ sig) : FVec Ideal S1x1 .f32) (ix2 (0 : Fin 1) (0 : Fin 1)) = muV (dK V) ix0 :=
  one_of_scalar (muV (dK V)) _ (by after_results; all_goals rfl)

/-- The last stretch's operations on the variance: the small constant added, the square root, the reshape. -/
theorem S2_v7 (U : Valuation τ sig (Elt Ideal)) :
    (after hostOps0_2 U (main_v7 : DevRef τ sig) : FVec Ideal S1x1 .f32)
      = shapeCast S1x1 (Host.sqrt (F := Ideal) (addf (U (main_v3 : DevRef τ sig) : FVec Ideal S_ .f32) (constant (F := Ideal) S_ .f32 0x3727C5AC#32))) shapeCasts_S_S1x1 := by
  after_results
  all_goals rfl

/-- The standard deviation, as the 1 × 1 array the kernel reads. -/
theorem H3_v7 : (H3 V (main_v7 : DevRef τ sig) : FVec Ideal S1x1 .f32) (ix2 (0 : Fin 1) (0 : Fin 1)) = sdV (dK V) ix0 :=
  one_of_scalar (sdV (dK V)) _ (by
    show (after hostOps0_2 (H2 V) (main_v7 : DevRef τ sig) : FVec Ideal S1x1 .f32) = _
    rw [S2_v7]
    rw [show (H2 V (main_v3 : DevRef τ sig) : FVec Ideal S_ .f32) = _ from H2_v3 (H1 V) (dK V) (H1_v0 V) (H1_c V)]
    rfl)

/-- The affine weight as a one-row matrix. -/
theorem H3_v8 (j : Fin 64) : (H3 V (main_v8 : DevRef τ sig) : FVec Ideal S1x64 .f32) (ix2 (0 : Fin 1) j)
    = (V (main_arg2 : DevRef τ sig) : FVec Ideal S64 .f32) (ix1 j) :=
  row_of_vec _ shapeCasts_S64_S1x64 _ (by after_results; all_goals rfl) j

/-- The affine shift as a one-row matrix. -/
theorem H3_v9 (j : Fin 64) : (H3 V (main_v9 : DevRef τ sig) : FVec Ideal S1x64 .f32) (ix2 (0 : Fin 1) j)
    = (V (main_arg3 : DevRef τ sig) : FVec Ideal S64 .f32) (ix1 j) :=
  row_of_vec _ shapeCasts_S64_S1x64 _ (by after_results; all_goals rfl) j

/-- The first attention matrix, transposed. -/
theorem H3_v10 (j : Fin 64) (k : Fin 16) : (H3 V (main_v10 : DevRef τ sig) : FVec Ideal S64x16 .f32) (ix2 j k)
    = (V (main_arg4 : DevRef τ sig) : FVec Ideal S16x64 .f32) (ix2 k j) :=
  of_transpose _ transposes_S16x64_S64x16_1_0 _ (by after_results; all_goals rfl) j k

/-- The first attention bias as a one-row matrix. -/
theorem H3_v11 (k : Fin 16) : (H3 V (main_v11 : DevRef τ sig) : FVec Ideal S1x16 .f32) (ix2 (0 : Fin 1) k)
    = (V (main_arg5 : DevRef τ sig) : FVec Ideal S16 .f32) (ix1 k) :=
  row_of_vec _ shapeCasts_S16_S1x16 _ (by after_results; all_goals rfl) k

/-- The second attention matrix, transposed. -/
theorem H3_v12 (k : Fin 16) (j : Fin 64) : (H3 V (main_v12 : DevRef τ sig) : FVec Ideal S16x64 .f32) (ix2 k j)
    = (V (main_arg6 : DevRef τ sig) : FVec Ideal S64x16 .f32) (ix2 j k) :=
  of_transpose _ transposes_S64x16_S16x64_1_0 _ (by after_results; all_goals rfl) k j

/-- The second attention bias as a one-row matrix. -/
theorem H3_v13 (j : Fin 64) : (H3 V (main_v13 : DevRef τ sig) : FVec Ideal S1x64 .f32) (ix2 (0 : Fin 1) j)
    = (V (main_arg7 : DevRef τ sig) : FVec Ideal S64 .f32) (ix1 j) :=
  row_of_vec _ shapeCasts_S64_S1x64 _ (by after_results; all_goals rfl) j

/-- The first convolution's bias as a one-row matrix. -/
theorem H3_v17 (k : Fin 16) : (H3 V (main_v17 : DevRef τ sig) : FVec Ideal S1x16 .f32) (ix2 (0 : Fin 1) k)
    = (V (main_arg9 : DevRef τ sig) : FVec Ideal S16 .f32) (ix1 k) :=
  row_of_vec _ shapeCasts_S16_S1x16 _ (by after_results; all_goals rfl) k

/-- The first normalisation's scale as a one-row matrix. -/
theorem H3_v18 (k : Fin 16) : (H3 V (main_v18 : DevRef τ sig) : FVec Ideal S1x16 .f32) (ix2 (0 : Fin 1) k)
    = (V (main_arg10 : DevRef τ sig) : FVec Ideal S16 .f32) (ix1 k) :=
  row_of_vec _ shapeCasts_S16_S1x16 _ (by after_results; all_goals rfl) k

/-- The first normalisation's shift as a one-row matrix. -/
theorem H3_v19 (k : Fin 16) : (H3 V (main_v19 : DevRef τ sig) : FVec Ideal S1x16 .f32) (ix2 (0 : Fin 1) k)
    = (V (main_arg11 : DevRef τ sig) : FVec Ideal S16 .f32) (ix1 k) :=
  row_of_vec _ shapeCasts_S16_S1x16 _ (by after_results; all_goals rfl) k

/-- The first normalisation's running mean as a one-row matrix. -/
theorem H3_v20 (k : Fin 16) : (H3 V (main_v20 : DevRef τ sig) : FVec Ideal S1x16 .f32) (ix2 (0 : Fin 1) k)
    = (V (main_arg12 : DevRef τ sig) : FVec Ideal S16 .f32) (ix1 k) :=
  row_of_vec _ shapeCasts_S16_S1x16 _ (by after_results; all_goals rfl) k

/-- The first normalisation's running variance as a one-row matrix. -/
theorem H3_v21 (k : Fin 16) : (H3 V (main_v21 : DevRef τ sig) : FVec Ideal S1x16 .f32) (ix2 (0 : Fin 1) k)
    = (V (main_arg13 : DevRef τ sig) : FVec Ideal S16 .f32) (ix1 k) :=
  row_of_vec _ shapeCasts_S16_S1x16 _ (by after_results; all_goals rfl) k

/-- The second convolution's bias as a one-row matrix. -/
theorem H3_v25 (j : Fin 64) : (H3 V (main_v25 : DevRef τ sig) : FVec Ideal S1x64 .f32) (ix2 (0 : Fin 1) j)
    = (V (main_arg15 : DevRef τ sig) : FVec Ideal S64 .f32) (ix1 j) :=
  row_of_vec _ shapeCasts_S64_S1x64 _ (by after_results; all_goals rfl) j

/-- The second normalisation's scale as a one-row matrix. -/
theorem H3_v26 (j : Fin 64) : (H3 V (main_v26 : DevRef τ sig) : FVec Ideal S1x64 .f32) (ix2 (0 : Fin 1) j)
    = (V (main_arg16 : DevRef τ sig) : FVec Ideal S64 .f32) (ix1 j) :=
  row_of_vec _ shapeCasts_S64_S1x64 _ (by after_results; all_goals rfl) j

/-- The second normalisation's shift as a one-row matrix. -/
theorem H3_v27 (j : Fin 64) : (H3 V (main_v27 : DevRef τ sig) : FVec Ideal S1x64 .f32) (ix2 (0 : Fin 1) j)
    = (V (main_arg17 : DevRef τ sig) : FVec Ideal S64 .f32) (ix1 j) :=
  row_of_vec _ shapeCasts_S64_S1x64 _ (by after_results; all_goals rfl) j

/-- The second normalisation's running mean as a one-row matrix. -/
theorem H3_v28 (j : Fin 64) : (H3 V (main_v28 : DevRef τ sig) : FVec Ideal S1x64 .f32) (ix2 (0 : Fin 1) j)
    = (V (main_arg18 : DevRef τ sig) : FVec Ideal S64 .f32) (ix1 j) :=
  row_of_vec _ shapeCasts_S64_S1x64 _ (by after_results; all_goals rfl) j

/-- The second normalisation's running variance as a one-row matrix. -/
theorem H3_v29 (j : Fin 64) : (H3 V (main_v29 : DevRef τ sig) : FVec Ideal S1x64 .f32) (ix2 (0 : Fin 1) j)
    = (V (main_arg19 : DevRef τ sig) : FVec Ideal S64 .f32) (ix1 j) :=
  row_of_vec _ shapeCasts_S64_S1x64 _ (by after_results; all_goals rfl) j

/-- The centre tap of a convolution kernel of shape [a, b, 7], as the transposed matrix [b, a]: entry `(j, k)` is the
    kernel's entry `(k, j, 3)` — the slice keeps tap 3, the reshape drops the unit axis, the transposition swaps the two. -/
theorem tap_apply {a b : Nat} (x : FVec Ideal ⟨3, ![a, b, 7]⟩ .f32)
    (hs : (⟨3, ![a, b, 7]⟩ : Shape).Slices ![0, 0, 3] ⟨3, ![a, b, 1]⟩) (hc : (⟨3, ![a, b, 1]⟩ : Shape).ShapeCasts ⟨2, ![a, b]⟩)
    (ht : (⟨2, ![a, b]⟩ : Shape).Transposes [1, 0] ⟨2, ![b, a]⟩) (A : FVec Ideal ⟨2, ![b, a]⟩ .f32)
    (hA : A = transpose ⟨2, ![b, a]⟩ [1, 0] (shapeCast ⟨2, ![a, b]⟩ (extractStridedSlice ⟨3, ![a, b, 1]⟩ ![0, 0, 3] x hs) hc) ht)
    (j : Fin b) (k : Fin a) : A (ix2 j k) = x (ix3 k j (3 : Fin 7)) := by
  subst hA
  rw [transpose_ix2_apply]
  rw [shapeCast_apply _ hc (ix2 k j) (ix3 k j (0 : Fin 1)) (by
    rw [Shape.rowMajor_val_three, Shape.rowMajor_val_two]
    show (k.val * b + j.val) * 1 + 0 = k.val * b + j.val
    omega)]
  refine extractStridedSlice_apply _ _ hs _ (ix3 k j (3 : Fin 7)) fun ax => ?_
  match ax with
  | ⟨0, _⟩ => show k.val = 0 + k.val; omega
  | ⟨1, _⟩ => show j.val = 0 + j.val; omega
  | ⟨2, _⟩ => show 3 = 3 + 0; rfl

/-- The first convolution's centre tap, transposed. -/
theorem H3_v16 (j : Fin 64) (k : Fin 16) : (H3 V (main_v16 : DevRef τ sig) : FVec Ideal S64x16 .f32) (ix2 j k)
    = (V (main_arg8 : DevRef τ sig) : FVec Ideal S16x64x7 .f32) (ix3 k j (3 : Fin 7)) :=
  tap_apply _ slices_S16x64x7_S16x64x1_0_0_3 shapeCasts_S16x64x1_S16x64 transposes_S16x64_S64x16_1_0 _ (by after_results; all_goals rfl) j k

/-- The second convolution's centre tap, transposed. -/
theorem H3_v24 (k : Fin 16) (j : Fin 64) : (H3 V (main_v24 : DevRef τ sig) : FVec Ideal S16x64 .f32) (ix2 k j)
    = (V (main_arg14 : DevRef τ sig) : FVec Ideal S64x16x7 .f32) (ix3 j k (3 : Fin 7)) :=
  tap_apply _ slices_S64x16x7_S64x16x1_0_0_3 shapeCasts_S64x16x1_S64x16 transposes_S64x16_S16x64_1_0 _ (by after_results; all_goals rfl) k j

end Cert.KernelIdeal.KHost

end
-- ==== Proof.KBody0.lean ====
/-
  What the first kernel's body stores, read at an index.

  The body loads one block of 2048 data rows and the (whole) parameter blocks, and stores two blocks: the normalised
  rows, and the de-normalised gated rows.  Read at row `r` and channel `j`, the first is `Spec.xn` of the block's row
  `r` and the second `Spec.wrow` of it: every operation of the body is entry-wise along the rows except the four
  matrix products, each of which contracts a row with a parameter matrix (a finite sum over the channel or the
  hidden index), and the matrices arrive transposed, which the reading hypotheses record.
-/
import proofs.«111743_j36447092474548_1_alg».proof.Proof.Gen.KernelIdeal.Frame
import proofs.«111743_j36447092474548_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KBody0

open Cert.KernelIdeal Cert.KernelIdeal.Gen Idealize.ShloMosaic Idealize.ShloMosaic.TcCoe Idealize.ShloMosaic.ValueIdx

/-! ## The two kinds of matrix product of the body, read at an index

Both contract ONE axis: the left operand's columns with the right operand's rows.  At output index `(r, c)` and
contraction position `q` the operands are read at `(r, q)` and `(q, c)`. -/

/-- The 2048 × 64 by 64 × 16 product's dimension numbers. -/
abbrev DA := dot_S2048x64_S64x16_S2048x16_1_0_0_1_n_n
/-- The 2048 × 16 by 16 × 64 product's dimension numbers. -/
abbrev DB := dot_S2048x16_S16x64_S2048x64_1_0_0_1_n_n

theorem lhsA_0 (j : S2048x16.Idx) (k : DA.contr.Idx) : (DA.lhsIdx j k 0).val = (j 0).val := rfl
theorem lhsA_1 (j : S2048x16.Idx) (k : DA.contr.Idx) : (DA.lhsIdx j k 1).val = (k ⟨0, by decide⟩).val := rfl
theorem rhsA_0 (j : S2048x16.Idx) (k : DA.contr.Idx) : (DA.rhsIdx j k 0).val = (k ⟨0, by decide⟩).val := rfl
theorem rhsA_1 (j : S2048x16.Idx) (k : DA.contr.Idx) : (DA.rhsIdx j k 1).val = (j 1).val := rfl

theorem lhsB_0 (j : S2048x64.Idx) (k : DB.contr.Idx) : (DB.lhsIdx j k 0).val = (j 0).val := rfl
theorem lhsB_1 (j : S2048x64.Idx) (k : DB.contr.Idx) : (DB.lhsIdx j k 1).val = (k ⟨0, by decide⟩).val := rfl
theorem rhsB_0 (j : S2048x64.Idx) (k : DB.contr.Idx) : (DB.rhsIdx j k 0).val = (k ⟨0, by decide⟩).val := rfl
theorem rhsB_1 (j : S2048x64.Idx) (k : DB.contr.Idx) : (DB.rhsIdx j k 1).val = (j 1).val := rfl

/-- The 64-term product from a zero accumulator: entry `(r, k)` is the sum over the channel `j` of
    `a (r, j) · b (j, k)`. -/
theorem matmulA_apply (a : FVec Ideal S2048x64 .bf16) (b : FVec Ideal S64x16 .bf16) (r : Fin 2048) (k : Fin 16) :
    matmul DA none a b (constant S2048x16 .f32 0x00000000#32) (ix2 r k) = ∑ j : Fin 64, a (ix2 r j) * b (ix2 j k) := by
  simp only [matmul]
  rw [Ideal.matmul_constant_zero_apply]
  rw [← Equiv.sum_comp (contrEquiv1 DA 64 rfl rfl).symm]
  refine Finset.sum_congr rfl fun j _ => ?_
  have hl : DA.lhsIdx (ix2 r k) ((contrEquiv1 DA 64 rfl rfl).symm j) = ix2 r j := by
    funext a; apply Fin.ext
    match a with
    | ⟨0, _⟩ => exact lhsA_0 _ _
    | ⟨1, _⟩ => exact (lhsA_1 _ _).trans (contrEquiv1_symm_val DA 64 rfl rfl j)
  have hr : DA.rhsIdx (ix2 r k) ((contrEquiv1 DA 64 rfl rfl).symm j) = ix2 j k := by
    funext a; apply Fin.ext
    match a with
    | ⟨0, _⟩ => exact (rhsA_0 _ _).trans (contrEquiv1_symm_val DA 64 rfl rfl j)
    | ⟨1, _⟩ => exact rhsA_1 _ _
  rw [hl, hr]

/-- The 16-term product from a zero accumulator: entry `(r, j)` is the sum over the hidden index `k` of
    `a (r, k) · b (k, j)`. -/
theorem matmulB_apply (a : FVec Ideal S2048x16 .bf16) (b : FVec Ideal S16x64 .bf16) (r : Fin 2048) (j : Fin 64) :
    matmul DB none a b (constant S2048x64 .f32 0x00000000#32) (ix2 r j) = ∑ k : Fin 16, a (ix2 r k) * b (ix2 k j) := by
  simp only [matmul]
  rw [Ideal.matmul_constant_zero_apply]
  rw [← Equiv.sum_comp (contrEquiv1 DB 16 rfl rfl).symm]
  refine Finset.sum_congr rfl fun k _ => ?_
  have hl : DB.lhsIdx (ix2 r j) ((contrEquiv1 DB 16 rfl rfl).symm k) = ix2 r k := by
    funext a; apply Fin.ext
    match a with
    | ⟨0, _⟩ => exact lhsB_0 _ _
    | ⟨1, _⟩ => exact (lhsB_1 _ _).trans (contrEquiv1_symm_val DB 16 rfl rfl k)
  have hr : DB.rhsIdx (ix2 r j) ((contrEquiv1 DB 16 rfl rfl).symm k) = ix2 k j := by
    funext a; apply Fin.ext
    match a with
    | ⟨0, _⟩ => exact (rhsB_0 _ _).trans (contrEquiv1_symm_val DB 16 rfl rfl k)
    | ⟨1, _⟩ => exact rhsB_1 _ _
  rw [hl, hr]

/-! ## Small readings -/

/-- The one entry of a 1 × 1 block. -/
theorem extract11 (x : Vec Ideal S1x1 .f32) (h : ∀ a, (![0, 0] : Fin 2 → Nat) a < S1x1.size a) :
    extractAt ![0, 0] x h = x (ix2 (0 : Fin 1) (0 : Fin 1)) := by
  unfold extractAt
  refine congrArg x (funext fun a => ?_)
  match a with
  | ⟨0, _⟩ => rfl
  | ⟨1, _⟩ => rfl

/-- The inverse square root and the logistic function act entry by entry. -/
theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

variable (P : Cert.Spec.Params) (mu sd : EReal) (row : Fin 2048 → Fin 64 → EReal)
variable (x0 : Vec Ideal S2048x64 .f32) (x1 x2 : Vec Ideal S1x1 .f32) (x3 x4 : Vec Ideal S1x64 .f32)
  (x5 : Vec Ideal S64x16 .f32) (x6 : Vec Ideal S1x16 .f32) (x7 : Vec Ideal S16x64 .f32) (x8 : Vec Ideal S1x64 .f32)
  (x9 : Vec Ideal S64x16 .f32) (x10 x11 x12 x13 x14 : Vec Ideal S1x16 .f32) (x15 : Vec Ideal S16x64 .f32)
  (x16 x17 x18 x19 x20 : Vec Ideal S1x64 .f32)

/-! ## The payloads, read at an index -/

/-- The two statistics are read out of their 1 × 1 blocks. -/
theorem pay2_eq : k0_pay2 (F := Ideal) x1 = x1 (ix2 (0 : Fin 1) (0 : Fin 1)) := by
  unfold k0_pay2; exact extract11 x1 _
theorem pay3_eq : k0_pay3 (F := Ideal) x2 = x2 (ix2 (0 : Fin 1) (0 : Fin 1)) := by
  unfold k0_pay3; exact extract11 x2 _
/-- The affine pair passes through unchanged. -/
theorem pay4_eq : k0_pay4 (F := Ideal) x3 = x3 := by
  unfold k0_pay4; exact shapeCast_self x3 _
theorem pay5_eq : k0_pay5 (F := Ideal) x4 = x4 := by
  unfold k0_pay5; exact shapeCast_self x4 _

/-- The normalised block: entry `(r, j)` is `(x − mu) / sd · rw + rb` of the data row `r` at channel `j`. -/
theorem pay6_apply (h0 : ∀ (r : Fin 2048) (j : Fin 64), x0 (ix2 r j) = row r j)
    (h1 : x1 (ix2 (0 : Fin 1) (0 : Fin 1)) = mu) (h2 : x2 (ix2 (0 : Fin 1) (0 : Fin 1)) = sd)
    (h3 : ∀ j : Fin 64, x3 (ix2 (0 : Fin 1) j) = P.rw j) (h4 : ∀ j : Fin 64, x4 (ix2 (0 : Fin 1) j) = P.rb j)
    (r : Fin 2048) (j : Fin 64) :
    k0_pay6 (F := Ideal) x0 x1 x2 x3 x4 (ix2 r j) = Cert.Spec.xn P mu sd (row r) j := by
  unfold k0_pay6
  rw [pay2_eq, pay3_eq, pay4_eq, pay5_eq]
  simp only [shapeCast_self, addf_apply, mulf_apply, divf_apply, subf_apply, broadcast_apply, broadcastTo_1b_ab_apply,
    h0, h1, h2, h3, h4]
  rfl

/-- The attention block: entry `(r, j)` is the 16-term contraction of the clamped hidden row with the second
    attention matrix plus its bias; the hidden row is the 64-term contraction of the normalised row with the first. -/
theorem pay7_apply (h0 : ∀ (r : Fin 2048) (j : Fin 64), x0 (ix2 r j) = row r j)
    (h1 : x1 (ix2 (0 : Fin 1) (0 : Fin 1)) = mu) (h2 : x2 (ix2 (0 : Fin 1) (0 : Fin 1)) = sd)
    (h3 : ∀ j : Fin 64, x3 (ix2 (0 : Fin 1) j) = P.rw j) (h4 : ∀ j : Fin 64, x4 (ix2 (0 : Fin 1) j) = P.rb j)
    (h5 : ∀ (j : Fin 64) (k : Fin 16), x5 (ix2 j k) = P.w1 k j) (h6 : ∀ k : Fin 16, x6 (ix2 (0 : Fin 1) k) = P.b1 k)
    (h7 : ∀ (k : Fin 16) (j : Fin 64), x7 (ix2 k j) = P.w2 j k) (h8 : ∀ j : Fin 64, x8 (ix2 (0 : Fin 1) j) = P.b2 j)
    (r : Fin 2048) (j : Fin 64) :
    k0_pay7 (F := Ideal) x0 x1 x2 x3 x4 x5 x6 x7 x8 (ix2 r j) = Cert.Spec.att P mu sd (row r) j := by
  unfold k0_pay7
  simp only [shapeCast_self, addf_apply, maximumf_apply, truncf_apply, broadcast_apply, broadcastTo_1b_ab_apply,
    matmulA_apply, matmulB_apply, pay6_apply P mu sd row x0 x1 x2 x3 x4 h0 h1 h2 h3 h4, h5, h6, h7, h8]
  rfl

/-- The second spatial layer before its normalisation, over ANY two blocks `G` and `A` whose entry-wise product is
    the gated block: entry `(r, j)` is the 16-term contraction of the first spatial layer of the gated row `r` with
    the second convolution's centre tap, plus its bias. -/
theorem pay9_apply (G A : FVec Ideal S2048x64 .f32)
    (h9 : ∀ (j : Fin 64) (k : Fin 16), x9 (ix2 j k) = P.c1 k j) (h10 : ∀ k : Fin 16, x10 (ix2 (0 : Fin 1) k) = P.cb1 k)
    (h11 : ∀ k : Fin 16, x11 (ix2 (0 : Fin 1) k) = P.g1 k) (h12 : ∀ k : Fin 16, x12 (ix2 (0 : Fin 1) k) = P.be1 k)
    (h13 : ∀ k : Fin 16, x13 (ix2 (0 : Fin 1) k) = P.m1 k) (h14 : ∀ k : Fin 16, x14 (ix2 (0 : Fin 1) k) = P.v1 k)
    (h15 : ∀ (k : Fin 16) (j : Fin 64), x15 (ix2 k j) = P.c2 j k) (h16 : ∀ j : Fin 64, x16 (ix2 (0 : Fin 1) j) = P.cb2 j)
    (r : Fin 2048) (j : Fin 64) :
    k0_pay9 (F := Ideal) G A x9 x10 x11 x12 x13 x14 x15 x16 (ix2 r j)
      = (∑ k : Fin 16, Cert.Spec.sp1 P (fun j' => G (ix2 r j') * A (ix2 r j')) k * P.c2 j k) + P.cb2 j := by
  unfold k0_pay9 k0_pay8
  simp only [shapeCast_self, addf_apply, subf_apply, mulf_apply, maximumf_apply, truncf_apply, rsqrt_apply, broadcast_apply,
    broadcastTo_1b_ab_apply, matmulA_apply, matmulB_apply, h9, h10, h11, h12, h13, h14, h15, h16]
  rfl

/-- The stored block over ANY gated block `g` and pre-normalisation block `s`: entry `(r, j)` normalises `s`,
    gates `g` by its logistic, and undoes the affine map and the standardisation. -/
theorem pay1_apply (v3 v5 : EReal) (v7 v9 : FVec Ideal S1x64 .f32) (g s : FVec Ideal S2048x64 .f32)
    (h17 : ∀ j : Fin 64, x17 (ix2 (0 : Fin 1) j) = P.g2 j) (h18 : ∀ j : Fin 64, x18 (ix2 (0 : Fin 1) j) = P.be2 j)
    (h19 : ∀ j : Fin 64, x19 (ix2 (0 : Fin 1) j) = P.m2 j) (h20 : ∀ j : Fin 64, x20 (ix2 (0 : Fin 1) j) = P.v2 j)
    (r : Fin 2048) (j : Fin 64) :
    k0_pay1 (F := Ideal) v3 v5 v7 v9 g s x17 x18 x19 x20 (ix2 r j)
      = Ideal.div (g (ix2 r j) * Ideal.logistic ((s (ix2 r j) - P.m2 j) * Ideal.rsqrt (P.v2 j + Cert.Spec.eps) * P.g2 j + P.be2 j)
            - v9 (ix2 (0 : Fin 1) j)) (v7 (ix2 (0 : Fin 1) j) + Cert.Spec.eps2) * v5 + v3 := by
  unfold k0_pay1
  simp only [shapeCast_self, addf_apply, subf_apply, mulf_apply, divf_apply, rsqrt_apply, logistic_apply, broadcast_apply,
    broadcastTo_1b_ab_apply, h17, h18, h19, h20]
  rfl

/-- What the 21 input blocks hold, coordinate by coordinate: the data block's rows, the two statistics, and each
    parameter (the four matrices transposed: block entry `(j, k)` of a 64 × 16 block is the parameter's `(k, j)`). -/
structure Reads : Prop where
  h0 : ∀ (r : Fin 2048) (j : Fin 64), x0 (ix2 r j) = row r j
  h1 : x1 (ix2 (0 : Fin 1) (0 : Fin 1)) = mu
  h2 : x2 (ix2 (0 : Fin 1) (0 : Fin 1)) = sd
  h3 : ∀ j : Fin 64, x3 (ix2 (0 : Fin 1) j) = P.rw j
  h4 : ∀ j : Fin 64, x4 (ix2 (0 : Fin 1) j) = P.rb j
  h5 : ∀ (j : Fin 64) (k : Fin 16), x5 (ix2 j k) = P.w1 k j
  h6 : ∀ k : Fin 16, x6 (ix2 (0 : Fin 1) k) = P.b1 k
  h7 : ∀ (k : Fin 16) (j : Fin 64), x7 (ix2 k j) = P.w2 j k
  h8 : ∀ j : Fin 64, x8 (ix2 (0 : Fin 1) j) = P.b2 j
  h9 : ∀ (j : Fin 64) (k : Fin 16), x9 (ix2 j k) = P.c1 k j
  h10 : ∀ k : Fin 16, x10 (ix2 (0 : Fin 1) k) = P.cb1 k
  h11 : ∀ k : Fin 16, x11 (ix2 (0 : Fin 1) k) = P.g1 k
  h12 : ∀ k : Fin 16, x12 (ix2 (0 : Fin 1) k) = P.be1 k
  h13 : ∀ k : Fin 16, x13 (ix2 (0 : Fin 1) k) = P.m1 k
  h14 : ∀ k : Fin 16, x14 (ix2 (0 : Fin 1) k) = P.v1 k
  h15 : ∀ (k : Fin 16) (j : Fin 64), x15 (ix2 k j) = P.c2 j k
  h16 : ∀ j : Fin 64, x16 (ix2 (0 : Fin 1) j) = P.cb2 j
  h17 : ∀ j : Fin 64, x17 (ix2 (0 : Fin 1) j) = P.g2 j
  h18 : ∀ j : Fin 64, x18 (ix2 (0 : Fin 1) j) = P.be2 j
  h19 : ∀ j : Fin 64, x19 (ix2 (0 : Fin 1) j) = P.m2 j
  h20 : ∀ j : Fin 64, x20 (ix2 (0 : Fin 1) j) = P.v2 j

/-- The whole-block rectangles sit at offset zero on both axes. -/
theorem off_zero : (![0, 0] : Fin 2 → Nat) = fun _ => 0 := funext fun a => by fin_cases a <;> rfl

/-- The first output block (the normalised rows) at row `r`, channel `j`. -/
theorem out0_21_apply (h : Reads P mu sd row x0 x1 x2 x3 x4 x5 x6 x7 x8 x9 x10 x11 x12 x13 x14 x15 x16 x17 x18 x19 x20)
    (r : Fin 2048) (j : Fin 64) :
    out0_21 (F := Ideal) x0 x1 x2 x3 x4 x5 x6 x7 x8 x9 x10 x11 x12 x13 x14 x15 x16 x17 x18 x19 x20 (ix2 r j)
      = Cert.Spec.xn P mu sd (row r) j := by
  unfold out0_21
  rw [View.canon_unit_zero off_zero]
  simp only [View.ld_unit_zero (S := S2048x64) off_zero, View.ld_unit_zero (S := S1x1) off_zero,
    View.ld_unit_zero (S := S1x64) off_zero]
  exact pay6_apply P mu sd row x0 x1 x2 x3 x4 h.h0 h.h1 h.h2 h.h3 h.h4 r j

/-- The second output block (the de-normalised gated rows) at row `r`, channel `j`. -/
theorem out0_22_apply (h : Reads P mu sd row x0 x1 x2 x3 x4 x5 x6 x7 x8 x9 x10 x11 x12 x13 x14 x15 x16 x17 x18 x19 x20)
    (r : Fin 2048) (j : Fin 64) :
    out0_22 (F := Ideal) x0 x1 x2 x3 x4 x5 x6 x7 x8 x9 x10 x11 x12 x13 x14 x15 x16 x17 x18 x19 x20 (ix2 r j)
      = Cert.Spec.wrow P mu sd (row r) j := by
  unfold out0_22
  rw [View.canon_unit_zero off_zero]
  simp only [View.ld_unit_zero (S := S2048x64) off_zero, View.ld_unit_zero (S := S1x1) off_zero,
    View.ld_unit_zero (S := S1x64) off_zero, View.ld_unit_zero (S := S64x16) off_zero,
    View.ld_unit_zero (S := S1x16) off_zero, View.ld_unit_zero (S := S16x64) off_zero]
  have hg : (fun j' => k0_pay6 (F := Ideal) x0 x1 x2 x3 x4 (ix2 r j') * k0_pay7 (F := Ideal) x0 x1 x2 x3 x4 x5 x6 x7 x8 (ix2 r j'))
      = Cert.Spec.gated P mu sd (row r) := by
    funext j'
    rw [pay6_apply P mu sd row x0 x1 x2 x3 x4 h.h0 h.h1 h.h2 h.h3 h.h4,
      pay7_apply P mu sd row x0 x1 x2 x3 x4 x5 x6 x7 x8 h.h0 h.h1 h.h2 h.h3 h.h4 h.h5 h.h6 h.h7 h.h8]
    rfl
  rw [pay1_apply P x17 x18 x19 x20 _ _ _ _ _ _ h.h17 h.h18 h.h19 h.h20,
    pay9_apply P x9 x10 x11 x12 x13 x14 x15 x16 _ _ h.h9 h.h10 h.h11 h.h12 h.h13 h.h14 h.h15 h.h16, hg,
    pay2_eq, pay3_eq, pay4_eq, pay5_eq, h.h1, h.h2, h.h3, h.h4]
  unfold k0_pay8
  rw [mulf_apply, pay6_apply P mu sd row x0 x1 x2 x3 x4 h.h0 h.h1 h.h2 h.h3 h.h4,
    pay7_apply P mu sd row x0 x1 x2 x3 x4 x5 x6 x7 x8 h.h0 h.h1 h.h2 h.h3 h.h4 h.h5 h.h6 h.h7 h.h8]
  rfl

end Cert.KernelIdeal.KBody0

end
-- ==== Proof.KRegion0.lean ====
/-
  The first kernel's two output arrays after its run.

  The first kernel walks the 8192 data rows in 4 blocks of 2048; at block `t` its body reads rows
  `2048 t … 2048 t + 2047` of the data matrix and every parameter whole, and writes the same rows of its two outputs.
  Row `2048 t + r` of the first output is therefore `Spec.xn` of that data row, and of the second `Spec.wrow` of it
  (the body read at an index); the four blocks cover all rows, so the two arrays end as `Spec.xnVec` and `Spec.wVec` of
  the data matrix.
-/
import proofs.«111743_j36447092474548_1_alg».proof.Proof.Gen.KernelIdeal.Frame
import proofs.«111743_j36447092474548_1_alg».proof.Proof.KBody0
import Idealize.ShloMosaic.Lib.ValueIdx
import Idealize.ShloMosaic.Lib.Pipeline.Value

set_option maxRecDepth 16384

noncomputable section

namespace Cert.KernelIdeal.KRegion0

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))
variable (c : Dev nD) (P : Cert.Spec.Params) (mu sd : EReal) (d : FVec Ideal S8192x64 .f32)

/-- What the region finds in the arrays its input windows stage: the data matrix, the two statistics, the parameters. -/
structure Entry : Prop where
  e0 : (V c main_v0 : FVec Ideal S8192x64 .f32) = d
  e1 : (V c main_v6 : FVec Ideal S1x1 .f32) (ix2 (0 : Fin 1) (0 : Fin 1)) = mu
  e2 : (V c main_v7 : FVec Ideal S1x1 .f32) (ix2 (0 : Fin 1) (0 : Fin 1)) = sd
  e3 : ∀ j : Fin 64, (V c main_v8 : FVec Ideal S1x64 .f32) (ix2 (0 : Fin 1) j) = P.rw j
  e4 : ∀ j : Fin 64, (V c main_v9 : FVec Ideal S1x64 .f32) (ix2 (0 : Fin 1) j) = P.rb j
  e5 : ∀ (j : Fin 64) (k : Fin 16), (V c main_v10 : FVec Ideal S64x16 .f32) (ix2 j k) = P.w1 k j
  e6 : ∀ k : Fin 16, (V c main_v11 : FVec Ideal S1x16 .f32) (ix2 (0 : Fin 1) k) = P.b1 k
  e7 : ∀ (k : Fin 16) (j : Fin 64), (V c main_v12 : FVec Ideal S16x64 .f32) (ix2 k j) = P.w2 j k
  e8 : ∀ j : Fin 64, (V c main_v13 : FVec Ideal S1x64 .f32) (ix2 (0 : Fin 1) j) = P.b2 j
  e9 : ∀ (j : Fin 64) (k : Fin 16), (V c main_v16 : FVec Ideal S64x16 .f32) (ix2 j k) = P.c1 k j
  e10 : ∀ k : Fin 16, (V c main_v17 : FVec Ideal S1x16 .f32) (ix2 (0 : Fin 1) k) = P.cb1 k
  e11 : ∀ k : Fin 16, (V c main_v18 : FVec Ideal S1x16 .f32) (ix2 (0 : Fin 1) k) = P.g1 k
  e12 : ∀ k : Fin 16, (V c main_v19 : FVec Ideal S1x16 .f32) (ix2 (0 : Fin 1) k) = P.be1 k
  e13 : ∀ k : Fin 16, (V c main_v20 : FVec Ideal S1x16 .f32) (ix2 (0 : Fin 1) k) = P.m1 k
  e14 : ∀ k : Fin 16, (V c main_v21 : FVec Ideal S1x16 .f32) (ix2 (0 : Fin 1) k) = P.v1 k
  e15 : ∀ (k : Fin 16) (j : Fin 64), (V c main_v24 : FVec Ideal S16x64 .f32) (ix2 k j) = P.c2 j k
  e16 : ∀ j : Fin 64, (V c main_v25 : FVec Ideal S1x64 .f32) (ix2 (0 : Fin 1) j) = P.cb2 j
  e17 : ∀ j : Fin 64, (V c main_v26 : FVec Ideal S1x64 .f32) (ix2 (0 : Fin 1) j) = P.g2 j
  e18 : ∀ j : Fin 64, (V c main_v27 : FVec Ideal S1x64 .f32) (ix2 (0 : Fin 1) j) = P.be2 j
  e19 : ∀ j : Fin 64, (V c main_v28 : FVec Ideal S1x64 .f32) (ix2 (0 : Fin 1) j) = P.m2 j
  e20 : ∀ j : Fin 64, (V c main_v29 : FVec Ideal S1x64 .f32) (ix2 (0 : Fin 1) j) = P.v2 j

theorem hz : (![0, 0] : Fin 2 → Nat) = fun _ => 0 := funext fun a => by fin_cases a <;> rfl

/-- The row-block windows (the data and the two outputs) sit at block `t` of the rows and block 0 of the channels. -/
theorem idx_rows : ∀ t : Fin cfg0.N, win0_0.index t (0 : Fin 2) = t.val ∧ win0_0.index t (1 : Fin 2) = 0
    ∧ win0_21.index t (0 : Fin 2) = t.val ∧ win0_21.index t (1 : Fin 2) = 0
    ∧ win0_22.index t (0 : Fin 2) = t.val ∧ win0_22.index t (1 : Fin 2) = 0 :=
  (by decide +kernel : ∀ t : Fin grid0.N, _)

/-- The global row of row `r` of block `t`. -/
def grow (t : Fin cfg0.N) (r : Fin 2048) : Fin 8192 :=
  ⟨t.val * 2048 + r.val, by have h1 := t.isLt; have h2 : cfg0.N = 4 := N_0; have h3 := r.isLt; omega⟩

/-- Entry `(r, j)` of the data window's block at point `t` sits at `(2048 t + r, j)` of the data matrix. -/
theorem emb0 (t : Fin cfg0.N) (r : Fin 2048) (j : Fin 64) :
    ((cfg0.win 0).blk t).view.emb (ix2 r j) = (ix2 (grow t r) j : S8192x64.Idx) := by
  obtain ⟨e0, e1, -⟩ := idx_rows t
  funext a; apply Fin.ext
  match a with
  | ⟨0, _⟩ => show win0_0.index t (0 : Fin 2) * 2048 + 1 * r.val = t.val * 2048 + r.val; omega
  | ⟨1, _⟩ => show win0_0.index t (1 : Fin 2) * 64 + 1 * j.val = j.val; omega

theorem emb21 (t : Fin cfg0.N) (r : Fin 2048) (j : Fin 64) :
    ((cfg0.win 21).blk t).view.emb (ix2 r j) = (ix2 (grow t r) j : S8192x64.Idx) := by
  obtain ⟨-, -, e0, e1, -⟩ := idx_rows t
  funext a; apply Fin.ext
  match a with
  | ⟨0, _⟩ => show win0_21.index t (0 : Fin 2) * 2048 + 1 * r.val = t.val * 2048 + r.val; omega
  | ⟨1, _⟩ => show win0_21.index t (1 : Fin 2) * 64 + 1 * j.val = j.val; omega

theorem emb22 (t : Fin cfg0.N) (r : Fin 2048) (j : Fin 64) :
    ((cfg0.win 22).blk t).view.emb (ix2 r j) = (ix2 (grow t r) j : S8192x64.Idx) := by
  obtain ⟨-, -, -, -, e0, e1⟩ := idx_rows t
  funext a; apply Fin.ext
  match a with
  | ⟨0, _⟩ => show win0_22.index t (0 : Fin 2) * 2048 + 1 * r.val = t.val * 2048 + r.val; omega
  | ⟨1, _⟩ => show win0_22.index t (1 : Fin 2) * 64 + 1 * j.val = j.val; omega

/-- The data block at point `t`, read: row `r` is the data matrix's row `2048 t + r`. -/
theorem read0 (E : Entry V c P mu sd d) (t : Fin cfg0.N) (r : Fin 2048) (j : Fin 64) :
    iblk0 V c 0 t (ix2 r j) = d (ix2 (grow t r) j) := by
  show (V c main_v0 : FVec Ideal S8192x64 .f32) (((cfg0.win 0).blk t).view.emb (ix2 r j)) = _
  rw [emb0 t r j, E.e0]

/-- Every other input window stages its whole array at every point: its block index is zero on both axes. -/
theorem idx_whole : ∀ t : Fin cfg0.N, ∀ w : Fin cfg0.W, 0 < w.val → w.val < 21 → ∀ a, (cfg0.win w).index t a = 0 :=
  (by decide +kernel : ∀ t : Fin grid0.N, ∀ w : Fin 23, 0 < w.val → w.val < 21 → ∀ a, (win0 w).index t a = 0)

/-- So an entry of such a window's block sits at the same coordinates in its array. -/
theorem emb_whole (w : Fin cfg0.W) (h0 : 0 < w.val) (h1 : w.val < 21) (t : Fin cfg0.N)
    (y : ((cfg0.win w).xblock (cfg0.grid.coords t)).Idx) (a : Fin (cfg0.win w).shape.rank) :
    ((((cfg0.win w).rect t).emb y a : Nat)) = y a :=
  Window.rect_emb_val_of_index_zero (cfg0.win w) t a (idx_whole t w h0 h1 a) y

/-- An entry of a block that is its whole array sits at its own coordinates: closes `(blk t).view.emb y = y` for window
    `W` (number `n`, one of the twenty whole-array windows) at point `t`. -/
local macro "whole_block" W:ident n:num t:ident : tactic =>
  `(tactic| (funext a; apply Fin.ext
             exact Window.rect_emb_val_of_index_zero $W $t a (idx_whole $t $n (by decide) (by decide) a) _))

/-- The mean's block, read. -/
theorem read1 (E : Entry V c P mu sd d) (t : Fin cfg0.N) : iblk0 V c 1 t (ix2 (0 : Fin 1) (0 : Fin 1)) = mu := by
  show (V c main_v6 : FVec Ideal S1x1 .f32) (((cfg0.win 1).blk t).view.emb (ix2 (0 : Fin 1) (0 : Fin 1))) = _
  rw [show ((cfg0.win 1).blk t).view.emb (ix2 (0 : Fin 1) (0 : Fin 1)) = (ix2 (0 : Fin 1) (0 : Fin 1) : S1x1.Idx) from by whole_block win0_1 1 t]
  exact E.e1

/-- The standard deviation's block, read. -/
theorem read2 (E : Entry V c P mu sd d) (t : Fin cfg0.N) : iblk0 V c 2 t (ix2 (0 : Fin 1) (0 : Fin 1)) = sd := by
  show (V c main_v7 : FVec Ideal S1x1 .f32) (((cfg0.win 2).blk t).view.emb (ix2 (0 : Fin 1) (0 : Fin 1))) = _
  rw [show ((cfg0.win 2).blk t).view.emb (ix2 (0 : Fin 1) (0 : Fin 1)) = (ix2 (0 : Fin 1) (0 : Fin 1) : S1x1.Idx) from by whole_block win0_2 2 t]
  exact E.e2

/-- The affine weight's block, read. -/
theorem read3 (E : Entry V c P mu sd d) (t : Fin cfg0.N) (j : Fin 64) : iblk0 V c 3 t (ix2 (0 : Fin 1) j) = P.rw j := by
  show (V c main_v8 : FVec Ideal S1x64 .f32) (((cfg0.win 3).blk t).view.emb (ix2 (0 : Fin 1) j)) = _
  rw [show ((cfg0.win 3).blk t).view.emb (ix2 (0 : Fin 1) j) = (ix2 (0 : Fin 1) j : S1x64.Idx) from by whole_block win0_3 3 t]
  exact E.e3 j

/-- The affine shift's block, read. -/
theorem read4 (E : Entry V c P mu sd d) (t : Fin cfg0.N) (j : Fin 64) : iblk0 V c 4 t (ix2 (0 : Fin 1) j) = P.rb j := by
  show (V c main_v9 : FVec Ideal S1x64 .f32) (((cfg0.win 4).blk t).view.emb (ix2 (0 : Fin 1) j)) = _
  rw [show ((cfg0.win 4).blk t).view.emb (ix2 (0 : Fin 1) j) = (ix2 (0 : Fin 1) j : S1x64.Idx) from by whole_block win0_4 4 t]
  exact E.e4 j

/-- The first attention matrix's block (transposed), read. -/
theorem read5 (E : Entry V c P mu sd d) (t : Fin cfg0.N) (j : Fin 64) (k : Fin 16) : iblk0 V c 5 t (ix2 j k) = P.w1 k j := by
  show (V c main_v10 : FVec Ideal S64x16 .f32) (((cfg0.win 5).blk t).view.emb (ix2 j k)) = _
  rw [show ((cfg0.win 5).blk t).view.emb (ix2 j k) = (ix2 j k : S64x16.Idx) from by whole_block win0_5 5 t]
  exact E.e5 j k

/-- The first attention bias's block, read. -/
theorem read6 (E : Entry V c P mu sd d) (t : Fin cfg0.N) (k : Fin 16) : iblk0 V c 6 t (ix2 (0 : Fin 1) k) = P.b1 k := by
  show (V c main_v11 : FVec Ideal S1x16 .f32) (((cfg0.win 6).blk t).view.emb (ix2 (0 : Fin 1) k)) = _
  rw [show ((cfg0.win 6).blk t).view.emb (ix2 (0 : Fin 1) k) = (ix2 (0 : Fin 1) k : S1x16.Idx) from by whole_block win0_6 6 t]
  exact E.e6 k

/-- The second attention matrix's block (transposed), read. -/
theorem read7 (E : Entry V c P mu sd d) (t : Fin cfg0.N) (k : Fin 16) (j : Fin 64) : iblk0 V c 7 t (ix2 k j) = P.w2 j k := by
  show (V c main_v12 : FVec Ideal S16x64 .f32) (((cfg0.win 7).blk t).view.emb (ix2 k j)) = _
  rw [show ((cfg0.win 7).blk t).view.emb (ix2 k j) = (ix2 k j : S16x64.Idx) from by whole_block win0_7 7 t]
  exact E.e7 k j

/-- The second attention bias's block, read. -/
theorem read8 (E : Entry V c P mu sd d) (t : Fin cfg0.N) (j : Fin 64) : iblk0 V c 8 t (ix2 (0 : Fin 1) j) = P.b2 j := by
  show (V c main_v13 : FVec Ideal S1x64 .f32) (((cfg0.win 8).blk t).view.emb (ix2 (0 : Fin 1) j)) = _
  rw [show ((cfg0.win 8).blk t).view.emb (ix2 (0 : Fin 1) j) = (ix2 (0 : Fin 1) j : S1x64.Idx) from by whole_block win0_8 8 t]
  exact E.e8 j

/-- The first convolution's centre tap's block (transposed), read. -/
theorem read9 (E : Entry V c P mu sd d) (t : Fin cfg0.N) (j : Fin 64) (k : Fin 16) : iblk0 V c 9 t (ix2 j k) = P.c1 k j := by
  show (V c main_v16 : FVec Ideal S64x16 .f32) (((cfg0.win 9).blk t).view.emb (ix2 j k)) = _
  rw [show ((cfg0.win 9).blk t).view.emb (ix2 j k) = (ix2 j k : S64x16.Idx) from by whole_block win0_9 9 t]
  exact E.e9 j k

/-- The first convolution's bias's block, read. -/
theorem read10 (E : Entry V c P mu sd d) (t : Fin cfg0.N) (k : Fin 16) : iblk0 V c 10 t (ix2 (0 : Fin 1) k) = P.cb1 k := by
  show (V c main_v17 : FVec Ideal S1x16 .f32) (((cfg0.win 10).blk t).view.emb (ix2 (0 : Fin 1) k)) = _
  rw [show ((cfg0.win 10).blk t).view.emb (ix2 (0 : Fin 1) k) = (ix2 (0 : Fin 1) k : S1x16.Idx) from by whole_block win0_10 10 t]
  exact E.e10 k

/-- The first normalisation's scale's block, read. -/
theorem read11 (E : Entry V c P mu sd d) (t : Fin cfg0.N) (k : Fin 16) : iblk0 V c 11 t (ix2 (0 : Fin 1) k) = P.g1 k := by
  show (V c main_v18 : FVec Ideal S1x16 .f32) (((cfg0.win 11).blk t).view.emb (ix2 (0 : Fin 1) k)) = _
  rw [show ((cfg0.win 11).blk t).view.emb (ix2 (0 : Fin 1) k) = (ix2 (0 : Fin 1) k : S1x16.Idx) from by whole_block win0_11 11 t]
  exact E.e11 k

/-- The first normalisation's shift's block, read. -/
theorem read12 (E : Entry V c P mu sd d) (t : Fin cfg0.N) (k : Fin 16) : iblk0 V c 12 t (ix2 (0 : Fin 1) k) = P.be1 k := by
  show (V c main_v19 : FVec Ideal S1x16 .f32) (((cfg0.win 12).blk t).view.emb (ix2 (0 : Fin 1) k)) = _
  rw [show ((cfg0.win 12).blk t).view.emb (ix2 (0 : Fin 1) k) = (ix2 (0 : Fin 1) k : S1x16.Idx) from by whole_block win0_12 12 t]
  exact E.e12 k

/-- The first normalisation's running mean's block, read. -/
theorem read13 (E : Entry V c P mu sd d) (t : Fin cfg0.N) (k : Fin 16) : iblk0 V c 13 t (ix2 (0 : Fin 1) k) = P.m1 k := by
  show (V c main_v20 : FVec Ideal S1x16 .f32) (((cfg0.win 13).blk t).view.emb (ix2 (0 : Fin 1) k)) = _
  rw [show ((cfg0.win 13).blk t).view.emb (ix2 (0 : Fin 1) k) = (ix2 (0 : Fin 1) k : S1x16.Idx) from by whole_block win0_13 13 t]
  exact E.e13 k

/-- The first normalisation's running variance's block, read. -/
theorem read14 (E : Entry V c P mu sd d) (t : Fin cfg0.N) (k : Fin 16) : iblk0 V c 14 t (ix2 (0 : Fin 1) k) = P.v1 k := by
  show (V c main_v21 : FVec Ideal S1x16 .f32) (((cfg0.win 14).blk t).view.emb (ix2 (0 : Fin 1) k)) = _
  rw [show ((cfg0.win 14).blk t).view.emb (ix2 (0 : Fin 1) k) = (ix2 (0 : Fin 1) k : S1x16.Idx) from by whole_block win0_14 14 t]
  exact E.e14 k

/-- The second convolution's centre tap's block (transposed), read. -/
theorem read15 (E : Entry V c P mu sd d) (t : Fin cfg0.N) (k : Fin 16) (j : Fin 64) : iblk0 V c 15 t (ix2 k j) = P.c2 j k := by
  show (V c main_v24 : FVec Ideal S16x64 .f32) (((cfg0.win 15).blk t).view.emb (ix2 k j)) = _
  rw [show ((cfg0.win 15).blk t).view.emb (ix2 k j) = (ix2 k j : S16x64.Idx) from by whole_block win0_15 15 t]
  exact E.e15 k j

/-- The second convolution's bias's block, read. -/
theorem read16 (E : Entry V c P mu sd d) (t : Fin cfg0.N) (j : Fin 64) : iblk0 V c 16 t (ix2 (0 : Fin 1) j) = P.cb2 j := by
  show (V c main_v25 : FVec Ideal S1x64 .f32) (((cfg0.win 16).blk t).view.emb (ix2 (0 : Fin 1) j)) = _
  rw [show ((cfg0.win 16).blk t).view.emb (ix2 (0 : Fin 1) j) = (ix2 (0 : Fin 1) j : S1x64.Idx) from by whole_block win0_16 16 t]
  exact E.e16 j

/-- The second normalisation's scale's block, read. -/
theorem read17 (E : Entry V c P mu sd d) (t : Fin cfg0.N) (j : Fin 64) : iblk0 V c 17 t (ix2 (0 : Fin 1) j) = P.g2 j := by
  show (V c main_v26 : FVec Ideal S1x64 .f32) (((cfg0.win 17).blk t).view.emb (ix2 (0 : Fin 1) j)) = _
  rw [show ((cfg0.win 17).blk t).view.emb (ix2 (0 : Fin 1) j) = (ix2 (0 : Fin 1) j : S1x64.Idx) from by whole_block win0_17 17 t]
  exact E.e17 j

/-- The second normalisation's shift's block, read. -/
theorem read18 (E : Entry V c P mu sd d) (t : Fin cfg0.N) (j : Fin 64) : iblk0 V c 18 t (ix2 (0 : Fin 1) j) = P.be2 j := by
  show (V c main_v27 : FVec Ideal S1x64 .f32) (((cfg0.win 18).blk t).view.emb (ix2 (0 : Fin 1) j)) = _
  rw [show ((cfg0.win 18).blk t).view.emb (ix2 (0 : Fin 1) j) = (ix2 (0 : Fin 1) j : S1x64.Idx) from by whole_block win0_18 18 t]
  exact E.e18 j

/-- The second normalisation's running mean's block, read. -/
theorem read19 (E : Entry V c P mu sd d) (t : Fin cfg0.N) (j : Fin 64) : iblk0 V c 19 t (ix2 (0 : Fin 1) j) = P.m2 j := by
  show (V c main_v28 : FVec Ideal S1x64 .f32) (((cfg0.win 19).blk t).view.emb (ix2 (0 : Fin 1) j)) = _
  rw [show ((cfg0.win 19).blk t).view.emb (ix2 (0 : Fin 1) j) = (ix2 (0 : Fin 1) j : S1x64.Idx) from by whole_block win0_19 19 t]
  exact E.e19 j

/-- The second normalisation's running variance's block, read. -/
theorem read20 (E : Entry V c P mu sd d) (t : Fin cfg0.N) (j : Fin 64) : iblk0 V c 20 t (ix2 (0 : Fin 1) j) = P.v2 j := by
  show (V c main_v29 : FVec Ideal S1x64 .f32) (((cfg0.win 20).blk t).view.emb (ix2 (0 : Fin 1) j)) = _
  rw [show ((cfg0.win 20).blk t).view.emb (ix2 (0 : Fin 1) j) = (ix2 (0 : Fin 1) j : S1x64.Idx) from by whole_block win0_20 20 t]
  exact E.e20 j

/-- What the 21 input blocks hold at point `t`: the data rows `2048 t …`, and every statistic and parameter whole. -/
theorem reads (E : Entry V c P mu sd d) (t : Fin cfg0.N) :
    KBody0.Reads P mu sd (fun r j => d (ix2 (grow t r) j))
      (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) :=
  ⟨read0 V c P mu sd d E t, read1 V c P mu sd d E t, read2 V c P mu sd d E t, read3 V c P mu sd d E t, read4 V c P mu sd d E t,
   read5 V c P mu sd d E t, read6 V c P mu sd d E t, read7 V c P mu sd d E t, read8 V c P mu sd d E t, read9 V c P mu sd d E t,
   read10 V c P mu sd d E t, read11 V c P mu sd d E t, read12 V c P mu sd d E t, read13 V c P mu sd d E t, read14 V c P mu sd d E t,
   read15 V c P mu sd d E t, read16 V c P mu sd d E t, read17 V c P mu sd d E t, read18 V c P mu sd d E t, read19 V c P mu sd d E t,
   read20 V c P mu sd d E t⟩

/-! ## What a grid point writes back -/

/-- Point `t` writes back to the first output its block of the normalised data. -/
theorem flushed21 (E : Entry V c P mu sd d) (t : Fin cfg0.N) :
    (dat0 (F := Ideal) V c).flushed 21 t = ((cfg0.win 21).blk t).view.read (Elt Ideal) (Cert.Spec.xnVec P mu sd d) := by
  show (cfg0.win 21).cut (grid0.coords t) ((dat0 V c).after 21 t) = _
  rw [after0_21]
  funext y
  obtain ⟨r, j, rfl⟩ : ∃ (r : Fin 2048) (j : Fin 64), y = ix2 r j := ⟨y 0, y 1, eq_ix2 y⟩
  show out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (ix2 r j)
    = Cert.Spec.xnVec P mu sd d (((cfg0.win 21).blk t).view.emb (ix2 r j))
  rw [KBody0.out0_21_apply P mu sd (fun r j => d (ix2 (grow t r) j)) _ _ _ _ _ _ _ _ _ _ _ _ _ _ _ _ _ _ _ _ _ (reads V c P mu sd d E t) r j,
    emb21 t r j]
  rfl

/-- Point `t` writes back to the second output its block of the de-normalised gated data. -/
theorem flushed22 (E : Entry V c P mu sd d) (t : Fin cfg0.N) :
    (dat0 (F := Ideal) V c).flushed 22 t = ((cfg0.win 22).blk t).view.read (Elt Ideal) (Cert.Spec.wVec P mu sd d) := by
  show (cfg0.win 22).cut (grid0.coords t) ((dat0 V c).after 22 t) = _
  rw [after0_22]
  funext y
  obtain ⟨r, j, rfl⟩ : ∃ (r : Fin 2048) (j : Fin 64), y = ix2 r j := ⟨y 0, y 1, eq_ix2 y⟩
  show out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (ix2 r j)
    = Cert.Spec.wVec P mu sd d (((cfg0.win 22).blk t).view.emb (ix2 r j))
  rw [KBody0.out0_22_apply P mu sd (fun r j => d (ix2 (grow t r) j)) _ _ _ _ _ _ _ _ _ _ _ _ _ _ _ _ _ _ _ _ _ (reads V c P mu sd d E t) r j,
    emb22 t r j]
  rfl

/-! ## Every row is written -/

theorem mem_blk21 (t : Fin cfg0.N) (i : S8192x64.Idx) :
    i ∈ ((cfg0.win 21).blk t).view.set ↔ ∀ a : Fin 2, win0_21.index t a * S2048x64.size a ≤ (i a).val
      ∧ (i a).val < win0_21.index t a * S2048x64.size a + S2048x64.size a := by
  show i ∈ ((View.whole main_v30_0).slice (win0_21.rect t)).set ↔ _
  rw [View.set_slice_whole, Rect.mem_set_unit]
  exact Iff.rfl

theorem mem_blk22 (t : Fin cfg0.N) (i : S8192x64.Idx) :
    i ∈ ((cfg0.win 22).blk t).view.set ↔ ∀ a : Fin 2, win0_22.index t a * S2048x64.size a ≤ (i a).val
      ∧ (i a).val < win0_22.index t a * S2048x64.size a + S2048x64.size a := by
  show i ∈ ((View.whole main_v30_1).slice (win0_22.rect t)).set ↔ _
  rw [View.set_slice_whole, Rect.mem_set_unit]
  exact Iff.rfl

/-- The point whose block holds row `b`: `b / 2048`. -/
def pointOf (i : S8192x64.Idx) : Fin cfg0.N :=
  ⟨(i 0).val / 2048, by have h : (i 0).val < 8192 := (i 0).isLt; have h2 : cfg0.N = 4 := N_0; omega⟩

/-- Every entry of the first output lies in the block of the point `row / 2048`. -/
theorem cover21 (i : S8192x64.Idx) : ∃ t : Fin cfg0.N, (cfg0.win 21).flush t = true ∧ i ∈ ((cfg0.win 21).blk t).view.set := by
  have hi0 : (i 0).val < 8192 := (i 0).isLt
  have hi1 : (i 1).val < 64 := (i 1).isLt
  obtain ⟨-, -, e0, e1, -, -⟩ := idx_rows (pointOf i)
  have ht : (pointOf i).val = (i 0).val / 2048 := rfl
  refine ⟨pointOf i, flush0_21 _, ?_⟩
  rw [mem_blk21]
  intro a
  match a with
  | ⟨0, _⟩ =>
    show win0_21.index (pointOf i) (0 : Fin 2) * 2048 ≤ (i 0).val ∧ (i 0).val < win0_21.index (pointOf i) (0 : Fin 2) * 2048 + 2048
    omega
  | ⟨1, _⟩ =>
    show win0_21.index (pointOf i) (1 : Fin 2) * 64 ≤ (i 1).val ∧ (i 1).val < win0_21.index (pointOf i) (1 : Fin 2) * 64 + 64
    omega

/-- Every entry of the second output lies in the block of the point `row / 2048`. -/
theorem cover22 (i : S8192x64.Idx) : ∃ t : Fin cfg0.N, (cfg0.win 22).flush t = true ∧ i ∈ ((cfg0.win 22).blk t).view.set := by
  have hi0 : (i 0).val < 8192 := (i 0).isLt
  have hi1 : (i 1).val < 64 := (i 1).isLt
  obtain ⟨-, -, -, -, e0, e1⟩ := idx_rows (pointOf i)
  have ht : (pointOf i).val = (i 0).val / 2048 := rfl
  refine ⟨pointOf i, flush0_22 _, ?_⟩
  rw [mem_blk22]
  intro a
  match a with
  | ⟨0, _⟩ =>
    show win0_22.index (pointOf i) (0 : Fin 2) * 2048 ≤ (i 0).val ∧ (i 0).val < win0_22.index (pointOf i) (0 : Fin 2) * 2048 + 2048
    omega
  | ⟨1, _⟩ =>
    show win0_22.index (pointOf i) (1 : Fin 2) * 64 ≤ (i 1).val ∧ (i 1).val < win0_22.index (pointOf i) (1 : Fin 2) * 64 + 64
    omega

/-! ## The two arrays after the run -/

/-- After the first kernel's run its first output array holds the normalised data. -/
theorem final21 (E : Entry V c P mu sd d) : (dat0 (F := Ideal) V c).arrAt 21 cfg0.N = Cert.Spec.xnVec P mu sd d :=
  (dat0 V c).arrAt_eq_of_cover 21 (Cert.Spec.xnVec P mu sd d) (fun t _ => flushed21 V c P mu sd d E t) cover21

/-- After the first kernel's run its second output array holds the de-normalised gated data. -/
theorem final22 (E : Entry V c P mu sd d) : (dat0 (F := Ideal) V c).arrAt 22 cfg0.N = Cert.Spec.wVec P mu sd d :=
  (dat0 V c).arrAt_eq_of_cover 22 (Cert.Spec.wVec P mu sd d) (fun t _ => flushed22 V c P mu sd d E t) cover22

end Cert.KernelIdeal.KRegion0

end
-- ==== Proof.KRegion1.lean ====
/-
  The second kernel's output array after its run.

  The second kernel tiles the 8192 × 8192 reconstruction into 8 × 8 blocks of 1024 × 1024; at block (p, q) its body
  multiplies the p-th block of 1024 data rows with the q-th block of 1024 de-normalised rows, contracting the 64
  channels.  Every entry of the array lies in exactly one block, so after the run entry (b, h) is the inner product
  of data row b with de-normalised row h.
-/
import proofs.«111743_j36447092474548_1_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KRegion1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The data matrix the region finds (its first window's array). -/
abbrev lhsArr (c : Dev nD) : FVec Ideal S8192x64 .f32 := V c main_v0
/-- The de-normalised matrix the region finds (its second window's array). -/
abbrev rhsArr (c : Dev nD) : FVec Ideal S8192x64 .f32 := V c main_v30_1

/-- The reconstruction: entry (b, h) is the inner product over the 64 channels of row b of the first array with row h
    of the second. -/
def recon (c : Dev nD) : FVec Ideal S8192x8192 .f32 :=
  fun idx => ∑ k : Fin 64, lhsArr V c (ix2 (idx 0) k) * rhsArr V c (ix2 (idx 1) k)

/-- The zero offsets of a whole-block access, however they are spelt. -/
theorem zeroOff : (![0, 0] : Fin 2 → Nat) = fun _ => 0 := funext fun a => by fin_cases a <;> rfl

/-- The block index maps over the 8 × 8 grid: the first input moves with the output's row block, the second with the
    output's column block, neither moves along the channels, and the output's block indices stay below 8. -/
theorem blockIdx : ∀ t : Fin cfg1.N, win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 7 ∧ win1_2.index t (1 : Fin 2) ≤ 7 :=
  (by decide +kernel : ∀ t : Fin grid1.N, _)

/-- Every block (p, q) of the 8 × 8 tiling is some grid point's. -/
theorem blockIdx_onto : ∀ (p q : Fin 8), ∃ t : Fin cfg1.N, win1_2.index t = ![p.val, q.val] :=
  (by decide +kernel : ∀ (p q : Fin 8), ∃ t : Fin grid1.N, win1_2.index t = ![p.val, q.val])

/-! ## The product of two blocks at an entry

The product contracts both operands on their channel axis (axis 1) and keeps each operand's row axis (axis 0) free:
the output's row indexes the left operand's rows, the output's column the right operand's rows. -/

/-- The left operand's row is the output's row. -/
theorem lhs_row (j : S1024x1024.Idx) (k : dot_S1024x64_S1024x64_S1024x1024_1_1_0_0_n_n.contr.Idx) :
    (dot_S1024x64_S1024x64_S1024x1024_1_1_0_0_n_n.lhsIdx j k 0 : ℕ) = j 0 := by
  simp [DotDims.lhsIdx, dot_S1024x64_S1024x64_S1024x1024_1_1_0_0_n_n]; rfl
/-- The left operand's channel is the contraction position. -/
theorem lhs_chan (j : S1024x1024.Idx) (k : dot_S1024x64_S1024x64_S1024x1024_1_1_0_0_n_n.contr.Idx) :
    (dot_S1024x64_S1024x64_S1024x1024_1_1_0_0_n_n.lhsIdx j k 1 : ℕ) = k ⟨0, by decide⟩ :=
  dot_S1024x64_S1024x64_S1024x1024_1_1_0_0_n_n.lhsIdx_val_of_single (cl := 1) rfl j k
/-- The right operand's row is the output's column. -/
theorem rhs_row (j : S1024x1024.Idx) (k : dot_S1024x64_S1024x64_S1024x1024_1_1_0_0_n_n.contr.Idx) :
    (dot_S1024x64_S1024x64_S1024x1024_1_1_0_0_n_n.rhsIdx j k 0 : ℕ) = j 1 := by
  simp [DotDims.rhsIdx, dot_S1024x64_S1024x64_S1024x1024_1_1_0_0_n_n]; rfl
/-- The right operand's channel is the contraction position. -/
theorem rhs_chan (j : S1024x1024.Idx) (k : dot_S1024x64_S1024x64_S1024x1024_1_1_0_0_n_n.contr.Idx) :
    (dot_S1024x64_S1024x64_S1024x1024_1_1_0_0_n_n.rhsIdx j k 1 : ℕ) = k ⟨0, by decide⟩ :=
  dot_S1024x64_S1024x64_S1024x1024_1_1_0_0_n_n.rhsIdx_val_of_single (cr := 1) rfl j k

/-- Entry (p, q) of the body's product of two loaded blocks is the inner product over the 64 channels of row p of the
    first block with row q of the second: the casts to the block's own shape and the narrowing are the identity at the
    extended reals, the accumulator is zero, and the contraction position is a channel. -/
theorem pay_apply (x0 x1 : Vec Ideal S1024x64 .f32) (p q : Fin 1024) :
    k1_pay1 x0 x1 (ix2 p q) = ∑ k : Fin 64, x0 (ix2 p k) * x1 (ix2 q k) := by
  unfold k1_pay1
  simp only [shapeCast_self, matmul]
  rw [show (truncf .bf16 x0 bitsLt_bf16_f32 : FVec Ideal S1024x64 .bf16) = x0 from rfl,
    show (truncf .bf16 x1 bitsLt_bf16_f32 : FVec Ideal S1024x64 .bf16) = x1 from rfl]
  rw [Ideal.matmul_constant_zero_apply,
    ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have hl : dot_S1024x64_S1024x64_S1024x1024_1_1_0_0_n_n.lhsIdx (ix2 p q)
      ((contrEquiv1 dot_S1024x64_S1024x64_S1024x1024_1_1_0_0_n_n 64 rfl rfl).symm k) = ix2 p k := by
    funext a; apply Fin.ext
    match a with
    | ⟨0, _⟩ => exact lhs_row _ _
    | ⟨1, _⟩ => exact (lhs_chan _ _).trans hk
  have hr : dot_S1024x64_S1024x64_S1024x1024_1_1_0_0_n_n.rhsIdx (ix2 p q)
      ((contrEquiv1 dot_S1024x64_S1024x64_S1024x1024_1_1_0_0_n_n 64 rfl rfl).symm k) = ix2 q k := by
    funext a; apply Fin.ext
    match a with
    | ⟨0, _⟩ => exact rhs_row _ _
    | ⟨1, _⟩ => exact (rhs_chan _ _).trans hk
  rw [hl, hr]

/-! ## What a grid point writes back

A block's entry sits in its array, on each axis, at the block index times the block's extent plus the entry's own
coordinate.  The first input's row block is the output's row block, the second input's row block is the output's column
block, and both inputs' channel blocks are the whole 64 channels. -/

/-- Row p, channel k of the first input's block at a point is the data matrix at the array row of the output block's
    row p. -/
theorem lhsBlock_apply (c : Dev nD) (t : Fin cfg1.N) (p q : Fin 1024) (k : Fin 64) :
    iblk1 V c 0 t (ix2 p k) = lhsArr V c (ix2 ((((cfg1.win 2).blk t).view.emb (ix2 p q)) 0) k) := by
  obtain ⟨e0, e1, -, -, -, -⟩ := blockIdx t
  show V c main_v0 (((cfg1.win 0).blk t).view.emb (ix2 p k)) = V c main_v0 _
  refine congrArg _ ?_
  funext a; apply Fin.ext
  match a with
  | ⟨0, _⟩ => show win1_0.index t (0 : Fin 2) * 1024 + 1 * p.val = win1_2.index t (0 : Fin 2) * 1024 + 1 * p.val; omega
  | ⟨1, _⟩ => show win1_0.index t (1 : Fin 2) * 64 + 1 * k.val = k.val; omega

/-- Row q, channel k of the second input's block at a point is the de-normalised matrix at the array row given by the
    output block's column q. -/
theorem rhsBlock_apply (c : Dev nD) (t : Fin cfg1.N) (p q : Fin 1024) (k : Fin 64) :
    iblk1 V c 1 t (ix2 q k) = rhsArr V c (ix2 ((((cfg1.win 2).blk t).view.emb (ix2 p q)) 1) k) := by
  obtain ⟨-, -, e2, e3, -, -⟩ := blockIdx t
  show V c main_v30_1 (((cfg1.win 1).blk t).view.emb (ix2 q k)) = V c main_v30_1 _
  refine congrArg _ ?_
  funext a; apply Fin.ext
  match a with
  | ⟨0, _⟩ => show win1_1.index t (0 : Fin 2) * 1024 + 1 * q.val = win1_2.index t (1 : Fin 2) * 1024 + 1 * q.val; omega
  | ⟨1, _⟩ => show win1_1.index t (1 : Fin 2) * 64 + 1 * k.val = k.val; omega

/-- What a grid point writes back to the output array is that point's block of the reconstruction. -/
theorem flushed_eq (c : Dev nD) (t : Fin cfg1.N) :
    (dat1 (F := Ideal) V c).flushed 2 t = ((cfg1.win 2).blk t).view.read (Elt Ideal) (recon V c) := by
  show (cfg1.win 2).cut (grid1.coords t) ((dat1 V c).after 2 t) = _
  rw [after1_2]
  unfold out1_2
  rw [View.canon_unit_zero zeroOff]
  simp only [View.ld_unit_zero (S := S1024x64) zeroOff]
  funext y
  obtain ⟨p, q, rfl⟩ : ∃ (p q : Fin 1024), y = ix2 p q := ⟨y 0, y 1, eq_ix2 y⟩
  show k1_pay1 (iblk1 V c 0 t) (iblk1 V c 1 t) (ix2 p q) = recon V c (((cfg1.win 2).blk t).view.emb (ix2 p q))
  rw [pay_apply]
  unfold recon
  exact Finset.sum_congr rfl fun k _ => by rw [lhsBlock_apply V c t p q k, rhsBlock_apply V c t p q k]

/-! ## Every entry of the array is written -/

/-- An index of the output array is in a point's block iff each coordinate lies in the block's range on its axis. -/
theorem mem_blk (t : Fin cfg1.N) (i : S8192x8192.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v31).slice (win1_2.rect t)).set ↔ _
  rw [View.set_slice_whole, Rect.mem_set_unit]
  exact Iff.rfl

/-- Every entry of the output array lies in some point's block: entry (b, h) lies in block (b / 1024, h / 1024). -/
theorem cover (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := blockIdx_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 1024 ≤ (i 1).val ∧ (i 1).val < win1_2.index t (1 : Fin 2) * 1024 + 1024
    omega

/-- After the second kernel's run from entry contents `V`, its output array holds the reconstruction. -/
theorem final (c : Dev nD) : (dat1 (F := Ideal) V c).arrAt 2 cfg1.N = recon V c := by
  exact (dat1 V c).arrAt_eq_of_cover 2 (recon V c) (fun t _ => flushed_eq V c t) cover

end Cert.KernelIdeal.KRegion1

end
-- ==== Proof.KValue.lean ====
/-
  The kernel program's run, with its four results named.

  The program is host operations, then the first kernel, then the second.  When the first kernel is entered the
  buffers hold the data matrix, the two statistics and the re-laid parameters; the first kernel leaves the normalised
  data and the de-normalised gated data in its two output arrays and touches nothing else; the second kernel reads the
  data matrix and the de-normalised array as the first left them and leaves the reconstruction.  So the four results
  are `Spec.reconVec`, `Spec.wVec`, the data matrix and `Spec.xnVec`, at the parameters read off the arguments and the
  statistics of the data matrix; the arguments are unchanged.
-/
import proofs.«111743_j36447092474548_1_alg».proof.Proof.KRun
import proofs.«111743_j36447092474548_1_alg».proof.Proof.KHost
import proofs.«111743_j36447092474548_1_alg».proof.Proof.KRegion0
import proofs.«111743_j36447092474548_1_alg».proof.Proof.KRegion1

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- The data matrix of the launch memory. -/
abbrev dataAt (c : Dev nD) : FVec Ideal S8192x64 .f32 :=
  KHost.dataOf (m ((c.tc : Thread nD τ).loc main_arg0)) (m ((c.tc : Thread nD τ).loc main_arg1))
/-- The parameters of the launch memory. -/
abbrev paramsAt (c : Dev nD) : Cert.Spec.Params := Cert.Spec.paramsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
/-- The mean of the data matrix. -/
abbrev muAt (c : Dev nD) : EReal := KHost.muV (dataAt m c) ix0
/-- The standard deviation of the data matrix. -/
abbrev sdAt (c : Dev nD) : EReal := KHost.sdV (dataAt m c) ix0

/-- What the first kernel finds on entry. -/
theorem entry (c : Dev nD) : KRegion0.Entry (V3 m ρ) c (paramsAt m c) (muAt m c) (sdAt m c) (dataAt m c) where
  e0 := KHost.H3_v0 (W0 m ρ c)
  e1 := KHost.H3_v6 (W0 m ρ c)
  e2 := KHost.H3_v7 (W0 m ρ c)
  e3 := KHost.H3_v8 (W0 m ρ c)
  e4 := KHost.H3_v9 (W0 m ρ c)
  e5 := KHost.H3_v10 (W0 m ρ c)
  e6 := KHost.H3_v11 (W0 m ρ c)
  e7 := KHost.H3_v12 (W0 m ρ c)
  e8 := KHost.H3_v13 (W0 m ρ c)
  e9 := KHost.H3_v16 (W0 m ρ c)
  e10 := KHost.H3_v17 (W0 m ρ c)
  e11 := KHost.H3_v18 (W0 m ρ c)
  e12 := KHost.H3_v19 (W0 m ρ c)
  e13 := KHost.H3_v20 (W0 m ρ c)
  e14 := KHost.H3_v21 (W0 m ρ c)
  e15 := KHost.H3_v24 (W0 m ρ c)
  e16 := KHost.H3_v25 (W0 m ρ c)
  e17 := KHost.H3_v26 (W0 m ρ c)
  e18 := KHost.H3_v27 (W0 m ρ c)
  e19 := KHost.H3_v28 (W0 m ρ c)
  e20 := KHost.H3_v29 (W0 m ρ c)

/-! ## The contents between and after the kernels -/

theorem W4_v30_0 (c : Dev nD) : (W4 m ρ c (Proc.devRef .tc main_v30_0) : FVec Ideal S8192x64 .f32)
    = Cert.Spec.xnVec (paramsAt m c) (muAt m c) (sdAt m c) (dataAt m c) :=
  (W4_arr m ρ c 21).trans (KRegion0.final21 (V3 m ρ) c _ _ _ _ (entry m ρ c))

theorem W4_v30_1 (c : Dev nD) : (W4 m ρ c (Proc.devRef .tc main_v30_1) : FVec Ideal S8192x64 .f32)
    = Cert.Spec.wVec (paramsAt m c) (muAt m c) (sdAt m c) (dataAt m c) :=
  (W4_arr m ρ c 22).trans (KRegion0.final22 (V3 m ρ) c _ _ _ _ (entry m ρ c))

theorem W4_v0 (c : Dev nD) : (W4 m ρ c (Proc.devRef .tc main_v0) : FVec Ideal S8192x64 .f32) = dataAt m c :=
  (W4_arr m ρ c 0).trans (((dat0 (V3 m ρ) c).arrAt_in 0 rfl cfg0.N).trans ((A_eq0 (V3 m ρ) c 0).trans (KHost.H3_v0 (W0 m ρ c))))

theorem W5_v0 (c : Dev nD) : (W5 m ρ c (Proc.devRef .tc main_v0) : FVec Ideal S8192x64 .f32) = dataAt m c :=
  (W5_arr m ρ c 0).trans (((dat1 (V4 m ρ) c).arrAt_in 0 rfl cfg1.N).trans ((A_eq1 (V4 m ρ) c 0).trans (W4_v0 m ρ c)))

theorem W5_v30_1 (c : Dev nD) : (W5 m ρ c (Proc.devRef .tc main_v30_1) : FVec Ideal S8192x64 .f32)
    = Cert.Spec.wVec (paramsAt m c) (muAt m c) (sdAt m c) (dataAt m c) :=
  (W5_arr m ρ c 1).trans (((dat1 (V4 m ρ) c).arrAt_in 1 rfl cfg1.N).trans ((A_eq1 (V4 m ρ) c 1).trans (W4_v30_1 m ρ c)))

theorem W5_v30_0 (c : Dev nD) : (W5 m ρ c (Proc.devRef .tc main_v30_0) : FVec Ideal S8192x64 .f32)
    = Cert.Spec.xnVec (paramsAt m c) (muAt m c) (sdAt m c) (dataAt m c) :=
  (W5_of_ne m ρ c main_v30_0 (by decide)).trans (W4_v30_0 m ρ c)

theorem W5_v31 (c : Dev nD) : (W5 m ρ c (Proc.devRef .tc main_v31) : FVec Ideal S8192x8192 .f32)
    = Cert.Spec.reconVec (paramsAt m c) (muAt m c) (sdAt m c) (dataAt m c) := by
  refine (W5_arr m ρ c 2).trans ((KRegion1.final (V4 m ρ) c).trans ?_)
  funext idx
  have e0 : KRegion1.lhsArr (V4 m ρ) c = dataAt m c := W4_v0 m ρ c
  have e1 : KRegion1.rhsArr (V4 m ρ) c = Cert.Spec.wVec (paramsAt m c) (muAt m c) (sdAt m c) (dataAt m c) := W4_v30_1 m ρ c
  show ∑ k : Fin 64, KRegion1.lhsArr (V4 m ρ) c (ix2 (idx 0) k) * KRegion1.rhsArr (V4 m ρ) c (ix2 (idx 1) k) = _
  rw [e0, e1]
  rfl

/-! ## The run -/

/-- From any memory with zero counters every weakly fair execution of the kernel program terminates, nothing faulting,
    with the four results at the specification's arrays and the arguments unchanged. -/
theorem run : θ_run defs (onTc (τ := τ) (main (F := Ideal))) ⟨m, fun _ => 0, ρ⟩ (fun r => ∀ c : Dev nD,
      r.2.mem ((c.tc : Thread nD τ).loc main_v31) = Cert.Spec.reconVec (paramsAt m c) (muAt m c) (sdAt m c) (dataAt m c)
      ∧ r.2.mem ((c.tc : Thread nD τ).loc main_v30_1) = Cert.Spec.wVec (paramsAt m c) (muAt m c) (sdAt m c) (dataAt m c)
      ∧ r.2.mem ((c.tc : Thread nD τ).loc main_v0) = dataAt m c
      ∧ r.2.mem ((c.tc : Thread nD τ).loc main_v30_0) = Cert.Spec.xnVec (paramsAt m c) (muAt m c) (sdAt m c) (dataAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_v31 (by decide))).trans (W5_v31 m ρ c),
      (h c _ (mem_uc main_v30_1 (by decide))).trans (W5_v30_1 m ρ c),
      (h c _ (mem_uc main_v0 (by decide))).trans (W5_v0 m ρ c),
      (h c _ (mem_uc main_v30_0 (by decide))).trans (W5_v30_0 m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c),
      (h c _ (mem_uc main_arg14 (by decide))).trans (W5_main_arg14 m ρ c),
      (h c _ (mem_uc main_arg15 (by decide))).trans (W5_main_arg15 m ρ c),
      (h c _ (mem_uc main_arg16 (by decide))).trans (W5_main_arg16 m ρ c),
      (h c _ (mem_uc main_arg17 (by decide))).trans (W5_main_arg17 m ρ c),
      (h c _ (mem_uc main_arg18 (by decide))).trans (W5_main_arg18 m ρ c),
      (h c _ (mem_uc main_arg19 (by decide))).trans (W5_main_arg19 m ρ c)⟩)
    (GenP.run_all m ρ)

end Cert.KernelIdeal.KValue

end
-- ==== Proof.RefOps.lean ====
import proofs.«111743_j36447092474548_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Operations 1 to 29 of 125. -/
abbrev ops0 : List (HloOp τ sig (Elt F)) :=
  [ StableHlo.binary main_arg0 main_arg1 main_v0 ((fun a b => concatenate S8192x64 1 [⟨S8192x1, a⟩, ⟨S8192x63, b⟩] concatenates_S8192x1_S8192x63_S8192x64_d1) : (⟨S8192x1, .f32⟩ : BufTy).Contents (Elt F) → (⟨S8192x63, .f32⟩ : BufTy).Contents (Elt F) → (⟨S8192x64, .f32⟩ : BufTy).Contents (Elt F)),
    StableHlo.nullary main_cst (constant S_ .f32 0x00000000#32),
    StableHlo.binary main_v0 main_cst main_v1 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F)),
    StableHlo.nullary main_cst_0 (constant S_ .f32 0x49000000#32),
    StableHlo.binary main_v1 main_cst_0 main_v2 (Host.divf : (⟨S_, .f32⟩ : BufTy).Contents (Elt F) → (⟨S_, .f32⟩ : BufTy).Contents (Elt F) → (⟨S_, .f32⟩ : BufTy).Contents (Elt F)),
    StableHlo.nullary main_c (constantI S_ 32 0#32),
    StableHlo.TRef.nullary main_call0.cst (constant S_ .f32 0x00000000#32),
    StableHlo.TRef.binary (.of main_v0) main_call0.cst main_call0.v0 (fun x v => Host.reduceAdd x v reducesTo_S8192x64_S_d0_1 h_S_),
    StableHlo.TRef.unary main_call0.v0 main_call0.v1 (broadcastInDim S1x1 ![] bcast_S_S1x1),
    StableHlo.TRef.nullary main_call0.cst_0 (constant S_ .f32 0x49000000#32),
    StableHlo.TRef.unary main_call0.cst_0 main_call0.v2 (broadcastInDim S1x1 ![] bcast_S_S1x1),
    StableHlo.TRef.binary main_call0.v1 main_call0.v2 main_call0.v3 Host.divf,
    StableHlo.TRef.unary main_call0.v3 main_call0.v4 (broadcastInDim S8192x64 ![0, 1] bcast_S1x1_S8192x64_0_1),
    StableHlo.TRef.binary (.of main_v0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x49000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x64_S_d0_1 h_S_),
    StableHlo.TRef.binary main_call0.v9 main_call0.v8 main_call0.v10 Host.divf,
    StableHlo.TRef.nullary main_call0.cst_3 (constant S_ .f32 0x00000000#32),
    StableHlo.TRef.binary main_call0.v8 main_call0.cst_3 main_call0.v11 (cmpf .ogt),
    StableHlo.TRef.nullary main_call0.cst_4 (constant S_ .f32 0x7FC00000#32),
    StableHlo.TRef.unary main_call0.cst_4 main_call0.call0.v0 id,
    StableHlo.TRef.ternary main_call0.v11 main_call0.v10 main_call0.call0.v0 main_call0.call0.v1 select,
    StableHlo.nullary main_cst_1 (constant S_ .f32 0x3727C5AC#32),
    StableHlo.binary main_v3 main_cst_1 main_v4 (addf : (⟨S_, .f32⟩ : BufTy).Contents (Elt F) → (⟨S_, .f32⟩ : BufTy).Contents (Elt F) → (⟨S_, .f32⟩ : BufTy).Contents (Elt F)),
    StableHlo.unary main_v4 main_v5 (Host.sqrt : (⟨S_, .f32⟩ : BufTy).Contents (Elt F) → (⟨S_, .f32⟩ : BufTy).Contents (Elt F)) ]

set_option maxRecDepth 8192 in
theorem ops0_sub : (ops0 : List (HloOp τ sig (Elt F))).Forall fun op => op.bufs ⊆ tcRefs τ sig :=
  ⟨binary_bufs_sub .., nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., nullary_bufs_sub .., binary_bufs_sub .., unary_bufs_sub ..⟩

/-- Operations 30 to 53 of 125. -/
abbrev ops1 : List (HloOp τ sig (Elt F)) :=
  [ StableHlo.unary main_v2 main_v6 (broadcastInDim S8192x64 ![] bcast_S_S8192x64 : (⟨S_, .f32⟩ : BufTy).Contents (Elt F) → (⟨S8192x64, .f32⟩ : BufTy).Contents (Elt F)),
    StableHlo.binary main_v0 main_v6 main_v7 (subf : (⟨S8192x64, .f32⟩ : BufTy).Contents (Elt F) → (⟨S8192x64, .f32⟩ : BufTy).Contents (Elt F) → (⟨S8192x64, .f32⟩ : BufTy).Contents (Elt F)),
    StableHlo.unary main_v5 main_v8 (broadcastInDim S8192x64 ![] bcast_S_S8192x64 : (⟨S_, .f32⟩ : BufTy).Contents (Elt F) → (⟨S8192x64, .f32⟩ : BufTy).Contents (Elt F)),
    StableHlo.binary main_v7 main_v8 main_v9 (Host.divf : (⟨S8192x64, .f32⟩ : BufTy).Contents (Elt F) → (⟨S8192x64, .f32⟩ : BufTy).Contents (Elt F) → (⟨S8192x64, .f32⟩ : BufTy).Contents (Elt F)),
    StableHlo.unary main_arg2 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S8192x64 ![0, 1] bcast_S1x64_S8192x64_0_1 : (⟨S1x64, .f32⟩ : BufTy).Contents (Elt F) → (⟨S8192x64, .f32⟩ : BufTy).Contents (Elt F)),
    StableHlo.binary main_v9 main_v11 main_v12 (mulf : (⟨S8192x64, .f32⟩ : BufTy).Contents (Elt F) → (⟨S8192x64, .f32⟩ : BufTy).Contents (Elt F) → (⟨S8192x64, .f32⟩ : BufTy).Contents (Elt F)),
    StableHlo.unary main_arg3 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S8192x64 ![0, 1] bcast_S1x64_S8192x64_0_1 : (⟨S1x64, .f32⟩ : BufTy).Contents (Elt F) → (⟨S8192x64, .f32⟩ : BufTy).Contents (Elt F)),
    StableHlo.binary main_v12 main_v14 main_v15 (addf : (⟨S8192x64, .f32⟩ : BufTy).Contents (Elt F) → (⟨S8192x64, .f32⟩ : BufTy).Contents (Elt F) → (⟨S8192x64, .f32⟩ : BufTy).Contents (Elt F)),
    StableHlo.unary main_arg4 main_v16 ((transpose S64x16 [1, 0] · transposes_S16x64_S64x16_1_0) : (⟨S16x64, .f32⟩ : BufTy).Contents (Elt F) → (⟨S64x16, .f32⟩ : BufTy).Contents (Elt F)),
    StableHlo.binary main_v15 main_v16 main_v17 ((fun l r => Host.dotGeneral dot_S8192x64_S64x16_S8192x16_1_0_0_1_n_n none l r) : (⟨S8192x64, .f32⟩ : BufTy).Contents (Elt F) → (⟨S64x16, .f32⟩ : BufTy).Contents (Elt F) → (⟨S8192x16, .f32⟩ : BufTy).Contents (Elt F)),
    StableHlo.unary main_arg5 main_v18 (broadcastInDim S1x16 ![1] bcast_S16_S1x16_1 : (⟨S16, .f32⟩ : BufTy).Contents (Elt F) → (⟨S1x16, .f32⟩ : BufTy).Contents (Elt F)),
    StableHlo.unary main_v18 main_v19 (broadcastInDim S8192x16 ![0, 1] bcast_S1x16_S8192x16_0_1 : (⟨S1x16, .f32⟩ : BufTy).Contents (Elt F) → (⟨S8192x16, .f32⟩ : BufTy).Contents (Elt F)),
    StableHlo.binary main_v17 main_v19 main_v20 (addf : (⟨S8192x16, .f32⟩ : BufTy).Contents (Elt F) → (⟨S8192x16, .f32⟩ : BufTy).Contents (Elt F) → (⟨S8192x16, .f32⟩ : BufTy).Contents (Elt F)),
    StableHlo.TRef.nullary main_call1.cst (constant S_ .f32 0x00000000#32),
    StableHlo.TRef.unary main_call1.cst main_call1.v0 (broadcastInDim S8192x16 ![] bcast_S_S8192x16),
    StableHlo.TRef.binary (.of main_v20) main_call1.v0 main_call1.v1 maximumf,
    StableHlo.unary main_arg6 main_v22 ((transpose S16x64 [1, 0] · transposes_S64x16_S16x64_1_0) : (⟨S64x16, .f32⟩ : BufTy).Contents (Elt F) → (⟨S16x64, .f32⟩ : BufTy).Contents (Elt F)),
    StableHlo.binary main_v21 main_v22 main_v23 ((fun l r => Host.dotGeneral dot_S8192x16_S16x64_S8192x64_1_0_0_1_n_n none l r) : (⟨S8192x16, .f32⟩ : BufTy).Contents (Elt F) → (⟨S16x64, .f32⟩ : BufTy).Contents (Elt F) → (⟨S8192x64, .f32⟩ : BufTy).Contents (Elt F)),
    StableHlo.unary main_arg7 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S8192x64 ![0, 1] bcast_S1x64_S8192x64_0_1 : (⟨S1x64, .f32⟩ : BufTy).Contents (Elt F) → (⟨S8192x64, .f32⟩ : BufTy).Contents (Elt F)),
    StableHlo.binary main_v23 main_v25 main_v26 (addf : (⟨S8192x64, .f32⟩ : BufTy).Contents (Elt F) → (⟨S8192x64, .f32⟩ : BufTy).Contents (Elt F) → (⟨S8192x64, .f32⟩ : BufTy).Contents (Elt F)),
    StableHlo.binary main_v15 main_v26 main_v27 (mulf : (⟨S8192x64, .f32⟩ : BufTy).Contents (Elt F) → (⟨S8192x64, .f32⟩ : BufTy).Contents (Elt F) → (⟨S8192x64, .f32⟩ : BufTy).Contents (Elt F)) ]

set_option maxRecDepth 8192 in
theorem ops1_sub : (ops1 : List (HloOp τ sig (Elt F))).Forall fun op => op.bufs ⊆ tcRefs τ sig :=
  ⟨unary_bufs_sub .., binary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub ..⟩

/-- Operations 54 to 83 of 125. -/
abbrev ops2 : List (HloOp τ sig (Elt F)) :=
  [ StableHlo.unary main_arg8 main_v28 ((extractStridedSlice S16x64x1 ![0, 0, 3] · slices_S16x64x7_S16x64x1_0_0_3) : (⟨S16x64x7, .f32⟩ : BufTy).Contents (Elt F) → (⟨S16x64x1, .f32⟩ : BufTy).Contents (Elt F)),
    StableHlo.reshape main_v28 main_v29 rfl shapeCasts_S16x64x1_S16x64,
    StableHlo.unary main_v29 main_v30 ((transpose S64x16 [1, 0] · transposes_S16x64_S64x16_1_0) : (⟨S16x64, .f32⟩ : BufTy).Contents (Elt F) → (⟨S64x16, .f32⟩ : BufTy).Contents (Elt F)),
    StableHlo.binary main_v27 main_v30 main_v31 ((fun l r => Host.dotGeneral dot_S8192x64_S64x16_S8192x16_1_0_0_1_n_n none l r) : (⟨S8192x64, .f32⟩ : BufTy).Contents (Elt F) → (⟨S64x16, .f32⟩ : BufTy).Contents (Elt F) → (⟨S8192x16, .f32⟩ : BufTy).Contents (Elt F)),
    StableHlo.unary main_arg9 main_v32 (broadcastInDim S1x16 ![1] bcast_S16_S1x16_1 : (⟨S16, .f32⟩ : BufTy).Contents (Elt F) → (⟨S1x16, .f32⟩ : BufTy).Contents (Elt F)),
    StableHlo.unary main_v32 main_v33 (broadcastInDim S8192x16 ![0, 1] bcast_S1x16_S8192x16_0_1 : (⟨S1x16, .f32⟩ : BufTy).Contents (Elt F) → (⟨S8192x16, .f32⟩ : BufTy).Contents (Elt F)),
    StableHlo.binary main_v31 main_v33 main_v34 (addf : (⟨S8192x16, .f32⟩ : BufTy).Contents (Elt F) → (⟨S8192x16, .f32⟩ : BufTy).Contents (Elt F) → (⟨S8192x16, .f32⟩ : BufTy).Contents (Elt F)),
    StableHlo.unary main_arg12 main_v35 (broadcastInDim S1x16 ![1] bcast_S16_S1x16_1 : (⟨S16, .f32⟩ : BufTy).Contents (Elt F) → (⟨S1x16, .f32⟩ : BufTy).Contents (Elt F)),
    StableHlo.unary main_v35 main_v36 (broadcastInDim S8192x16 ![0, 1] bcast_S1x16_S8192x16_0_1 : (⟨S1x16, .f32⟩ : BufTy).Contents (Elt F) → (⟨S8192x16, .f32⟩ : BufTy).Contents (Elt F)),
    StableHlo.binary main_v34 main_v36 main_v37 (subf : (⟨S8192x16, .f32⟩ : BufTy).Contents (Elt F) → (⟨S8192x16, .f32⟩ : BufTy).Contents (Elt F) → (⟨S8192x16, .f32⟩ : BufTy).Contents (Elt F)),
    StableHlo.nullary main_cst_2 (constant S_ .f32 0x3727C5AC#32),
    StableHlo.unary main_cst_2 main_v38 (broadcastInDim S16 ![] bcast_S_S16 : (⟨S_, .f32⟩ : BufTy).Contents (Elt F) → (⟨S16, .f32⟩ : BufTy).Contents (Elt F)),
    StableHlo.binary main_arg13 main_v38 main_v39 (addf : (⟨S16, .f32⟩ : BufTy).Contents (Elt F) → (⟨S16, .f32⟩ : BufTy).Contents (Elt F) → (⟨S16, .f32⟩ : BufTy).Contents (Elt F)),
    StableHlo.unary main_v39 main_v40 (Host.rsqrt : (⟨S16, .f32⟩ : BufTy).Contents (Elt F) → (⟨S16, .f32⟩ : BufTy).Contents (Elt F)),
    StableHlo.unary main_v40 main_v41 (broadcastInDim S1x16 ![1] bcast_S16_S1x16_1 : (⟨S16, .f32⟩ : BufTy).Contents (Elt F) → (⟨S1x16, .f32⟩ : BufTy).Contents (Elt F)),
    StableHlo.unary main_v41 main_v42 (broadcastInDim S8192x16 ![0, 1] bcast_S1x16_S8192x16_0_1 : (⟨S1x16, .f32⟩ : BufTy).Contents (Elt F) → (⟨S8192x16, .f32⟩ : BufTy).Contents (Elt F)),
    StableHlo.binary main_v37 main_v42 main_v43 (mulf : (⟨S8192x16, .f32⟩ : BufTy).Contents (Elt F) → (⟨S8192x16, .f32⟩ : BufTy).Contents (Elt F) → (⟨S8192x16, .f32⟩ : BufTy).Contents (Elt F)),
    StableHlo.unary main_arg10 main_v44 (broadcastInDim S1x16 ![1] bcast_S16_S1x16_1 : (⟨S16, .f32⟩ : BufTy).Contents (Elt F) → (⟨S1x16, .f32⟩ : BufTy).Contents (Elt F)),
    StableHlo.unary main_v44 main_v45 (broadcastInDim S8192x16 ![0, 1] bcast_S1x16_S8192x16_0_1 : (⟨S1x16, .f32⟩ : BufTy).Contents (Elt F) → (⟨S8192x16, .f32⟩ : BufTy).Contents (Elt F)),
    StableHlo.binary main_v43 main_v45 main_v46 (mulf : (⟨S8192x16, .f32⟩ : BufTy).Contents (Elt F) → (⟨S8192x16, .f32⟩ : BufTy).Contents (Elt F) → (⟨S8192x16, .f32⟩ : BufTy).Contents (Elt F)),
    StableHlo.unary main_arg11 main_v47 (broadcastInDim S1x16 ![1] bcast_S16_S1x16_1 : (⟨S16, .f32⟩ : BufTy).Contents (Elt F) → (⟨S1x16, .f32⟩ : BufTy).Contents (Elt F)),
    StableHlo.unary main_v47 main_v48 (broadcastInDim S8192x16 ![0, 1] bcast_S1x16_S8192x16_0_1 : (⟨S1x16, .f32⟩ : BufTy).Contents (Elt F) → (⟨S8192x16, .f32⟩ : BufTy).Contents (Elt F)),
    StableHlo.binary main_v46 main_v48 main_v49 (addf : (⟨S8192x16, .f32⟩ : BufTy).Contents (Elt F) → (⟨S8192x16, .f32⟩ : BufTy).Contents (Elt F) → (⟨S8192x16, .f32⟩ : BufTy).Contents (Elt F)),
    StableHlo.TRef.nullary main_call2.cst (constant S_ .f32 0x00000000#32),
    StableHlo.TRef.unary main_call2.cst main_call2.v0 (broadcastInDim S8192x16 ![] bcast_S_S8192x16),
    StableHlo.TRef.binary (.of main_v49) main_call2.v0 main_call2.v1 maximumf,
    StableHlo.unary main_arg14 main_v51 ((extractStridedSlice S64x16x1 ![0, 0, 3] · slices_S64x16x7_S64x16x1_0_0_3) : (⟨S64x16x7, .f32⟩ : BufTy).Contents (Elt F) → (⟨S64x16x1, .f32⟩ : BufTy).Contents (Elt F)),
    StableHlo.reshape main_v51 main_v52 rfl shapeCasts_S64x16x1_S64x16,
    StableHlo.unary main_v52 main_v53 ((transpose S16x64 [1, 0] · transposes_S64x16_S16x64_1_0) : (⟨S64x16, .f32⟩ : BufTy).Contents (Elt F) → (⟨S16x64, .f32⟩ : BufTy).Contents (Elt F)),
    StableHlo.binary main_v50 main_v53 main_v54 ((fun l r => Host.dotGeneral dot_S8192x16_S16x64_S8192x64_1_0_0_1_n_n none l r) : (⟨S8192x16, .f32⟩ : BufTy).Contents (Elt F) → (⟨S16x64, .f32⟩ : BufTy).Contents (Elt F) → (⟨S8192x64, .f32⟩ : BufTy).Contents (Elt F)) ]

set_option maxRecDepth 8192 in
theorem ops2_sub : (ops2 : List (HloOp τ sig (Elt F))).Forall fun op => op.bufs ⊆ tcRefs τ sig :=
  ⟨unary_bufs_sub .., reshape_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., binary_bufs_sub ..⟩

/-- Operations 84 to 125 of 125. -/
abbrev ops3 : List (HloOp τ sig (Elt F)) :=
  [ StableHlo.unary main_arg15 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S8192x64 ![0, 1] bcast_S1x64_S8192x64_0_1 : (⟨S1x64, .f32⟩ : BufTy).Contents (Elt F) → (⟨S8192x64, .f32⟩ : BufTy).Contents (Elt F)),
    StableHlo.binary main_v54 main_v56 main_v57 (addf : (⟨S8192x64, .f32⟩ : BufTy).Contents (Elt F) → (⟨S8192x64, .f32⟩ : BufTy).Contents (Elt F) → (⟨S8192x64, .f32⟩ : BufTy).Contents (Elt F)),
    StableHlo.unary main_arg18 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S8192x64 ![0, 1] bcast_S1x64_S8192x64_0_1 : (⟨S1x64, .f32⟩ : BufTy).Contents (Elt F) → (⟨S8192x64, .f32⟩ : BufTy).Contents (Elt F)),
    StableHlo.binary main_v57 main_v59 main_v60 (subf : (⟨S8192x64, .f32⟩ : BufTy).Contents (Elt F) → (⟨S8192x64, .f32⟩ : BufTy).Contents (Elt F) → (⟨S8192x64, .f32⟩ : BufTy).Contents (Elt F)),
    StableHlo.nullary main_cst_3 (constant S_ .f32 0x3727C5AC#32),
    StableHlo.unary main_cst_3 main_v61 (broadcastInDim S64 ![] bcast_S_S64 : (⟨S_, .f32⟩ : BufTy).Contents (Elt F) → (⟨S64, .f32⟩ : BufTy).Contents (Elt F)),
    StableHlo.binary main_arg19 main_v61 main_v62 (addf : (⟨S64, .f32⟩ : BufTy).Contents (Elt F) → (⟨S64, .f32⟩ : BufTy).Contents (Elt F) → (⟨S64, .f32⟩ : BufTy).Contents (Elt F)),
    StableHlo.unary main_v62 main_v63 (Host.rsqrt : (⟨S64, .f32⟩ : BufTy).Contents (Elt F) → (⟨S64, .f32⟩ : BufTy).Contents (Elt F)),
    StableHlo.unary main_v63 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S8192x64 ![0, 1] bcast_S1x64_S8192x64_0_1 : (⟨S1x64, .f32⟩ : BufTy).Contents (Elt F) → (⟨S8192x64, .f32⟩ : BufTy).Contents (Elt F)),
    StableHlo.binary main_v60 main_v65 main_v66 (mulf : (⟨S8192x64, .f32⟩ : BufTy).Contents (Elt F) → (⟨S8192x64, .f32⟩ : BufTy).Contents (Elt F) → (⟨S8192x64, .f32⟩ : BufTy).Contents (Elt F)),
    StableHlo.unary main_arg16 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S8192x64 ![0, 1] bcast_S1x64_S8192x64_0_1 : (⟨S1x64, .f32⟩ : BufTy).Contents (Elt F) → (⟨S8192x64, .f32⟩ : BufTy).Contents (Elt F)),
    StableHlo.binary main_v66 main_v68 main_v69 (mulf : (⟨S8192x64, .f32⟩ : BufTy).Contents (Elt F) → (⟨S8192x64, .f32⟩ : BufTy).Contents (Elt F) → (⟨S8192x64, .f32⟩ : BufTy).Contents (Elt F)),
    StableHlo.unary main_arg17 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S8192x64 ![0, 1] bcast_S1x64_S8192x64_0_1 : (⟨S1x64, .f32⟩ : BufTy).Contents (Elt F) → (⟨S8192x64, .f32⟩ : BufTy).Contents (Elt F)),
    StableHlo.binary main_v69 main_v71 main_v72 (addf : (⟨S8192x64, .f32⟩ : BufTy).Contents (Elt F) → (⟨S8192x64, .f32⟩ : BufTy).Contents (Elt F) → (⟨S8192x64, .f32⟩ : BufTy).Contents (Elt F)),
    StableHlo.unary main_v72 main_v73 (Host.negf : (⟨S8192x64, .f32⟩ : BufTy).Contents (Elt F) → (⟨S8192x64, .f32⟩ : BufTy).Contents (Elt F)),
    StableHlo.unary main_v73 main_v74 (Host.exp : (⟨S8192x64, .f32⟩ : BufTy).Contents (Elt F) → (⟨S8192x64, .f32⟩ : BufTy).Contents (Elt F)),
    StableHlo.nullary main_cst_4 (constant S_ .f32 0x3F800000#32),
    StableHlo.unary main_cst_4 main_v75 (broadcastInDim S8192x64 ![] bcast_S_S8192x64 : (⟨S_, .f32⟩ : BufTy).Contents (Elt F) → (⟨S8192x64, .f32⟩ : BufTy).Contents (Elt F)),
    StableHlo.binary main_v75 main_v74 main_v76 (addf : (⟨S8192x64, .f32⟩ : BufTy).Contents (Elt F) → (⟨S8192x64, .f32⟩ : BufTy).Contents (Elt F) → (⟨S8192x64, .f32⟩ : BufTy).Contents (Elt F)),
    StableHlo.nullary main_cst_5 (constant S_ .f32 0x3F800000#32),
    StableHlo.unary main_cst_5 main_v77 (broadcastInDim S8192x64 ![] bcast_S_S8192x64 : (⟨S_, .f32⟩ : BufTy).Contents (Elt F) → (⟨S8192x64, .f32⟩ : BufTy).Contents (Elt F)),
    StableHlo.binary main_v77 main_v76 main_v78 (Host.divf : (⟨S8192x64, .f32⟩ : BufTy).Contents (Elt F) → (⟨S8192x64, .f32⟩ : BufTy).Contents (Elt F) → (⟨S8192x64, .f32⟩ : BufTy).Contents (Elt F)),
    StableHlo.binary main_v27 main_v78 main_v79 (mulf : (⟨S8192x64, .f32⟩ : BufTy).Contents (Elt F) → (⟨S8192x64, .f32⟩ : BufTy).Contents (Elt F) → (⟨S8192x64, .f32⟩ : BufTy).Contents (Elt F)),
    StableHlo.unary main_arg3 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S8192x64 ![0, 1] bcast_S1x64_S8192x64_0_1 : (⟨S1x64, .f32⟩ : BufTy).Contents (Elt F) → (⟨S8192x64, .f32⟩ : BufTy).Contents (Elt F)),
    StableHlo.binary main_v79 main_v81 main_v82 (subf : (⟨S8192x64, .f32⟩ : BufTy).Contents (Elt F) → (⟨S8192x64, .f32⟩ : BufTy).Contents (Elt F) → (⟨S8192x64, .f32⟩ : BufTy).Contents (Elt F)),
    StableHlo.nullary main_cst_6 (constant S_ .f32 0x2EDBE6FF#32),
    StableHlo.unary main_cst_6 main_v83 (broadcastInDim S64 ![] bcast_S_S64 : (⟨S_, .f32⟩ : BufTy).Contents (Elt F) → (⟨S64, .f32⟩ : BufTy).Contents (Elt F)),
    StableHlo.binary main_arg2 main_v83 main_v84 (addf : (⟨S64, .f32⟩ : BufTy).Contents (Elt F) → (⟨S64, .f32⟩ : BufTy).Contents (Elt F) → (⟨S64, .f32⟩ : BufTy).Contents (Elt F)),
    StableHlo.unary main_v84 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S8192x64 ![0, 1] bcast_S1x64_S8192x64_0_1 : (⟨S1x64, .f32⟩ : BufTy).Contents (Elt F) → (⟨S8192x64, .f32⟩ : BufTy).Contents (Elt F)),
    StableHlo.binary main_v82 main_v86 main_v87 (Host.divf : (⟨S8192x64, .f32⟩ : BufTy).Contents (Elt F) → (⟨S8192x64, .f32⟩ : BufTy).Contents (Elt F) → (⟨S8192x64, .f32⟩ : BufTy).Contents (Elt F)),
    StableHlo.unary main_v5 main_v88 (broadcastInDim S8192x64 ![] bcast_S_S8192x64 : (⟨S_, .f32⟩ : BufTy).Contents (Elt F) → (⟨S8192x64, .f32⟩ : BufTy).Contents (Elt F)),
    StableHlo.binary main_v87 main_v88 main_v89 (mulf : (⟨S8192x64, .f32⟩ : BufTy).Contents (Elt F) → (⟨S8192x64, .f32⟩ : BufTy).Contents (Elt F) → (⟨S8192x64, .f32⟩ : BufTy).Contents (Elt F)),
    StableHlo.unary main_v2 main_v90 (broadcastInDim S8192x64 ![] bcast_S_S8192x64 : (⟨S_, .f32⟩ : BufTy).Contents (Elt F) → (⟨S8192x64, .f32⟩ : BufTy).Contents (Elt F)),
    StableHlo.binary main_v89 main_v90 main_v91 (addf : (⟨S8192x64, .f32⟩ : BufTy).Contents (Elt F) → (⟨S8192x64, .f32⟩ : BufTy).Contents (Elt F) → (⟨S8192x64, .f32⟩ : BufTy).Contents (Elt F)),
    StableHlo.binary main_v0 main_v91 main_v92 ((fun l r => Host.dotGeneral dot_S8192x64_S8192x64_S8192x8192_1_1_0_0_n_n none l r) : (⟨S8192x64, .f32⟩ : BufTy).Contents (Elt F) → (⟨S8192x64, .f32⟩ : BufTy).Contents (Elt F) → (⟨S8192x8192, .f32⟩ : BufTy).Contents (Elt F)) ]

set_option maxRecDepth 8192 in
theorem ops3_sub : (ops3 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub ..⟩

end Cert.ReferenceIdeal.RefOps

end
-- ==== Proof.RefRun.lean ====
/-
  The reference program as one straight line of host operations, and its run.

  The reference has no kernel: its entry function is a sequence of 125 array operations (the calls of the variance,
  the selection inside it and the two clamps spelt out at their call sites).  Run from any memory, every fair execution
  ends, and each buffer then holds the fold of the operations over the launch contents.  The line is kept in four
  stretches — the statistics (through the standard deviation), the attention (through the gated data), the first
  spatial layer (through the second contraction), and the rest — so that a later stretch can be read over the
  contents the earlier ones leave.
-/
import proofs.«111743_j36447092474548_1_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-- The whole line: the four stretches in order. -/
abbrev ops : List (HloOp τ sig (Elt F)) := ops0 ++ ops1 ++ ops2 ++ ops3

/-- The contents after two lines run in order are the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The contents after the whole line, one stretch at a time. -/
theorem after_ops (V : Valuation τ sig (Elt F)) :
    after ops V = after ops3 (after ops2 (after ops1 (after ops0 V))) := by
  simp only [ops, after_append]

set_option maxRecDepth 16384 in
set_option maxHeartbeats 4000000 in
/-- The first sixty statements of the entry function are the first three stretches. -/
theorem part0_eq (c : Dev nD) : main_part0 (F := F) c = seq (ops0 ++ ops1 ++ ops2) := rfl

set_option maxRecDepth 16384 in
set_option maxHeartbeats 4000000 in
/-- The remaining statements are the last stretch. -/
theorem part1_eq (c : Dev nD) : main_part1 (F := F) c = seq ops3 := rfl

/-- The entry function is the whole line. -/
theorem main_eq (c : Dev nD) : main (F := F) c = seq ops := by
  rw [show (ops : List (HloOp τ sig (Elt F))) = (ops0 ++ ops1 ++ ops2) ++ ops3 from rfl, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line names TensorCore buffers only. -/
theorem ops_sub : (ops : List (HloOp τ sig (Elt F))).Forall fun op => op.bufs ⊆ tcRefs τ sig :=
  List.forall_iff_forall_mem.mpr fun op h => by
    simp only [ops, List.mem_append] at h
    rcases h with ((h | h) | h) | h
    exacts [List.forall_iff_forall_mem.mp ops0_sub op h, List.forall_iff_forall_mem.mp ops1_sub op h,
      List.forall_iff_forall_mem.mp ops2_sub op h, List.forall_iff_forall_mem.mp ops3_sub op h]

/-- From any memory with zero counters every fair execution of the reference ends, and every TensorCore buffer then
    holds the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValueA.lean ====
/-
  The reference's first two stretches, read: the statistics and the channel attention.

  From launch contents `V`, after the first 53 operations: the data matrix is the two first arguments side by side;
  `mu` is the sum of all its entries over their number; `sd` the square root of the mean squared deviation plus a
  small constant; the normalised data is `Spec.xnVec` and the gated data `Spec.gatedVec` of the data matrix, at the
  parameters read off the arguments; no argument is written.  Each matrix product is read at an index as a finite sum
  over the contracted coordinate, each broadcast, transposition and reshape at the coordinate it reads.
-/
import proofs.«111743_j36447092474548_1_alg».proof.Proof.RefRun
import proofs.«111743_j36447092474548_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

namespace Cert.ReferenceIdeal.RefValueA

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo Idealize.ShloMosaic.ValueIdx

variable (V : Valuation τ sig (Elt Ideal))

/-- The data matrix: the two first arguments side by side along the channel axis. -/
def dataOf (a0 : FVec Ideal S8192x1 .f32) (a1 : FVec Ideal S8192x63 .f32) : FVec Ideal S8192x64 .f32 :=
  concatenate S8192x64 1 [⟨S8192x1, a0⟩, ⟨S8192x63, a1⟩] concatenates_S8192x1_S8192x63_S8192x64_d1

/-- The mean of all entries: their sum over their number 524288. -/
def muV (d : FVec Ideal S8192x64 .f32) : FVec Ideal S_ .f32 :=
  Cert.Spec.hostMu reducesTo_S8192x64_S_d0_1 h_S_ d

/-- The standard deviation: the square root of the variance plus the small constant — the composed term of the
    operations that compute it from the data matrix, as the program spells them. -/
def sdV (d : FVec Ideal S8192x64 .f32) : FVec Ideal S_ .f32 :=
  Cert.Spec.hostSd reducesTo_S8192x64_S_d0_1 h_S_ bcast_S_S1x1 bcast_S1x1_S8192x64_0_1 d

/-- The contents after the first two stretches. -/
abbrev W1 : Valuation τ sig (Elt Ideal) := after ops1 (after ops0 V)

/-- The data matrix of launch contents `V`. -/
abbrev dA : FVec Ideal S8192x64 .f32 := dataOf (V (main_arg0 : DevRef τ sig)) (V (main_arg1 : DevRef τ sig))

/-- The parameters of launch contents `V`. -/
abbrev PA : Cert.Spec.Params := Cert.Spec.paramsOf (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig))

/-! ## The attention's operations as composed terms, and their entries -/

/-- The normalised data as the operations compose it from the data, the two statistics and the affine pair. -/
def xnT (d : FVec Ideal S8192x64 .f32) (m s : FVec Ideal S_ .f32) (a2 a3 : FVec Ideal S64 .f32) : FVec Ideal S8192x64 .f32 :=
  addf (mulf (Host.divf (subf d (broadcastInDim S8192x64 ![] bcast_S_S8192x64 m)) (broadcastInDim S8192x64 ![] bcast_S_S8192x64 s))
      (broadcastInDim S8192x64 ![0, 1] bcast_S1x64_S8192x64_0_1 (broadcastInDim S1x64 ![1] bcast_S64_S1x64_1 a2)))
    (broadcastInDim S8192x64 ![0, 1] bcast_S1x64_S8192x64_0_1 (broadcastInDim S1x64 ![1] bcast_S64_S1x64_1 a3))

/-- The hidden rows of the channel attention as the operations compose them. -/
def hidT (x : FVec Ideal S8192x64 .f32) (a4 : FVec Ideal S16x64 .f32) (a5 : FVec Ideal S16 .f32) : FVec Ideal S8192x16 .f32 :=
  maximumf
    (addf (Host.dotGeneral dot_S8192x64_S64x16_S8192x16_1_0_0_1_n_n none x (transpose S64x16 [1, 0] a4 transposes_S16x64_S64x16_1_0))
      (broadcastInDim S8192x16 ![0, 1] bcast_S1x16_S8192x16_0_1 (broadcastInDim S1x16 ![1] bcast_S16_S1x16_1 a5)))
    (broadcastInDim S8192x16 ![] bcast_S_S8192x16 (constant S_ .f32 0x00000000#32))

/-- The gated data as the operations compose it. -/
def gatedT (x : FVec Ideal S8192x64 .f32) (a4 : FVec Ideal S16x64 .f32) (a5 : FVec Ideal S16 .f32)
    (a6 : FVec Ideal S64x16 .f32) (a7 : FVec Ideal S64 .f32) : FVec Ideal S8192x64 .f32 :=
  mulf x
    (addf (Host.dotGeneral dot_S8192x16_S16x64_S8192x64_1_0_0_1_n_n none (hidT x a4 a5) (transpose S16x64 [1, 0] a6 transposes_S64x16_S16x64_1_0))
      (broadcastInDim S8192x64 ![0, 1] bcast_S1x64_S8192x64_0_1 (broadcastInDim S1x64 ![1] bcast_S64_S1x64_1 a7)))

section Index
variable {α : Type}

/-- A vector laid out as a one-row matrix reads, at any column of that row, the vector's entry. -/
theorem bcRow_apply {n : ℕ} (h : (⟨1, ![n]⟩ : Shape).BroadcastsInDim ⟨2, ![1, n]⟩ ![1])
    (a : (⟨1, ![n]⟩ : Shape).Idx → α) (u : Fin 1) (j : Fin n) :
    broadcastInDim ⟨2, ![1, n]⟩ ![1] h a (ix2 u j) = a (ix1 j) := by
  refine broadcastInDim_apply ![1] h a (ix2 u j) (ix1 j) ?_
  intro ax
  fin_cases ax
  show j.val = if n = 1 then 0 else j.val
  split_ifs with hn
  · have := j.isLt; omega
  · rfl

/-- A vector copied into every row of a matrix reads, at row i and column j, the vector's entry j. -/
theorem bcRows_apply {m n : ℕ} (h₁ : (⟨1, ![n]⟩ : Shape).BroadcastsInDim ⟨2, ![1, n]⟩ ![1])
    (h₂ : (⟨2, ![1, n]⟩ : Shape).BroadcastsInDim ⟨2, ![m, n]⟩ ![0, 1])
    (a : (⟨1, ![n]⟩ : Shape).Idx → α) (i : Fin m) (j : Fin n) :
    broadcastInDim ⟨2, ![m, n]⟩ ![0, 1] h₂ (broadcastInDim ⟨2, ![1, n]⟩ ![1] h₁ a) (ix2 i j) = a (ix1 j) := by
  rw [broadcastInDim_oneRow_apply, bcRow_apply]

end Index

/-- The first product at an index: the sum over the 64 channels. -/
theorem dot1_apply (l : FVec Ideal S8192x64 .f32) (r : FVec Ideal S64x16 .f32) (i : Fin 8192) (k : Fin 16) :
    Host.dotGeneral dot_S8192x64_S64x16_S8192x16_1_0_0_1_n_n none l r (ix2 i k) = ∑ c : Fin 64, l (ix2 i c) * r (ix2 c k) :=
  StackMember.dotGeneral_plain_apply (m := 8192) (n := 16) (k := 64) none l r i k

/-- The second product at an index: the sum over the 16 hidden coordinates. -/
theorem dot2_apply (l : FVec Ideal S8192x16 .f32) (r : FVec Ideal S16x64 .f32) (i : Fin 8192) (j : Fin 64) :
    Host.dotGeneral dot_S8192x16_S16x64_S8192x64_1_0_0_1_n_n none l r (ix2 i j) = ∑ k : Fin 16, l (ix2 i k) * r (ix2 k j) :=
  StackMember.dotGeneral_plain_apply (m := 8192) (n := 64) (k := 16) none l r i j

theorem xnT_apply (d : FVec Ideal S8192x64 .f32) (m s : FVec Ideal S_ .f32) (a2 a3 : FVec Ideal S64 .f32) (i : Fin 8192) (j : Fin 64) :
    xnT d m s a2 a3 (ix2 i j) = Ideal.div (d (ix2 i j) - m ix0) (s ix0) * a2 (ix1 j) + a3 (ix1 j) := by
  unfold xnT
  rw [addf_apply, mulf_apply, hostDivf_apply, subf_apply, broadcastInDim_scalar_apply, broadcastInDim_scalar_apply,
    bcRows_apply, bcRows_apply]

theorem hidT_apply (x : FVec Ideal S8192x64 .f32) (a4 : FVec Ideal S16x64 .f32) (a5 : FVec Ideal S16 .f32) (i : Fin 8192) (k : Fin 16) :
    hidT x a4 a5 (ix2 i k) = max ((∑ c : Fin 64, x (ix2 i c) * a4 (ix2 k c)) + a5 (ix1 k)) Cert.Spec.zero := by
  unfold hidT
  have h : ∀ c : Fin 64, transpose S64x16 [1, 0] a4 transposes_S16x64_S64x16_1_0 (ix2 c k) = a4 (ix2 k c) :=
    fun c => transpose_ix2_apply a4 _ c k
  rw [maximumf_apply, addf_apply, dot1_apply, bcRows_apply, broadcastInDim_scalar_apply, constant_apply]
  simp only [h]

theorem gatedT_apply (x : FVec Ideal S8192x64 .f32) (a4 : FVec Ideal S16x64 .f32) (a5 : FVec Ideal S16 .f32)
    (a6 : FVec Ideal S64x16 .f32) (a7 : FVec Ideal S64 .f32) (i : Fin 8192) (j : Fin 64) :
    gatedT x a4 a5 a6 a7 (ix2 i j) = x (ix2 i j) * ((∑ k : Fin 16, hidT x a4 a5 (ix2 i k) * a6 (ix2 j k)) + a7 (ix1 j)) := by
  unfold gatedT
  have h : ∀ k : Fin 16, transpose S16x64 [1, 0] a6 transposes_S64x16_S16x64_1_0 (ix2 k j) = a6 (ix2 j k) :=
    fun k => transpose_ix2_apply a6 _ k j
  rw [mulf_apply, addf_apply, dot2_apply, bcRows_apply]
  simp only [h]

/-! ## The two stretches read at a buffer -/

/-- After the first stretch the data matrix is the two first arguments side by side. -/
theorem A0_v0 : after ops0 V (main_v0 : DevRef τ sig) = dA V := by
  after_results_simp
  rfl

/-- After the first stretch the mean is that of the data matrix. -/
theorem A0_v2 : after ops0 V (main_v2 : DevRef τ sig) = muV (dA V) := by
  after_results_simp
  rfl

/-- After the first stretch the standard deviation is that of the data matrix. -/
theorem A0_v5 : after ops0 V (main_v5 : DevRef τ sig) = sdV (dA V) := by
  after_results_simp
  rfl

theorem A0_arg2 : after ops0 V (main_arg2 : DevRef τ sig) = V (main_arg2 : DevRef τ sig) := by after_results_simp
theorem A0_arg3 : after ops0 V (main_arg3 : DevRef τ sig) = V (main_arg3 : DevRef τ sig) := by after_results_simp
theorem A0_arg4 : after ops0 V (main_arg4 : DevRef τ sig) = V (main_arg4 : DevRef τ sig) := by after_results_simp
theorem A0_arg5 : after ops0 V (main_arg5 : DevRef τ sig) = V (main_arg5 : DevRef τ sig) := by after_results_simp
theorem A0_arg6 : after ops0 V (main_arg6 : DevRef τ sig) = V (main_arg6 : DevRef τ sig) := by after_results_simp
theorem A0_arg7 : after ops0 V (main_arg7 : DevRef τ sig) = V (main_arg7 : DevRef τ sig) := by after_results_simp

/-- The second stretch leaves, as the normalised data, the composed term of the contents it starts from. -/
theorem ops1_v15 (U : Valuation τ sig (Elt Ideal)) : after ops1 U (main_v15 : DevRef τ sig)
    = xnT (U (main_v0 : DevRef τ sig)) (U (main_v2 : DevRef τ sig)) (U (main_v5 : DevRef τ sig))
        (U (main_arg2 : DevRef τ sig)) (U (main_arg3 : DevRef τ sig)) := by
  after_results_simp
  rfl

/-- The second stretch leaves, as the gated data, the composed term of the contents it starts from. -/
theorem ops1_v27 (U : Valuation τ sig (Elt Ideal)) : after ops1 U (main_v27 : DevRef τ sig)
    = gatedT (xnT (U (main_v0 : DevRef τ sig)) (U (main_v2 : DevRef τ sig)) (U (main_v5 : DevRef τ sig))
        (U (main_arg2 : DevRef τ sig)) (U (main_arg3 : DevRef τ sig)))
        (U (main_arg4 : DevRef τ sig)) (U (main_arg5 : DevRef τ sig)) (U (main_arg6 : DevRef τ sig)) (U (main_arg7 : DevRef τ sig)) := by
  after_results_simp
  rfl

/-! ## The statements -/

theorem W1_v0 : W1 V (main_v0 : DevRef τ sig) = dA V := by
  after_results_simp
  rfl

theorem W1_v2 : W1 V (main_v2 : DevRef τ sig) = muV (dA V) := by
  after_results_simp
  rfl

theorem W1_v5 : W1 V (main_v5 : DevRef τ sig) = sdV (dA V) := by
  after_results_simp
  rfl

theorem W1_v15 : W1 V (main_v15 : DevRef τ sig) = Cert.Spec.xnVec (PA V) (muV (dA V) ix0) (sdV (dA V) ix0) (dA V) := by
  funext idx
  obtain ⟨i, j, rfl⟩ : ∃ (i : Fin 8192) (j : Fin 64), idx = ix2 i j := ⟨idx 0, idx 1, eq_ix2 idx⟩
  show after ops1 (after ops0 V) (main_v15 : DevRef τ sig) (ix2 i j) = _
  rw [ops1_v15, A0_v0, A0_v2, A0_v5, A0_arg2, A0_arg3, xnT_apply]
  rfl

theorem W1_v27 : W1 V (main_v27 : DevRef τ sig) = Cert.Spec.gatedVec (PA V) (muV (dA V) ix0) (sdV (dA V) ix0) (dA V) := by
  funext idx
  obtain ⟨i, j, rfl⟩ : ∃ (i : Fin 8192) (j : Fin 64), idx = ix2 i j := ⟨idx 0, idx 1, eq_ix2 idx⟩
  show after ops1 (after ops0 V) (main_v27 : DevRef τ sig) (ix2 i j) = _
  rw [ops1_v27, A0_v0, A0_v2, A0_v5, A0_arg2, A0_arg3, A0_arg4, A0_arg5, A0_arg6, A0_arg7, gatedT_apply]
  simp only [hidT_apply, xnT_apply]
  rfl

theorem W1_arg0 : W1 V (main_arg0 : DevRef τ sig) = V (main_arg0 : DevRef τ sig) := by
  after_results_simp
theorem W1_arg1 : W1 V (main_arg1 : DevRef τ sig) = V (main_arg1 : DevRef τ sig) := by
  after_results_simp
theorem W1_arg2 : W1 V (main_arg2 : DevRef τ sig) = V (main_arg2 : DevRef τ sig) := by
  after_results_simp
theorem W1_arg3 : W1 V (main_arg3 : DevRef τ sig) = V (main_arg3 : DevRef τ sig) := by
  after_results_simp
theorem W1_arg4 : W1 V (main_arg4 : DevRef τ sig) = V (main_arg4 : DevRef τ sig) := by
  after_results_simp
theorem W1_arg5 : W1 V (main_arg5 : DevRef τ sig) = V (main_arg5 : DevRef τ sig) := by
  after_results_simp
theorem W1_arg6 : W1 V (main_arg6 : DevRef τ sig) = V (main_arg6 : DevRef τ sig) := by
  after_results_simp
theorem W1_arg7 : W1 V (main_arg7 : DevRef τ sig) = V (main_arg7 : DevRef τ sig) := by
  after_results_simp
theorem W1_arg8 : W1 V (main_arg8 : DevRef τ sig) = V (main_arg8 : DevRef τ sig) := by
  after_results_simp
theorem W1_arg9 : W1 V (main_arg9 : DevRef τ sig) = V (main_arg9 : DevRef τ sig) := by
  after_results_simp
theorem W1_arg10 : W1 V (main_arg10 : DevRef τ sig) = V (main_arg10 : DevRef τ sig) := by
  after_results_simp
theorem W1_arg11 : W1 V (main_arg11 : DevRef τ sig) = V (main_arg11 : DevRef τ sig) := by
  after_results_simp
theorem W1_arg12 : W1 V (main_arg12 : DevRef τ sig) = V (main_arg12 : DevRef τ sig) := by
  after_results_simp
theorem W1_arg13 : W1 V (main_arg13 : DevRef τ sig) = V (main_arg13 : DevRef τ sig) := by
  after_results_simp
theorem W1_arg14 : W1 V (main_arg14 : DevRef τ sig) = V (main_arg14 : DevRef τ sig) := by
  after_results_simp
theorem W1_arg15 : W1 V (main_arg15 : DevRef τ sig) = V (main_arg15 : DevRef τ sig) := by
  after_results_simp
theorem W1_arg16 : W1 V (main_arg16 : DevRef τ sig) = V (main_arg16 : DevRef τ sig) := by
  after_results_simp
theorem W1_arg17 : W1 V (main_arg17 : DevRef τ sig) = V (main_arg17 : DevRef τ sig) := by
  after_results_simp
theorem W1_arg18 : W1 V (main_arg18 : DevRef τ sig) = V (main_arg18 : DevRef τ sig) := by
  after_results_simp
theorem W1_arg19 : W1 V (main_arg19 : DevRef τ sig) = V (main_arg19 : DevRef τ sig) := by
  after_results_simp

end Cert.ReferenceIdeal.RefValueA

end
-- ==== Proof.RefValueB.lean ====
/-
  The reference's last two stretches, read over whatever contents `W` the first two leave: the spatial layers, the
  de-normalisation and the reconstruction.

  From contents `W`, after the last 72 operations: the de-normalised array is `Spec.dn`, row by row, of the gated
  array `W` holds, at the statistics and parameters `W` holds; the reconstruction is the matrix of inner products of
  the data rows with those rows; the data, the normalised data and the arguments are not written.  The logistic
  function arrives spelt out as `1 / (1 + exp (-x))`, which is its definition.
-/
import proofs.«111743_j36447092474548_1_alg».proof.Proof.RefRun
import proofs.«111743_j36447092474548_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.ReferenceIdeal.RefValueB

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo Idealize.ShloMosaic.ValueIdx

variable (W : Valuation τ sig (Elt Ideal))

/-- The contents after the last two stretches. -/
abbrev W3 : Valuation τ sig (Elt Ideal) := after ops3 (after ops2 W)

/-- The parameters `W` holds. -/
abbrev PB : Cert.Spec.Params := Cert.Spec.paramsOf (W (main_arg2 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) (W (main_arg9 : DevRef τ sig)) (W (main_arg10 : DevRef τ sig)) (W (main_arg11 : DevRef τ sig)) (W (main_arg12 : DevRef τ sig)) (W (main_arg13 : DevRef τ sig)) (W (main_arg14 : DevRef τ sig)) (W (main_arg15 : DevRef τ sig)) (W (main_arg16 : DevRef τ sig)) (W (main_arg17 : DevRef τ sig)) (W (main_arg18 : DevRef τ sig)) (W (main_arg19 : DevRef τ sig))

/-- The mean `W` holds. -/
abbrev muB : EReal := (W (main_v2 : DevRef τ sig) : FVec Ideal S_ .f32) ix0
/-- The standard deviation `W` holds. -/
abbrev sdB : EReal := (W (main_v5 : DevRef τ sig) : FVec Ideal S_ .f32) ix0
/-- Row `i` of the gated array `W` holds. -/
abbrev gB (i : Fin 8192) : Fin 64 → EReal := fun j => (W (main_v27 : DevRef τ sig) : FVec Ideal S8192x64 .f32) (ix2 i j)
/-- The data matrix `W` holds. -/
abbrev dB : FVec Ideal S8192x64 .f32 := W (main_v0 : DevRef τ sig)

/-- The bit pattern of the float one is the extended real one. -/
theorem one_eq : Ideal.ofBits .f32 0x3F800000#32 = 1 := IdealRules.sign_bit.ideal_onePat .f32

/-! ## The host's elementwise functions read at an index -/

section Reads
variable {s : Shape}

theorem hostDivf_apply (a b : FVec Ideal s .f32) (i : s.Idx) : Host.divf a b i = Ideal.div (a i) (b i) := rfl
theorem hostRsqrt_apply (a : FVec Ideal s .f32) (i : s.Idx) : Host.rsqrt a i = Ideal.rsqrt (a i) := rfl
theorem hostExp_apply (a : FVec Ideal s .f32) (i : s.Idx) : Host.exp a i = Ideal.exp (a i) := rfl
theorem hostNegf_apply (a : FVec Ideal s .f32) (i : s.Idx) : Host.negf a i = -(a i) := rfl

end Reads

/-! ## The broadcasts read at an index -/

section Layouts
variable {α : Type}

/-- A vector of 16 broadcast to a row and then down the 8192 rows reads its entry at the column. -/
theorem bc_row16 (x : S16.Idx → α) (i : Fin 8192) (k : Fin 16) :
    broadcastInDim S8192x16 ![0, 1] bcast_S1x16_S8192x16_0_1 (broadcastInDim S1x16 ![1] bcast_S16_S1x16_1 x) (ix2 i k) = x (ix1 k) := by
  rw [broadcastInDim_apply _ _ _ (ix2 i k) (ix2 (0 : Fin 1) k) (fun a => by match a with | ⟨0, _⟩ => rfl | ⟨1, _⟩ => rfl),
    broadcastInDim_apply _ _ _ (ix2 (0 : Fin 1) k) (ix1 k) (fun a => by match a with | ⟨0, _⟩ => rfl)]

/-- A vector of 64 broadcast to a row and then down the 8192 rows reads its entry at the column. -/
theorem bc_row64 (x : S64.Idx → α) (i : Fin 8192) (j : Fin 64) :
    broadcastInDim S8192x64 ![0, 1] bcast_S1x64_S8192x64_0_1 (broadcastInDim S1x64 ![1] bcast_S64_S1x64_1 x) (ix2 i j) = x (ix1 j) := by
  rw [broadcastInDim_apply _ _ _ (ix2 i j) (ix2 (0 : Fin 1) j) (fun a => by match a with | ⟨0, _⟩ => rfl | ⟨1, _⟩ => rfl),
    broadcastInDim_apply _ _ _ (ix2 (0 : Fin 1) j) (ix1 j) (fun a => by match a with | ⟨0, _⟩ => rfl)]

/-- A scalar broadcast to any of the four shapes reads the scalar everywhere. -/
theorem bc_s16 (c : S_.Idx → α) (k : Fin 16) : broadcastInDim S16 ![] bcast_S_S16 c (ix1 k) = c ix0 :=
  broadcastInDim_apply _ _ _ _ _ (fun a => a.elim0)
theorem bc_s64 (c : S_.Idx → α) (k : Fin 64) : broadcastInDim S64 ![] bcast_S_S64 c (ix1 k) = c ix0 :=
  broadcastInDim_apply _ _ _ _ _ (fun a => a.elim0)
theorem bc_s8192x16 (c : S_.Idx → α) (i : Fin 8192) (k : Fin 16) : broadcastInDim S8192x16 ![] bcast_S_S8192x16 c (ix2 i k) = c ix0 :=
  broadcastInDim_apply _ _ _ _ _ (fun a => a.elim0)
theorem bc_s8192x64 (c : S_.Idx → α) (i : Fin 8192) (k : Fin 64) : broadcastInDim S8192x64 ![] bcast_S_S8192x64 c (ix2 i k) = c ix0 :=
  broadcastInDim_apply _ _ _ _ _ (fun a => a.elim0)

/-! ## The convolutions' centre taps as matrices -/

/-- The centre tap of the first convolution, as a 64 × 16 matrix: entry (j, k) is the kernel's entry (k, j, 3). -/
theorem c1T_at (A : S16x64x7.Idx → α) (j : Fin 64) (k : Fin 16) :
    transpose S64x16 [1, 0] (shapeCast S16x64 (extractStridedSlice S16x64x1 ![0, 0, 3] A slices_S16x64x7_S16x64x1_0_0_3) shapeCasts_S16x64x1_S16x64)
      transposes_S16x64_S64x16_1_0 (ix2 j k) = A (ix3 k j (3 : Fin 7)) := by
  rw [transpose_ix2_apply,
    shapeCast_apply _ _ (ix2 k j) (ix3 k j (0 : Fin 1)) (by
      rw [Shape.rowMajor_val_three, Shape.rowMajor_val_two]
      show (k.val * 64 + j.val) * 1 + 0 = k.val * 64 + j.val
      omega),
    extractStridedSlice_apply _ _ _ (ix3 k j (0 : Fin 1)) (ix3 k j (3 : Fin 7)) (fun a => by
      match a with
      | ⟨0, _⟩ => exact (Nat.zero_add _).symm
      | ⟨1, _⟩ => exact (Nat.zero_add _).symm
      | ⟨2, _⟩ => rfl)]

/-- The centre tap of the second convolution, as a 16 × 64 matrix: entry (k, j) is the kernel's entry (j, k, 3). -/
theorem c2T_at (A : S64x16x7.Idx → α) (k : Fin 16) (j : Fin 64) :
    transpose S16x64 [1, 0] (shapeCast S64x16 (extractStridedSlice S64x16x1 ![0, 0, 3] A slices_S64x16x7_S64x16x1_0_0_3) shapeCasts_S64x16x1_S64x16)
      transposes_S64x16_S16x64_1_0 (ix2 k j) = A (ix3 j k (3 : Fin 7)) := by
  rw [transpose_ix2_apply,
    shapeCast_apply _ _ (ix2 j k) (ix3 j k (0 : Fin 1)) (by
      rw [Shape.rowMajor_val_three, Shape.rowMajor_val_two]
      show (j.val * 16 + k.val) * 1 + 0 = j.val * 16 + k.val
      omega),
    extractStridedSlice_apply _ _ _ (ix3 j k (0 : Fin 1)) (ix3 j k (3 : Fin 7)) (fun a => by
      match a with
      | ⟨0, _⟩ => exact (Nat.zero_add _).symm
      | ⟨1, _⟩ => exact (Nat.zero_add _).symm
      | ⟨2, _⟩ => rfl)]

end Layouts

/-! ## The three contractions read at an index -/

theorem dotA_eq : dot_S8192x64_S64x16_S8192x16_1_0_0_1_n_n = DotDims.plain 8192 64 16 := rfl
theorem dotB_eq : dot_S8192x16_S16x64_S8192x64_1_0_0_1_n_n = DotDims.plain 8192 16 64 := rfl
theorem dotC_eq : dot_S8192x64_S8192x64_S8192x8192_1_1_0_0_n_n = DotDims.transposedRhs 8192 64 8192 := rfl

/-- A rows × inner by columns × inner product (the right operand contracted on its last axis) at (a, b): the sum over
    the inner coordinate of the products of the two rows' entries. -/
theorem transposedRhs_at {m k n : Nat} (A : FVec Ideal ⟨2, ![m, k]⟩ .f32) (B : FVec Ideal ⟨2, ![n, k]⟩ .f32) (a : Fin m) (b : Fin n) :
    Host.dotGeneral (DotDims.transposedRhs m k n) none A B (ix2 a b) = ∑ c : Fin k, A (ix2 a c) * B (ix2 b c) := by
  show FloatOps.dotGeneral _ none _ A B (ix2 a b) = _
  rw [Ideal.dotGeneral_apply, ← Equiv.sum_comp (contrEquiv1 (DotDims.transposedRhs m k n) k rfl rfl).symm]
  refine Finset.sum_congr rfl fun c _ => ?_
  have hc := contrEquiv1_symm_val (DotDims.transposedRhs m k n) k rfl rfl c
  have hl : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact hc
  have hr : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact hc
  rw [hl, hr]

/-! ## Entries as extended reals -/

/-- Entry (i, j) of a 8192 × 64 array, entry j of a vector of 64, and a scalar, as extended reals. -/
abbrev at2 (x : FVec Ideal S8192x64 .f32) (i : Fin 8192) (j : Fin 64) : EReal := x (ix2 i j)
abbrev at1 (x : FVec Ideal S64 .f32) (j : Fin 64) : EReal := x (ix1 j)
abbrev at0 (x : FVec Ideal S_ .f32) : EReal := x ix0

/-! ## The first spatial layer and the second contraction -/

/-- After the first of the two stretches the second contraction's result at (i, j) is the sum over the 16 hidden
    channels of the first spatial layer of row `i` of the gated array times the second centre tap. -/
theorem v54_at (i : Fin 8192) (j : Fin 64) :
    at2 (after ops2 W (main_v54 : DevRef τ sig)) i j
      = ∑ k : Fin 16, Cert.Spec.sp1 (PB W) (gB W i) k * (PB W).c2 j k := by
  show @Eq EReal ((after ops2 W (main_v54 : DevRef τ sig) : FVec Ideal S8192x64 .f32) (ix2 i j)) _
  after_results_simp
  simp only [TRef.toBuf, TRef.ofBuf, cast_eq]
  generalize hT1 : transpose S64x16 [1, 0] _ transposes_S16x64_S64x16_1_0 = T1
  generalize hT2 : transpose S16x64 [1, 0] _ transposes_S64x16_S16x64_1_0 = T2
  have h1 : ∀ c k, T1 (ix2 c k) = (PB W).c1 k c := fun c k => by rw [← hT1]; exact c1T_at _ c k
  have h2 : ∀ k j, T2 (ix2 k j) = (PB W).c2 j k := fun k j => by rw [← hT2]; exact c2T_at _ k j
  clear hT1 hT2
  rw [dotB_eq, dotA_eq, StackMember.dotGeneral_plain_apply]
  refine Finset.sum_congr rfl fun k _ => ?_
  rw [h2]
  simp only [maximumf_apply, addf_apply, mulf_apply, subf_apply]
  rw [bc_row16, bc_row16, bc_row16, bc_row16, bc_row16, bc_s8192x16]
  simp only [hostRsqrt_apply, addf_apply]
  rw [bc_s16, StackMember.dotGeneral_plain_apply]
  simp only [h1, constant_apply]
  rfl

/-! ## The second spatial layer, the logistic gate and the de-normalisation -/

/-- After the last stretch run from any contents `X`, the de-normalised array at (i, j): the second contraction's
    result `X` holds goes through bias, running statistics, scale and shift; the logistic function of that gates the
    gated array; the affine pair, the standard deviation and the mean are undone. -/
theorem ops3_v91_at (X : Valuation τ sig (Elt Ideal)) (i : Fin 8192) (j : Fin 64) :
    at2 (after ops3 X (main_v91 : DevRef τ sig)) i j
      = Ideal.div (at2 (X (main_v27 : DevRef τ sig)) i j
            * Ideal.logistic (((at2 (X (main_v54 : DevRef τ sig)) i j + at1 (X (main_arg15 : DevRef τ sig)) j)
                - at1 (X (main_arg18 : DevRef τ sig)) j)
              * Ideal.rsqrt (at1 (X (main_arg19 : DevRef τ sig)) j + Cert.Spec.eps)
              * at1 (X (main_arg16 : DevRef τ sig)) j
              + at1 (X (main_arg17 : DevRef τ sig)) j)
          - at1 (X (main_arg3 : DevRef τ sig)) j)
        (at1 (X (main_arg2 : DevRef τ sig)) j + Cert.Spec.eps2)
        * at0 (X (main_v5 : DevRef τ sig))
        + at0 (X (main_v2 : DevRef τ sig)) := by
  show @Eq EReal ((after ops3 X (main_v91 : DevRef τ sig) : FVec Ideal S8192x64 .f32) (ix2 i j)) _
  after_results_simp
  simp only [addf_apply, mulf_apply, subf_apply, hostDivf_apply, hostExp_apply, hostNegf_apply]
  rw [bc_row64, bc_row64, bc_row64, bc_row64, bc_row64, bc_row64, bc_row64, bc_s8192x64, bc_s8192x64, bc_s8192x64]
  simp only [hostRsqrt_apply, addf_apply]
  rw [bc_s64, bc_s64]
  simp only [constant_apply, one_eq]
  rfl

/-- The reconstruction after the last stretch is the product of the data `X` holds with the de-normalised array the
    stretch computes, both contracted on their channel axis. -/
theorem ops3_v92 (X : Valuation τ sig (Elt Ideal)) :
    @Eq (FVec Ideal S8192x8192 .f32) (after ops3 X (main_v92 : DevRef τ sig))
      (Host.dotGeneral (φ₁ := .f32) (φ₂ := .f32) dot_S8192x64_S8192x64_S8192x8192_1_1_0_0_n_n none (X (main_v0 : DevRef τ sig) : FVec Ideal S8192x64 .f32)
          (after ops3 X (main_v91 : DevRef τ sig) : FVec Ideal S8192x64 .f32)) := by
  after_results_simp

/-! ## What the first of the two stretches does not write -/

theorem ops2_v0 : after ops2 W (main_v0 : DevRef τ sig) = W (main_v0 : DevRef τ sig) := by after_results_simp
theorem ops2_v2 : after ops2 W (main_v2 : DevRef τ sig) = W (main_v2 : DevRef τ sig) := by after_results_simp
theorem ops2_v5 : after ops2 W (main_v5 : DevRef τ sig) = W (main_v5 : DevRef τ sig) := by after_results_simp
theorem ops2_v27 : after ops2 W (main_v27 : DevRef τ sig) = W (main_v27 : DevRef τ sig) := by after_results_simp
theorem ops2_arg2 : after ops2 W (main_arg2 : DevRef τ sig) = W (main_arg2 : DevRef τ sig) := by after_results_simp
theorem ops2_arg3 : after ops2 W (main_arg3 : DevRef τ sig) = W (main_arg3 : DevRef τ sig) := by after_results_simp
theorem ops2_arg15 : after ops2 W (main_arg15 : DevRef τ sig) = W (main_arg15 : DevRef τ sig) := by after_results_simp
theorem ops2_arg16 : after ops2 W (main_arg16 : DevRef τ sig) = W (main_arg16 : DevRef τ sig) := by after_results_simp
theorem ops2_arg17 : after ops2 W (main_arg17 : DevRef τ sig) = W (main_arg17 : DevRef τ sig) := by after_results_simp
theorem ops2_arg18 : after ops2 W (main_arg18 : DevRef τ sig) = W (main_arg18 : DevRef τ sig) := by after_results_simp
theorem ops2_arg19 : after ops2 W (main_arg19 : DevRef τ sig) = W (main_arg19 : DevRef τ sig) := by after_results_simp

/-! ## The statements -/

theorem W3_v91 : W3 W (main_v91 : DevRef τ sig)
    = (fun idx => Cert.Spec.dn (PB W) (muB W) (sdB W) (gB W (idx 0)) (idx 1) : FVec Ideal S8192x64 .f32) := by
  funext idx
  obtain ⟨a, b, rfl⟩ : ∃ (a : Fin 8192) (b : Fin 64), idx = ix2 a b := ⟨idx 0, idx 1, eq_ix2 idx⟩
  refine (ops3_v91_at (after ops2 W) a b).trans ?_
  rw [v54_at, ops2_v27, ops2_arg15, ops2_arg18, ops2_arg19, ops2_arg16, ops2_arg17, ops2_arg3, ops2_arg2, ops2_v5, ops2_v2]
  rfl

theorem W3_v92 : W3 W (main_v92 : DevRef τ sig)
    = (fun idx => ∑ c : Fin 64, dB W (ix2 (idx 0) c)
        * Cert.Spec.dn (PB W) (muB W) (sdB W) (gB W (idx 1)) c : FVec Ideal S8192x8192 .f32) := by
  funext idx
  obtain ⟨a, b, rfl⟩ : ∃ (a : Fin 8192) (b : Fin 8192), idx = ix2 a b := ⟨idx 0, idx 1, eq_ix2 idx⟩
  show @Eq EReal ((after ops3 (after ops2 W) (main_v92 : DevRef τ sig) : FVec Ideal S8192x8192 .f32) (ix2 a b)) _
  rw [ops3_v92, dotC_eq, transposedRhs_at]
  refine Finset.sum_congr rfl fun c _ => ?_
  rw [show (after ops3 (after ops2 W) (main_v91 : DevRef τ sig) : FVec Ideal S8192x64 .f32) = _ from W3_v91 W, ops2_v0]

theorem W3_v0 : W3 W (main_v0 : DevRef τ sig) = W (main_v0 : DevRef τ sig) := by
  show after ops3 (after ops2 W) _ = _
  after_results_simp

theorem W3_v15 : W3 W (main_v15 : DevRef τ sig) = W (main_v15 : DevRef τ sig) := by
  show after ops3 (after ops2 W) _ = _
  after_results_simp

theorem W3_arg0 : W3 W (main_arg0 : DevRef τ sig) = W (main_arg0 : DevRef τ sig) := by
  show after ops3 (after ops2 W) _ = _
  after_results_simp
theorem W3_arg1 : W3 W (main_arg1 : DevRef τ sig) = W (main_arg1 : DevRef τ sig) := by
  show after ops3 (after ops2 W) _ = _
  after_results_simp
theorem W3_arg2 : W3 W (main_arg2 : DevRef τ sig) = W (main_arg2 : DevRef τ sig) := by
  show after ops3 (after ops2 W) _ = _
  after_results_simp
theorem W3_arg3 : W3 W (main_arg3 : DevRef τ sig) = W (main_arg3 : DevRef τ sig) := by
  show after ops3 (after ops2 W) _ = _
  after_results_simp
theorem W3_arg4 : W3 W (main_arg4 : DevRef τ sig) = W (main_arg4 : DevRef τ sig) := by
  show after ops3 (after ops2 W) _ = _
  after_results_simp
theorem W3_arg5 : W3 W (main_arg5 : DevRef τ sig) = W (main_arg5 : DevRef τ sig) := by
  show after ops3 (after ops2 W) _ = _
  after_results_simp
theorem W3_arg6 : W3 W (main_arg6 : DevRef τ sig) = W (main_arg6 : DevRef τ sig) := by
  show after ops3 (after ops2 W) _ = _
  after_results_simp
theorem W3_arg7 : W3 W (main_arg7 : DevRef τ sig) = W (main_arg7 : DevRef τ sig) := by
  show after ops3 (after ops2 W) _ = _
  after_results_simp
theorem W3_arg8 : W3 W (main_arg8 : DevRef τ sig) = W (main_arg8 : DevRef τ sig) := by
  show after ops3 (after ops2 W) _ = _
  after_results_simp
theorem W3_arg9 : W3 W (main_arg9 : DevRef τ sig) = W (main_arg9 : DevRef τ sig) := by
  show after ops3 (after ops2 W) _ = _
  after_results_simp
theorem W3_arg10 : W3 W (main_arg10 : DevRef τ sig) = W (main_arg10 : DevRef τ sig) := by
  show after ops3 (after ops2 W) _ = _
  after_results_simp
theorem W3_arg11 : W3 W (main_arg11 : DevRef τ sig) = W (main_arg11 : DevRef τ sig) := by
  show after ops3 (after ops2 W) _ = _
  after_results_simp
theorem W3_arg12 : W3 W (main_arg12 : DevRef τ sig) = W (main_arg12 : DevRef τ sig) := by
  show after ops3 (after ops2 W) _ = _
  after_results_simp
theorem W3_arg13 : W3 W (main_arg13 : DevRef τ sig) = W (main_arg13 : DevRef τ sig) := by
  show after ops3 (after ops2 W) _ = _
  after_results_simp
theorem W3_arg14 : W3 W (main_arg14 : DevRef τ sig) = W (main_arg14 : DevRef τ sig) := by
  show after ops3 (after ops2 W) _ = _
  after_results_simp
theorem W3_arg15 : W3 W (main_arg15 : DevRef τ sig) = W (main_arg15 : DevRef τ sig) := by
  show after ops3 (after ops2 W) _ = _
  after_results_simp
theorem W3_arg16 : W3 W (main_arg16 : DevRef τ sig) = W (main_arg16 : DevRef τ sig) := by
  show after ops3 (after ops2 W) _ = _
  after_results_simp
theorem W3_arg17 : W3 W (main_arg17 : DevRef τ sig) = W (main_arg17 : DevRef τ sig) := by
  show after ops3 (after ops2 W) _ = _
  after_results_simp
theorem W3_arg18 : W3 W (main_arg18 : DevRef τ sig) = W (main_arg18 : DevRef τ sig) := by
  show after ops3 (after ops2 W) _ = _
  after_results_simp
theorem W3_arg19 : W3 W (main_arg19 : DevRef τ sig) = W (main_arg19 : DevRef τ sig) := by
  show after ops3 (after ops2 W) _ = _
  after_results_simp

end Cert.ReferenceIdeal.RefValueB

end
-- ==== Proof.RefValue.lean ====
/-
  The reference program's run, with its four results named.

  The reference's line of operations, read in two halves: the first half leaves the data matrix, its two statistics,
  the normalised data and the gated data; the second half, run over what the first leaves, de-normalises the gated
  data row by row and takes the inner products with the data rows.  A de-normalised gated row is by definition the
  specification's output row, so the four results are `Spec.reconVec`, `Spec.wVec`, the data matrix and `Spec.xnVec`
  at the parameters read off the arguments and the statistics of the data matrix; the arguments are unchanged.
-/
import proofs.«111743_j36447092474548_1_alg».proof.Proof.RefValueA
import proofs.«111743_j36447092474548_1_alg».proof.Proof.RefValueB

noncomputable section

namespace Cert.ReferenceIdeal.RefValue

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo Idealize.ShloMosaic.ValueIdx

section Fold

variable (V : Valuation τ sig (Elt Ideal))

/-- The second half reads the parameters the launch contents hold: the first half writes no argument. -/
theorem PB_W1 : RefValueB.PB (RefValueA.W1 V) = RefValueA.PA V := by
  show Cert.Spec.paramsOf _ _ _ _ _ _ _ _ _ _ _ _ _ _ _ _ _ _ = Cert.Spec.paramsOf _ _ _ _ _ _ _ _ _ _ _ _ _ _ _ _ _ _
  rw [RefValueA.W1_arg2 V, RefValueA.W1_arg3 V, RefValueA.W1_arg4 V, RefValueA.W1_arg5 V, RefValueA.W1_arg6 V, RefValueA.W1_arg7 V, RefValueA.W1_arg8 V, RefValueA.W1_arg9 V, RefValueA.W1_arg10 V, RefValueA.W1_arg11 V, RefValueA.W1_arg12 V, RefValueA.W1_arg13 V, RefValueA.W1_arg14 V, RefValueA.W1_arg15 V, RefValueA.W1_arg16 V, RefValueA.W1_arg17 V, RefValueA.W1_arg18 V, RefValueA.W1_arg19 V]

/-- The whole line's fold is the second half's over the first half's. -/
theorem after_eq : after ops V = RefValueB.W3 (RefValueA.W1 V) := after_ops V

theorem v0_eq : after ops V (main_v0 : DevRef τ sig) = RefValueA.dA V := by
  rw [after_eq, RefValueB.W3_v0, RefValueA.W1_v0]

theorem v15_eq : after ops V (main_v15 : DevRef τ sig)
    = Cert.Spec.xnVec (RefValueA.PA V) (RefValueA.muV (RefValueA.dA V) ix0) (RefValueA.sdV (RefValueA.dA V) ix0) (RefValueA.dA V) := by
  rw [after_eq, RefValueB.W3_v15, RefValueA.W1_v15]

theorem v91_eq : after ops V (main_v91 : DevRef τ sig)
    = Cert.Spec.wVec (RefValueA.PA V) (RefValueA.muV (RefValueA.dA V) ix0) (RefValueA.sdV (RefValueA.dA V) ix0) (RefValueA.dA V) := by
  rw [after_eq, RefValueB.W3_v91]
  funext idx
  show Cert.Spec.dn (RefValueB.PB (RefValueA.W1 V)) (RefValueB.muB (RefValueA.W1 V)) (RefValueB.sdB (RefValueA.W1 V))
      (RefValueB.gB (RefValueA.W1 V) (idx 0)) (idx 1) = _
  rw [PB_W1]
  unfold RefValueB.muB RefValueB.sdB RefValueB.gB
  rw [RefValueA.W1_v2, RefValueA.W1_v5, RefValueA.W1_v27]
  rfl

theorem v92_eq : after ops V (main_v92 : DevRef τ sig)
    = Cert.Spec.reconVec (RefValueA.PA V) (RefValueA.muV (RefValueA.dA V) ix0) (RefValueA.sdV (RefValueA.dA V) ix0) (RefValueA.dA V) := by
  rw [after_eq, RefValueB.W3_v92]
  funext idx
  show ∑ c : Fin 64, RefValueB.dB (RefValueA.W1 V) (ix2 (idx 0) c)
      * Cert.Spec.dn (RefValueB.PB (RefValueA.W1 V)) (RefValueB.muB (RefValueA.W1 V)) (RefValueB.sdB (RefValueA.W1 V))
        (RefValueB.gB (RefValueA.W1 V) (idx 1)) c = _
  rw [PB_W1]
  unfold RefValueB.muB RefValueB.sdB RefValueB.gB RefValueB.dB
  rw [RefValueA.W1_v2, RefValueA.W1_v5, RefValueA.W1_v27, RefValueA.W1_v0]
  rfl

end Fold

variable (m : (ℓ : Loc nD τ sig) → Buf (Elt Ideal) ℓ) (ρ : Dev nD → PrngReg)

/-- The data matrix of the launch memory. -/
abbrev dataAt (c : Dev nD) : FVec Ideal S8192x64 .f32 :=
  RefValueA.dataOf (m ((c.tc : Thread nD τ).loc main_arg0)) (m ((c.tc : Thread nD τ).loc main_arg1))
/-- The parameters of the launch memory. -/
abbrev paramsAt (c : Dev nD) : Cert.Spec.Params := Cert.Spec.paramsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
/-- The mean of the data matrix. -/
abbrev muAt (c : Dev nD) : EReal := RefValueA.muV (dataAt m c) ix0
/-- The standard deviation of the data matrix. -/
abbrev sdAt (c : Dev nD) : EReal := RefValueA.sdV (dataAt m c) ix0

/-- From any memory with zero counters every weakly fair execution of the reference terminates, nothing faulting,
    with the four results at the specification's arrays and the arguments unchanged. -/
theorem run : θ_run defs (onTc (τ := τ) (main (F := Ideal))) ⟨m, fun _ => 0, ρ⟩ (fun r => ∀ c : Dev nD,
      r.2.mem ((c.tc : Thread nD τ).loc main_v92) = Cert.Spec.reconVec (paramsAt m c) (muAt m c) (sdAt m c) (dataAt m c)
      ∧ r.2.mem ((c.tc : Thread nD τ).loc main_v91) = Cert.Spec.wVec (paramsAt m c) (muAt m c) (sdAt m c) (dataAt m c)
      ∧ r.2.mem ((c.tc : Thread nD τ).loc main_v0) = dataAt m c
      ∧ r.2.mem ((c.tc : Thread nD τ).loc main_v15) = Cert.Spec.xnVec (paramsAt m c) (muAt m c) (sdAt m c) (dataAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c main_v92).trans (v92_eq (launchContents m c)),
      (h c main_v91).trans (v91_eq (launchContents m c)),
      (h c main_v0).trans (v0_eq (launchContents m c)),
      (h c main_v15).trans (v15_eq (launchContents m c)),
      (h c main_arg0).trans (by rw [after_eq, RefValueB.W3_arg0, RefValueA.W1_arg0]),
      (h c main_arg1).trans (by rw [after_eq, RefValueB.W3_arg1, RefValueA.W1_arg1]),
      (h c main_arg2).trans (by rw [after_eq, RefValueB.W3_arg2, RefValueA.W1_arg2]),
      (h c main_arg3).trans (by rw [after_eq, RefValueB.W3_arg3, RefValueA.W1_arg3]),
      (h c main_arg4).trans (by rw [after_eq, RefValueB.W3_arg4, RefValueA.W1_arg4]),
      (h c main_arg5).trans (by rw [after_eq, RefValueB.W3_arg5, RefValueA.W1_arg5]),
      (h c main_arg6).trans (by rw [after_eq, RefValueB.W3_arg6, RefValueA.W1_arg6]),
      (h c main_arg7).trans (by rw [after_eq, RefValueB.W3_arg7, RefValueA.W1_arg7]),
      (h c main_arg8).trans (by rw [after_eq, RefValueB.W3_arg8, RefValueA.W1_arg8]),
      (h c main_arg9).trans (by rw [after_eq, RefValueB.W3_arg9, RefValueA.W1_arg9]),
      (h c main_arg10).trans (by rw [after_eq, RefValueB.W3_arg10, RefValueA.W1_arg10]),
      (h c main_arg11).trans (by rw [after_eq, RefValueB.W3_arg11, RefValueA.W1_arg11]),
      (h c main_arg12).trans (by rw [after_eq, RefValueB.W3_arg12, RefValueA.W1_arg12]),
      (h c main_arg13).trans (by rw [after_eq, RefValueB.W3_arg13, RefValueA.W1_arg13]),
      (h c main_arg14).trans (by rw [after_eq, RefValueB.W3_arg14, RefValueA.W1_arg14]),
      (h c main_arg15).trans (by rw [after_eq, RefValueB.W3_arg15, RefValueA.W1_arg15]),
      (h c main_arg16).trans (by rw [after_eq, RefValueB.W3_arg16, RefValueA.W1_arg16]),
      (h c main_arg17).trans (by rw [after_eq, RefValueB.W3_arg17, RefValueA.W1_arg17]),
      (h c main_arg18).trans (by rw [after_eq, RefValueB.W3_arg18, RefValueA.W1_arg18]),
      (h c main_arg19).trans (by rw [after_eq, RefValueB.W3_arg19, RefValueA.W1_arg19])⟩)
    (run_main m ρ)

end Cert.ReferenceIdeal.RefValue

end
-- ==== Proof.lean ====
/-
  The certificate: a signal reconstruction layer as two tiled kernels against its whole-array reference.

  Both programs lay two arguments side by side into an 8192 × 64 data matrix, take the mean and the standard
  deviation of all its entries, normalise every row (an affine map of `(x - mean) / deviation`), weight it by a
  two-layer channel attention (two small matrix products with a clamp between them), pass the result through two
  spatial layers that act on each row alone (the centre taps of two convolutions, each followed by a normalisation
  with running statistics, the first clamped), gate with the logistic function, undo the normalisation, and finally
  form the 8192 × 8192 matrix of inner products of the data rows with the rows so obtained.  The kernel program does
  the row-wise part in a first kernel over four blocks of 2048 rows and the inner products in a second kernel over an
  8 × 8 grid of 1024 × 1024 blocks; the reference does both on whole arrays.  Over the extended reals every operation
  of the two programs is the same exact function (a change of float format is the identity, a matrix product a finite
  sum, the logistic function its defining quotient), applied to the same operands in the same order, so the four
  results agree entry by entry: both are the arrays `Spec.reconVec`, `Spec.wVec`, the data matrix and `Spec.xnVec`.
  No algebraic law is used and the finiteness of the inputs is never needed.

  The frames of the two kernel programs are the generated ones; the reference's frame is its run with the results
  dropped; the idealization rewrote nothing.
-/
import proofs.«111743_j36447092474548_1_alg».proof.Defs
import proofs.«111743_j36447092474548_1_alg».proof.Proof.Gen.Kernel
import proofs.«111743_j36447092474548_1_alg».proof.Proof.Gen.Kernel.Frame
import proofs.«111743_j36447092474548_1_alg».proof.Proof.Gen.KernelIdeal
import proofs.«111743_j36447092474548_1_alg».proof.Proof.Gen.KernelIdeal.Frame
import proofs.«111743_j36447092474548_1_alg».proof.Proof.Gen.ReferenceIdeal
import proofs.«111743_j36447092474548_1_alg».proof.Proof.Gen.Pre_finite_inputs
import proofs.«111743_j36447092474548_1_alg».proof.Proof.KValue
import proofs.«111743_j36447092474548_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, the four results dropped. -/
theorem frame_ri : Cert.frame_ReferenceIdeal := fun m ρ _ =>
  (θ_run Cert.ReferenceIdeal.defs _ _).mono (fun _ h c => (h c).2.2.2.2) (Cert.ReferenceIdeal.RefValue.run m ρ)

/-- The two programs, run from memories that agree on the arguments, end with the same four arrays: each side's run
    names them as the specification's arrays of its own arguments, and those arguments agree. -/
theorem algebraic : Cert.algebraic_KernelIdeal_ReferenceIdeal := by
  intro m ρ m' ρ' _ hagree
  refine ⟨fun c => Cert.Spec.reconVec (Cert.KernelIdeal.KValue.paramsAt m c) (Cert.KernelIdeal.KValue.muAt m c) (Cert.KernelIdeal.KValue.sdAt m c) (Cert.KernelIdeal.KValue.dataAt m c),
    fun c => Cert.Spec.wVec (Cert.KernelIdeal.KValue.paramsAt m c) (Cert.KernelIdeal.KValue.muAt m c) (Cert.KernelIdeal.KValue.sdAt m c) (Cert.KernelIdeal.KValue.dataAt m c),
    fun c => Cert.KernelIdeal.KValue.dataAt m c,
    fun c => Cert.Spec.xnVec (Cert.KernelIdeal.KValue.paramsAt m c) (Cert.KernelIdeal.KValue.muAt m c) (Cert.KernelIdeal.KValue.sdAt m c) (Cert.KernelIdeal.KValue.dataAt m c),
    Cert.KernelIdeal.KValue.run m ρ, ?_⟩
  refine (θ_run Cert.ReferenceIdeal.defs _ _).mono (fun r h c => ?_) (Cert.ReferenceIdeal.RefValue.run m' ρ')
  obtain ⟨a0, a1, a2, a3, a4, a5, a6, a7, a8, a9, a10, a11, a12, a13, a14, a15, a16, a17, a18, a19⟩ := hagree c
  have eD : Cert.ReferenceIdeal.RefValue.dataAt m' c = Cert.KernelIdeal.KValue.dataAt m c := by
    unfold Cert.ReferenceIdeal.RefValue.dataAt Cert.KernelIdeal.KValue.dataAt
    rw [a0, a1]
    rfl
  have eP : Cert.ReferenceIdeal.RefValue.paramsAt m' c = Cert.KernelIdeal.KValue.paramsAt m c := by
    unfold Cert.ReferenceIdeal.RefValue.paramsAt Cert.KernelIdeal.KValue.paramsAt
    rw [a2, a3, a4, a5, a6, a7, a8, a9, a10, a11, a12, a13, a14, a15, a16, a17, a18, a19]
  have eMu : Cert.ReferenceIdeal.RefValue.muAt m' c = Cert.KernelIdeal.KValue.muAt m c := by
    unfold Cert.ReferenceIdeal.RefValue.muAt Cert.KernelIdeal.KValue.muAt
    rw [eD]
    rfl
  have eSd : Cert.ReferenceIdeal.RefValue.sdAt m' c = Cert.KernelIdeal.KValue.sdAt m c := by
    unfold Cert.ReferenceIdeal.RefValue.sdAt Cert.KernelIdeal.KValue.sdAt
    rw [eD]
    rfl
  obtain ⟨h0, h1, h2, h3, hargs⟩ := h c
  rw [eP, eMu, eSd, eD] at h0 h1 h3
  rw [eD] at h2
  exact ⟨h0, h1, h2, h3, hargs⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
